-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x6 : Shape := ⟨2, ![4096, 6]⟩
abbrev S128x512x3712 : Shape := ⟨3, ![128, 512, 3712]⟩
abbrev S128x1856x512 : Shape := ⟨3, ![128, 1856, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x6 : S_.BroadcastsInDim S4096x6 (![] : Fin 0 → Fin S4096x6.rank)
  reducesTo_S4096x6_S_d0_1 : S4096x6.ReducesTo [0, 1] S_
  bcast_S_S128x512x3712 : S_.BroadcastsInDim S128x512x3712 (![] : Fin 0 → Fin S128x512x3712.rank)
  reducesTo_S128x512x3712_S_d0_1_2 : S128x512x3712.ReducesTo [0, 1, 2] S_
  bcast_S_S128x1856x512 : S_.BroadcastsInDim S128x1856x512 (![] : Fin 0 → Fin S128x1856x512.rank)
  reducesTo_S128x1856x512_S_d0_1_2 : S128x1856x512.ReducesTo [0, 1, 2] S_

variable [Facts]

def fn_part1 {F : FTy → Type} [FloatOps F] (main_arg1 : IVec S4096x6 32) (main_v13 : IVec S_ 1) (main_v16 : IVec S128x1856x512 1) : IVec S_ 1 :=
  let main_c_5 : IVec S_ 1 := constantI S_ 1 1#1
  let main_v17 : IVec S_ 1 := (fun x v => Host.reduce IntOp.andi x v reducesTo_S128x1856x512_S_d0_1_2 h_S_) main_v16 main_c_5
  let main_v18 : IVec S_ 1 := andi main_v13 main_v17
  let main_c_6 : IVec S_ 32 := constantI S_ 32 0#32
  let main_v19 : IVec S4096x6 32 := broadcastInDim S4096x6 ![] bcast_S_S4096x6 main_c_6
  let main_v20 : IVec S4096x6 1 := cmpi .sge main_arg1 main_v19
  let main_c_7 : IVec S_ 1 := constantI S_ 1 1#1
  let main_v21 : IVec S_ 1 := (fun x v => Host.reduce IntOp.andi x v reducesTo_S4096x6_S_d0_1 h_S_) main_v20 main_c_7
  let main_v22 : IVec S_ 1 := andi main_v18 main_v21
  let main_c_8 : IVec S_ 32 := constantI S_ 32 128#32
  let main_v23 : IVec S4096x6 32 := broadcastInDim S4096x6 ![] bcast_S_S4096x6 main_c_8
  let main_v24 : IVec S4096x6 1 := cmpi .slt main_arg1 main_v23
  let main_c_9 : IVec S_ 1 := constantI S_ 1 1#1
  let main_v25 : IVec S_ 1 := (fun x v => Host.reduce IntOp.andi x v reducesTo_S4096x6_S_d0_1 h_S_) main_v24 main_c_9
  let main_v26 : IVec S_ 1 := andi main_v22 main_v25
  main_v26

def fn {F : FTy → Type} [FloatOps F] (main_arg0 : FVec F S4096x512 .f32) (main_arg1 : IVec S4096x6 32) (main_arg2 : FVec F S4096x6 .f32) (main_arg3 : FVec F S128x512x3712 .f32) (main_arg4 : FVec F S128x1856x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x6 .f32 := Host.absf main_arg2
  let main_cst_0 : FVec F S_ .f32 := constant S_ .f32 0x7F800000#32
  let main_v5 : FVec F S4096x6 .f32 := broadcastInDim S4096x6 ![] bcast_S_S4096x6 main_cst_0
  let main_v6 : IVec S4096x6 1 := cmpf .olt main_v4 main_v5
  let main_c_1 : IVec S_ 1 := constantI S_ 1 1#1
  let main_v7 : IVec S_ 1 := (fun x v => Host.reduce IntOp.andi x v reducesTo_S4096x6_S_d0_1 h_S_) main_v6 main_c_1
  let main_v8 : IVec S_ 1 := andi main_v3 main_v7
  let main_v9 : FVec F S128x512x3712 .f32 := Host.absf main_arg3
  let main_cst_2 : FVec F S_ .f32 := constant S_ .f32 0x7F800000#32
  let main_v10 : FVec F S128x512x3712 .f32 := broadcastInDim S128x512x3712 ![] bcast_S_S128x512x3712 main_cst_2
  let main_v11 : IVec S128x512x3712 1 := cmpf .olt main_v9 main_v10
  let main_c_3 : IVec S_ 1 := constantI S_ 1 1#1
  let main_v12 : IVec S_ 1 := (fun x v => Host.reduce IntOp.andi x v reducesTo_S128x512x3712_S_d0_1_2 h_S_) main_v11 main_c_3
  let main_v13 : IVec S_ 1 := andi main_v8 main_v12
  let main_v14 : FVec F S128x1856x512 .f32 := Host.absf main_arg4
  let main_cst_4 : FVec F S_ .f32 := constant S_ .f32 0x7F800000#32
  let main_v15 : FVec F S128x1856x512 .f32 := broadcastInDim S128x1856x512 ![] bcast_S_S128x1856x512 main_cst_4
  let main_v16 : IVec S128x1856x512 1 := cmpf .olt main_v14 main_v15
  fn_part1 (F := F) main_arg1 main_v13 main_v16
-- ==== Kernel.lean ====
abbrev S4096x512 : Shape := ⟨2, ![4096, 512]⟩
abbrev S4096x6 : Shape := ⟨2, ![4096, 6]⟩
abbrev S128x512x3712 : Shape := ⟨3, ![128, 512, 3712]⟩
abbrev S128x1856x512 : Shape := ⟨3, ![128, 1856, 512]⟩
abbrev S24576 : Shape := ⟨1, ![24576]⟩
abbrev S4096 : Shape := ⟨1, ![4096]⟩
abbrev S_ : Shape := ⟨0, ![]⟩
abbrev S24576x1 : Shape := ⟨2, ![24576, 1]⟩
abbrev S128 : Shape := ⟨1, ![128]⟩
abbrev S40961x512 : Shape := ⟨2, ![40961, 512]⟩
abbrev S24576x512 : Shape := ⟨2, ![24576, 512]⟩
abbrev S40960x512 : Shape := ⟨2, ![40960, 512]⟩
abbrev S128x320x512 : Shape := ⟨3, ![128, 320, 512]⟩
abbrev S1x320x512 : Shape := ⟨3, ![1, 320, 512]⟩
abbrev S1x512x3712 : Shape := ⟨3, ![1, 512, 3712]⟩
abbrev S1x1856x512 : Shape := ⟨3, ![1, 1856, 512]⟩
abbrev S320x512 : Shape := ⟨2, ![320, 512]⟩
abbrev S1x512x1856 : Shape := ⟨3, ![1, 512, 1856]⟩
abbrev S512x1856 : Shape := ⟨2, ![512, 1856]⟩
abbrev S320x1856 : Shape := ⟨2, ![320, 1856]⟩
abbrev S1856x512 : Shape := ⟨2, ![1856, 512]⟩
abbrev S1x512 : Shape := ⟨2, ![1, 512]⟩

abbrev nBuf : Space → Nat
  | .hbm => 135
  | .vmem => 8
  | .smem => 0
  | _ => 0

abbrev hbmTy0_0 (i : Nat) : BufTy := match i % 128 with
  | 0 => ⟨S4096x512, .f32⟩
  | 1 => ⟨S4096x6, .i32⟩
  | 2 => ⟨S4096x6, .f32⟩
  | 3 => ⟨S128x512x3712, .f32⟩
  | 4 => ⟨S128x1856x512, .f32⟩
  | 5 => ⟨S24576, .i32⟩
  | 6 => ⟨S4096, .i32⟩
  | 7 => ⟨S4096x6, .i32⟩
  | 8 => ⟨S24576, .i32⟩
  | 9 => ⟨S24576, .f32⟩
  | 10 => ⟨S24576, .i32⟩
  | 11 => ⟨S24576, .i32⟩
  | 12 => ⟨S24576, .i32⟩
  | 13 => ⟨S_, .i32⟩
  | 14 => ⟨S24576, .i32⟩
  | 15 => ⟨S24576, .i1⟩
  | 16 => ⟨S_, .i32⟩
  | 17 => ⟨S24576, .i32⟩
  | 18 => ⟨S24576, .i32⟩
  | 19 => ⟨S24576, .i32⟩
  | 20 => ⟨S24576x1, .i32⟩
  | 21 => ⟨S24576, .i32⟩
  | 22 => ⟨S_, .i32⟩
  | 23 => ⟨S24576, .i32⟩
  | 24 => ⟨S24576, .i1⟩
  | 25 => ⟨S_, .i32⟩
  | 26 => ⟨S24576, .i32⟩
  | 27 => ⟨S24576, .i32⟩
  | 28 => ⟨S24576, .i32⟩
  | 29 => ⟨S24576x1, .i32⟩
  | 30 => ⟨S24576, .i32⟩
  | 31 => ⟨S_, .i32⟩
  | 32 => ⟨S24576, .i32⟩
  | 33 => ⟨S24576, .i1⟩
  | 34 => ⟨S_, .i32⟩
  | 35 => ⟨S24576, .i32⟩
  | 36 => ⟨S24576, .i32⟩
  | 37 => ⟨S24576, .i32⟩
  | 38 => ⟨S24576x1, .i32⟩
  | 39 => ⟨S24576, .f32⟩
  | 40 => ⟨S_, .i32⟩
  | 41 => ⟨S24576, .i32⟩
  | 42 => ⟨S_, .i32⟩
  | 43 => ⟨S128, .i32⟩
  | 44 => ⟨S24576x1, .i32⟩
  | 45 => ⟨S128, .i32⟩
  | 46 => ⟨S_, .i32⟩
  | 47 => ⟨S_, .i32⟩
  | 48 => ⟨S128, .i32⟩
  | 49 => ⟨S128, .i32⟩
  | 50 => ⟨S24576, .i32⟩
  | 51 => ⟨S_, .i32⟩
  | 52 => ⟨S24576, .i32⟩
  | 53 => ⟨S24576, .i1⟩
  | 54 => ⟨S_, .i32⟩
  | 55 => ⟨S24576, .i32⟩
  | 56 => ⟨S24576, .i32⟩
  | 57 => ⟨S24576, .i32⟩
  | 58 => ⟨S24576x1, .i32⟩
  | 59 => ⟨S24576, .i32⟩
  | 60 => ⟨S24576, .i32⟩
  | 61 => ⟨S_, .i32⟩
  | 62 => ⟨S24576, .i32⟩
  | 63 => ⟨S24576, .i1⟩
  | 64 => ⟨S_, .i32⟩
  | 65 => ⟨S24576, .i32⟩
  | 66 => ⟨S24576, .i32⟩
  | 67 => ⟨S24576, .i32⟩
  | 68 => ⟨S_, .i32⟩
  | 69 => ⟨S_, .i32⟩
  | 70 => ⟨S24576, .i32⟩
  | 71 => ⟨S24576, .i32⟩
  | 72 => ⟨S4096x512, .bf16⟩
  | 73 => ⟨S_, .bf16⟩
  | 74 => ⟨S40961x512, .bf16⟩
  | 75 => ⟨S_, .i32⟩
  | 76 => ⟨S24576, .i32⟩
  | 77 => ⟨S24576, .i1⟩
  | 78 => ⟨S_, .i32⟩
  | 79 => ⟨S24576, .i32⟩
  | 80 => ⟨S24576, .i32⟩
  | 81 => ⟨S24576, .i32⟩
  | 82 => ⟨S24576x1, .i32⟩
  | 83 => ⟨S24576x512, .bf16⟩
  | 84 => ⟨S_, .i32⟩
  | 85 => ⟨S24576, .i32⟩
  | 86 => ⟨S24576, .i1⟩
  | 87 => ⟨S_, .i32⟩
  | 88 => ⟨S24576, .i32⟩
  | 89 => ⟨S24576, .i32⟩
  | 90 => ⟨S24576, .i32⟩
  | 91 => ⟨S24576x1, .i32⟩
  | 92 => ⟨S40961x512, .bf16⟩
  | 93 => ⟨S40960x512, .bf16⟩
  | 94 => ⟨S128x320x512, .bf16⟩
  | 95 => ⟨S128x320x512, .f32⟩
  | 96 => ⟨S40960x512, .f32⟩
  | 97 => ⟨S_, .f32⟩
  | 98 => ⟨S1x512, .f32⟩
  | 99 => ⟨S40961x512, .f32⟩
  | 100 => ⟨S_, .i32⟩
  | 101 => ⟨S24576, .i32⟩
  | 102 => ⟨S24576, .i32⟩
  | 103 => ⟨S24576, .i32⟩
  | 104 => ⟨S_, .i32⟩
  | 105 => ⟨S_, .i32⟩
  | 106 => ⟨S24576, .i32⟩
  | 107 => ⟨S24576, .i32⟩
  | 108 => ⟨S_, .i32⟩
  | 109 => ⟨S24576, .i32⟩
  | 110 => ⟨S24576, .i1⟩
  | 111 => ⟨S_, .i32⟩
  | 112 => ⟨S24576, .i32⟩
  | 113 => ⟨S24576, .i32⟩
  | 114 => ⟨S24576, .i32⟩
  | 115 => ⟨S24576x1, .i32⟩
  | 116 => ⟨S24576x512, .f32⟩
  | 117 => ⟨S_, .f32⟩
  | 118 => ⟨S_, .f32⟩
  | 119 => ⟨S24576, .f32⟩
  | 120 => ⟨S24576, .f32⟩
  | 121 => ⟨S24576x1, .f32⟩
  | 122 => ⟨S24576x512, .f32⟩
  | 123 => ⟨S24576x512, .f32⟩
  | 124 => ⟨S_, .f32⟩
  | 125 => ⟨S4096x512, .f32⟩
  | 126 => ⟨S_, .i32⟩
  | 127 => ⟨S24576, .i32⟩
  | _ => ⟨S4096x512, .f32⟩

abbrev hbmTy0_1 (i : Nat) : BufTy := match i % 128 with
  | 0 => ⟨S24576, .i1⟩
  | 1 => ⟨S_, .i32⟩
  | 2 => ⟨S24576, .i32⟩
  | 3 => ⟨S24576, .i32⟩
  | 4 => ⟨S24576, .i32⟩
  | 5 => ⟨S24576x1, .i32⟩
  | 6 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S1x320x512, .bf16⟩
  | .local _ .vmem, ⟨1, _⟩ => ⟨S1x320x512, .bf16⟩
  | .local _ .vmem, ⟨2, _⟩ => ⟨S1x512x3712, .f32⟩
  | .local _ .vmem, ⟨3, _⟩ => ⟨S1x512x3712, .f32⟩
  | .local _ .vmem, ⟨4, _⟩ => ⟨S1x1856x512, .f32⟩
  | .local _ .vmem, ⟨5, _⟩ => ⟨S1x1856x512, .f32⟩
  | .local _ .vmem, ⟨6, _⟩ => ⟨S1x320x512, .f32⟩
  | .local _ .vmem, ⟨7, _⟩ => ⟨S1x320x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1_0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_call0_c : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_v48 : Ref sig .tc := ⟨.hbm, 72, rfl⟩
abbrev main_cst : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_c_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_18 : Ref sig .tc := ⟨.hbm, 104, rfl⟩
abbrev main_call3_v0 : Ref sig .tc := ⟨.hbm, 105, rfl⟩
abbrev main_call3_v1 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_call4_v0 : Ref sig .tc := ⟨.hbm, 118, rfl⟩
abbrev main_call4_v1 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_22 : Ref sig .tc := ⟨.hbm, 124, rfl⟩
abbrev main_v85 : Ref sig .tc := ⟨.hbm, 125, rfl⟩
abbrev main_c_23 : Ref sig .tc := ⟨.hbm, 126, rfl⟩
abbrev main_v86 : Ref sig .tc := ⟨.hbm, 127, rfl⟩
abbrev main_v87 : Ref sig .tc := ⟨.hbm, 128, rfl⟩
abbrev main_c_24 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x3712 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1856x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x6_S24576 : S4096x6.ShapeCasts S24576
  bcast_S4096_S4096x6_0 : S4096.BroadcastsInDim S4096x6 (![0] : Fin 1 → Fin S4096x6.rank)
  bcast_S_S24576 : S_.BroadcastsInDim S24576 (![] : Fin 0 → Fin S24576.rank)
  bcast_S24576_S24576x1_0 : S24576.BroadcastsInDim S24576x1 (![0] : Fin 1 → Fin S24576x1.rank)
  bcast_S_S128 : S_.BroadcastsInDim S128 (![] : Fin 0 → Fin S128.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bitsLt_bf16_f32 : FTy.bits .bf16 < FTy.bits .f32
  bcast_S_S40961x512 : S_.BroadcastsInDim S40961x512 (![] : Fin 0 → Fin S40961x512.rank)
  slices_S40961x512_S40960x512_0_0 : S40961x512.Slices ![0, 0] S40960x512
  shapeCasts_S40960x512_S128x320x512 : S40960x512.ShapeCasts S128x320x512
  inb_S1x320x512_S1x320x512_0_0_0 : ∀ a, (![0, 0, 0] : Fin 3 → Nat) a + S1x320x512.size a ≤ S1x320x512.size a
  h_S1x320x512 : 0 < S1x320x512.numel
  shapeCasts_S1x320x512_S320x512 : S1x320x512.ShapeCasts S320x512
  inb_S1x512x3712_S1x512x1856_0_0_0 : ∀ a, (![0, 0, 0] : Fin 3 → Nat) a + S1x512x1856.size a ≤ S1x512x3712.size a
  h_S1x512x1856 : 0 < S1x512x1856.numel
  shapeCasts_S1x512x1856_S512x1856 : S1x512x1856.ShapeCasts S512x1856
  inb_S1x512x3712_S1x512x1856_0_0_1856 : ∀ a, (![0, 0, 1856] : Fin 3 → Nat) a + S1x512x1856.size a ≤ S1x512x3712.size a
  inb_S1x1856x512_S1x1856x512_0_0_0 : ∀ a, (![0, 0, 0] : Fin 3 → Nat) a + S1x1856x512.size a ≤ S1x1856x512.size a
  h_S1x1856x512 : 0 < S1x1856x512.numel
  shapeCasts_S1x1856x512_S1856x512 : S1x1856x512.ShapeCasts S1856x512
  shapeCasts_S320x512_S1x320x512 : S320x512.ShapeCasts S1x320x512
  shapeCasts_S128x320x512_S40960x512 : S128x320x512.ShapeCasts S40960x512
  bcast_S_S1x512 : S_.BroadcastsInDim S1x512 (![] : Fin 0 → Fin S1x512.rank)
  concatenates_S40960x512_S1x512_S40961x512_d0 : Shape.Concatenates [S40960x512, S1x512] S40961x512 0
  bcast_S24576x1_S24576x512_0_1 : S24576x1.BroadcastsInDim S24576x512 (![0, 1] : Fin 2 → Fin S24576x512.rank)
  bcast_S_S4096x512 : S_.BroadcastsInDim S4096x512 (![] : Fin 0 → Fin S4096x512.rank)
  gather_S24576_S24576x1_S24576_n_0_n_n_0_1_1_wf : GatherDims.WF S24576 S24576x1 S24576 [] [0] [] [0] [] 1 ![1]
  scatter_S128_S24576x1_S24576_n_0_0_1_wf : ScatterDims.WF S128 S24576x1 S24576 [] [0] [0] 1
  gather_S128_S24576x1_S24576_n_0_n_n_0_1_1_wf : GatherDims.WF S128 S24576x1 S24576 [] [0] [] [0] [] 1 ![1]
  gather_S4096x512_S24576x1_S24576x512_1_0_n_n_0_1_1512_wf : GatherDims.WF S4096x512 S24576x1 S24576x512 [1] [0] [] [0] [] 1 ![1, 512]
  scatter_S40961x512_S24576x1_S24576x512_1_0_0_1_wf : ScatterDims.WF S40961x512 S24576x1 S24576x512 [1] [0] [0] 1
  dot_S320x512_S512x1856_S320x1856_1_0_0_1_n_n_wf : DotDims.WF S320x512 S512x1856 S320x1856 [1] [0] [0] [1] [] []
  dot_S320x1856_S1856x512_S320x512_1_0_0_1_n_n_wf : DotDims.WF S320x1856 S1856x512 S320x512 [1] [0] [0] [1] [] []
  gather_S40961x512_S24576x1_S24576x512_1_0_n_n_0_1_1512_wf : GatherDims.WF S40961x512 S24576x1 S24576x512 [1] [0] [] [0] [] 1 ![1, 512]
  scatter_S4096x512_S24576x1_S24576x512_1_0_0_1_wf : ScatterDims.WF S4096x512 S24576x1 S24576x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x320x512.size a ≤ S128x320x512.size a
  hwx0_0 : ∀ i : grid0.Coords, EltTy.bits .bf16 = 32 ∨ (Rect.block (s := S128x320x512) S1x320x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3712.size a ≤ S128x512x3712.size a
  hwx0_1 : ∀ i : grid0.Coords, EltTy.bits .f32 = 32 ∨ (Rect.block (s := S128x512x3712) S1x512x3712.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1856x512.size a ≤ S128x1856x512.size a
  hwx0_2 : ∀ i : grid0.Coords, EltTy.bits .f32 = 32 ∨ (Rect.block (s := S128x1856x512) S1x1856x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x320x512.size a ≤ S128x320x512.size a
  hwx0_3 : ∀ i : grid0.Coords, EltTy.bits .f32 = 32 ∨ (Rect.block (s := S128x320x512) S1x320x512.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S24576_S24576x1_S24576_n_0_n_n_0_1_1 : GatherDims S24576 S24576x1 S24576 where
  offsetDims := []
  collapsedSliceDims := [0]
  operandBatchingDims := []
  startIndicesBatchingDims := []
  startIndexMap := [0]
  indexVectorDim := 1
  sliceSizes := ![1]
  wf := gather_S24576_S24576x1_S24576_n_0_n_n_0_1_1_wf
def scatter_S128_S24576x1_S24576_n_0_0_1 : ScatterDims S128 S24576x1 S24576 where
  updateWindowDims := []
  insertedWindowDims := [0]
  scatterDimsToOperandDims := [0]
  indexVectorDim := 1
  wf := scatter_S128_S24576x1_S24576_n_0_0_1_wf
def gather_S128_S24576x1_S24576_n_0_n_n_0_1_1 : GatherDims S128 S24576x1 S24576 where
  offsetDims := []
  collapsedSliceDims := [0]
  operandBatchingDims := []
  startIndicesBatchingDims := []
  startIndexMap := [0]
  indexVectorDim := 1
  sliceSizes := ![1]
  wf := gather_S128_S24576x1_S24576_n_0_n_n_0_1_1_wf
def gather_S4096x512_S24576x1_S24576x512_1_0_n_n_0_1_1512 : GatherDims S4096x512 S24576x1 S24576x512 where
  offsetDims := [1]
  collapsedSliceDims := [0]
  operandBatchingDims := []
  startIndicesBatchingDims := []
  startIndexMap := [0]
  indexVectorDim := 1
  sliceSizes := ![1, 512]
  wf := gather_S4096x512_S24576x1_S24576x512_1_0_n_n_0_1_1512_wf
def scatter_S40961x512_S24576x1_S24576x512_1_0_0_1 : ScatterDims S40961x512 S24576x1 S24576x512 where
  updateWindowDims := [1]
  insertedWindowDims := [0]
  scatterDimsToOperandDims := [0]
  indexVectorDim := 1
  wf := scatter_S40961x512_S24576x1_S24576x512_1_0_0_1_wf
def dot_S320x512_S512x1856_S320x1856_1_0_0_1_n_n : DotDims S320x512 S512x1856 S320x1856 where
  lhsContracting := [1]
  rhsContracting := [0]
  lhsNonContracting := [0]
  rhsNonContracting := [1]
  lhsBatch := []
  rhsBatch := []
  wf := dot_S320x512_S512x1856_S320x1856_1_0_0_1_n_n_wf
def dot_S320x1856_S1856x512_S320x512_1_0_0_1_n_n : DotDims S320x1856 S1856x512 S320x512 where
  lhsContracting := [1]
  rhsContracting := [0]
  lhsNonContracting := [0]
  rhsNonContracting := [1]
  lhsBatch := []
  rhsBatch := []
  wf := dot_S320x1856_S1856x512_S320x512_1_0_0_1_n_n_wf
def gather_S40961x512_S24576x1_S24576x512_1_0_n_n_0_1_1512 : GatherDims S40961x512 S24576x1 S24576x512 where
  offsetDims := [1]
  collapsedSliceDims := [0]
  operandBatchingDims := []
  startIndicesBatchingDims := []
  startIndexMap := [0]
  indexVectorDim := 1
  sliceSizes := ![1, 512]
  wf := gather_S40961x512_S24576x1_S24576x512_1_0_n_n_0_1_1512_wf
def scatter_S4096x512_S24576x1_S24576x512_1_0_0_1 : ScatterDims S4096x512 S24576x1 S24576x512 where
  updateWindowDims := [1]
  insertedWindowDims := [0]
  scatterDimsToOperandDims := [0]
  indexVectorDim := 1
  wf := scatter_S4096x512_S24576x1_S24576x512_1_0_0_1_wf

abbrev win0_0 : Pipeline.Window sig grid0 :=
  Pipeline.Window.ofSpec (Memref.whole main_v65) S1x320x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x3712.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1856x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v66) S1x320x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x6 : Shape := ⟨2, ![4096, 6]⟩
abbrev S128x512x3712 : Shape := ⟨3, ![128, 512, 3712]⟩
abbrev S128x1856x512 : Shape := ⟨3, ![128, 1856, 512]⟩
abbrev S24576 : Shape := ⟨1, ![24576]⟩
abbrev S4096 : Shape := ⟨1, ![4096]⟩
abbrev S_ : Shape := ⟨0, ![]⟩
abbrev S24576x1 : Shape := ⟨2, ![24576, 1]⟩
abbrev S128 : Shape := ⟨1, ![128]⟩
abbrev S40961x512 : Shape := ⟨2, ![40961, 512]⟩
abbrev S24576x512 : Shape := ⟨2, ![24576, 512]⟩
abbrev S40960x512 : Shape := ⟨2, ![40960, 512]⟩
abbrev S128x320x512 : Shape := ⟨3, ![128, 320, 512]⟩
abbrev S128x320x3712 : Shape := ⟨3, ![128, 320, 3712]⟩
abbrev S128x320x1856 : Shape := ⟨3, ![128, 320, 1856]⟩

abbrev nBuf : Space → Nat
  | .hbm => 144
  | .vmem => 0
  | .smem => 0
  | _ => 0

abbrev hbmTy0_0 (i : Nat) : BufTy := match i % 128 with
  | 0 => ⟨S4096x512, .f32⟩
  | 1 => ⟨S4096x6, .i32⟩
  | 2 => ⟨S4096x6, .f32⟩
  | 3 => ⟨S128x512x3712, .f32⟩
  | 4 => ⟨S128x1856x512, .f32⟩
  | 5 => ⟨S24576, .i32⟩
  | 6 => ⟨S4096, .i32⟩
  | 7 => ⟨S4096x6, .i32⟩
  | 8 => ⟨S24576, .i32⟩
  | 9 => ⟨S24576, .f32⟩
  | 10 => ⟨S24576, .i32⟩
  | 11 => ⟨S24576, .i32⟩
  | 12 => ⟨S24576, .i32⟩
  | 13 => ⟨S_, .i32⟩
  | 14 => ⟨S24576, .i32⟩
  | 15 => ⟨S24576, .i1⟩
  | 16 => ⟨S_, .i32⟩
  | 17 => ⟨S24576, .i32⟩
  | 18 => ⟨S24576, .i32⟩
  | 19 => ⟨S24576, .i32⟩
  | 20 => ⟨S24576x1, .i32⟩
  | 21 => ⟨S24576, .i32⟩
  | 22 => ⟨S_, .i32⟩
  | 23 => ⟨S24576, .i32⟩
  | 24 => ⟨S24576, .i1⟩
  | 25 => ⟨S_, .i32⟩
  | 26 => ⟨S24576, .i32⟩
  | 27 => ⟨S24576, .i32⟩
  | 28 => ⟨S24576, .i32⟩
  | 29 => ⟨S24576x1, .i32⟩
  | 30 => ⟨S24576, .i32⟩
  | 31 => ⟨S_, .i32⟩
  | 32 => ⟨S24576, .i32⟩
  | 33 => ⟨S24576, .i1⟩
  | 34 => ⟨S_, .i32⟩
  | 35 => ⟨S24576, .i32⟩
  | 36 => ⟨S24576, .i32⟩
  | 37 => ⟨S24576, .i32⟩
  | 38 => ⟨S24576x1, .i32⟩
  | 39 => ⟨S24576, .f32⟩
  | 40 => ⟨S_, .i32⟩
  | 41 => ⟨S24576, .i32⟩
  | 42 => ⟨S_, .i32⟩
  | 43 => ⟨S128, .i32⟩
  | 44 => ⟨S24576x1, .i32⟩
  | 45 => ⟨S128, .i32⟩
  | 46 => ⟨S_, .i32⟩
  | 47 => ⟨S_, .i32⟩
  | 48 => ⟨S128, .i32⟩
  | 49 => ⟨S128, .i32⟩
  | 50 => ⟨S24576, .i32⟩
  | 51 => ⟨S_, .i32⟩
  | 52 => ⟨S24576, .i32⟩
  | 53 => ⟨S24576, .i1⟩
  | 54 => ⟨S_, .i32⟩
  | 55 => ⟨S24576, .i32⟩
  | 56 => ⟨S24576, .i32⟩
  | 57 => ⟨S24576, .i32⟩
  | 58 => ⟨S24576x1, .i32⟩
  | 59 => ⟨S24576, .i32⟩
  | 60 => ⟨S24576, .i32⟩
  | 61 => ⟨S_, .i32⟩
  | 62 => ⟨S24576, .i32⟩
  | 63 => ⟨S24576, .i1⟩
  | 64 => ⟨S_, .i32⟩
  | 65 => ⟨S24576, .i32⟩
  | 66 => ⟨S24576, .i32⟩
  | 67 => ⟨S24576, .i32⟩
  | 68 => ⟨S_, .i32⟩
  | 69 => ⟨S_, .i32⟩
  | 70 => ⟨S24576, .i32⟩
  | 71 => ⟨S24576, .i32⟩
  | 72 => ⟨S_, .f32⟩
  | 73 => ⟨S40961x512, .f32⟩
  | 74 => ⟨S_, .i32⟩
  | 75 => ⟨S24576, .i32⟩
  | 76 => ⟨S24576, .i1⟩
  | 77 => ⟨S_, .i32⟩
  | 78 => ⟨S24576, .i32⟩
  | 79 => ⟨S24576, .i32⟩
  | 80 => ⟨S24576, .i32⟩
  | 81 => ⟨S24576x1, .i32⟩
  | 82 => ⟨S24576x512, .f32⟩
  | 83 => ⟨S_, .i32⟩
  | 84 => ⟨S24576, .i32⟩
  | 85 => ⟨S24576, .i1⟩
  | 86 => ⟨S_, .i32⟩
  | 87 => ⟨S24576, .i32⟩
  | 88 => ⟨S24576, .i32⟩
  | 89 => ⟨S24576, .i32⟩
  | 90 => ⟨S24576x1, .i32⟩
  | 91 => ⟨S40961x512, .f32⟩
  | 92 => ⟨S40960x512, .f32⟩
  | 93 => ⟨S128x320x512, .f32⟩
  | 94 => ⟨S128x320x3712, .f32⟩
  | 95 => ⟨S128x320x1856, .f32⟩
  | 96 => ⟨S128x320x1856, .f32⟩
  | 97 => ⟨S128x320x1856, .f32⟩
  | 98 => ⟨S128x320x1856, .f32⟩
  | 99 => ⟨S_, .f32⟩
  | 100 => ⟨S128x320x1856, .f32⟩
  | 101 => ⟨S128x320x1856, .f32⟩
  | 102 => ⟨S_, .f32⟩
  | 103 => ⟨S128x320x1856, .f32⟩
  | 104 => ⟨S128x320x1856, .f32⟩
  | 105 => ⟨S128x320x1856, .f32⟩
  | 106 => ⟨S128x320x1856, .f32⟩
  | 107 => ⟨S128x320x512, .f32⟩
  | 108 => ⟨S40960x512, .f32⟩
  | 109 => ⟨S_, .i32⟩
  | 110 => ⟨S24576, .i32⟩
  | 111 => ⟨S24576, .i32⟩
  | 112 => ⟨S24576, .i32⟩
  | 113 => ⟨S_, .i32⟩
  | 114 => ⟨S_, .i32⟩
  | 115 => ⟨S24576, .i32⟩
  | 116 => ⟨S24576, .i32⟩
  | 117 => ⟨S_, .i32⟩
  | 118 => ⟨S24576, .i32⟩
  | 119 => ⟨S24576, .i1⟩
  | 120 => ⟨S_, .i32⟩
  | 121 => ⟨S24576, .i32⟩
  | 122 => ⟨S24576, .i32⟩
  | 123 => ⟨S24576, .i32⟩
  | 124 => ⟨S24576x1, .i32⟩
  | 125 => ⟨S24576x512, .f32⟩
  | 126 => ⟨S_, .f32⟩
  | 127 => ⟨S_, .f32⟩
  | _ => ⟨S4096x512, .f32⟩

abbrev hbmTy0_1 (i : Nat) : BufTy := match i % 128 with
  | 0 => ⟨S24576, .f32⟩
  | 1 => ⟨S24576, .f32⟩
  | 2 => ⟨S24576x1, .f32⟩
  | 3 => ⟨S24576x512, .f32⟩
  | 4 => ⟨S24576x512, .f32⟩
  | 5 => ⟨S_, .f32⟩
  | 6 => ⟨S4096x512, .f32⟩
  | 7 => ⟨S_, .i32⟩
  | 8 => ⟨S24576, .i32⟩
  | 9 => ⟨S24576, .i1⟩
  | 10 => ⟨S_, .i32⟩
  | 11 => ⟨S24576, .i32⟩
  | 12 => ⟨S24576, .i32⟩
  | 13 => ⟨S24576, .i32⟩
  | 14 => ⟨S24576x1, .i32⟩
  | 15 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1_0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_call0_c : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_call4_v0 : Ref sig .tc := ⟨.hbm, 114, rfl⟩
abbrev main_call4_v1 : Ref sig .tc := ⟨.hbm, 115, rfl⟩
abbrev main_v75 : Ref sig .tc := ⟨.hbm, 116, rfl⟩
abbrev main_c_18 : Ref sig .tc := ⟨.hbm, 117, rfl⟩
abbrev main_v76 : Ref sig .tc := ⟨.hbm, 118, rfl⟩
abbrev main_v77 : Ref sig .tc := ⟨.hbm, 119, rfl⟩
abbrev main_c_19 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_call5_v0 : Ref sig .tc := ⟨.hbm, 127, rfl⟩
abbrev main_call5_v1 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_c_22 : Ref sig .tc := ⟨.hbm, 135, rfl⟩
abbrev main_v88 : Ref sig .tc := ⟨.hbm, 136, rfl⟩
abbrev main_v89 : Ref sig .tc := ⟨.hbm, 137, rfl⟩
abbrev main_c_23 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]

class Facts₀ : Prop where
  shapeCasts_S4096x6_S24576 : S4096x6.ShapeCasts S24576
  bcast_S4096_S4096x6_0 : S4096.BroadcastsInDim S4096x6 (![0] : Fin 1 → Fin S4096x6.rank)
  bcast_S_S24576 : S_.BroadcastsInDim S24576 (![] : Fin 0 → Fin S24576.rank)
  bcast_S24576_S24576x1_0 : S24576.BroadcastsInDim S24576x1 (![0] : Fin 1 → Fin S24576x1.rank)
  bcast_S_S128 : S_.BroadcastsInDim S128 (![] : Fin 0 → Fin S128.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S40961x512 : S_.BroadcastsInDim S40961x512 (![] : Fin 0 → Fin S40961x512.rank)
  slices_S40961x512_S40960x512_0_0 : S40961x512.Slices ![0, 0] S40960x512
  shapeCasts_S40960x512_S128x320x512 : S40960x512.ShapeCasts S128x320x512
  slices_S128x320x3712_S128x320x1856_0_0_0 : S128x320x3712.Slices ![0, 0, 0] S128x320x1856
  slices_S128x320x3712_S128x320x1856_0_0_1856 : S128x320x3712.Slices ![0, 0, 1856] S128x320x1856
  bcast_S_S128x320x1856 : S_.BroadcastsInDim S128x320x1856 (![] : Fin 0 → Fin S128x320x1856.rank)
  shapeCasts_S128x320x512_S40960x512 : S128x320x512.ShapeCasts S40960x512
  bcast_S24576x1_S24576x512_0_1 : S24576x1.BroadcastsInDim S24576x512 (![0, 1] : Fin 2 → Fin S24576x512.rank)
  bcast_S_S4096x512 : S_.BroadcastsInDim S4096x512 (![] : Fin 0 → Fin S4096x512.rank)
  gather_S24576_S24576x1_S24576_n_0_n_n_0_1_1_wf : GatherDims.WF S24576 S24576x1 S24576 [] [0] [] [0] [] 1 ![1]
  scatter_S128_S24576x1_S24576_n_0_0_1_wf : ScatterDims.WF S128 S24576x1 S24576 [] [0] [0] 1
  gather_S128_S24576x1_S24576_n_0_n_n_0_1_1_wf : GatherDims.WF S128 S24576x1 S24576 [] [0] [] [0] [] 1 ![1]
  gather_S4096x512_S24576x1_S24576x512_1_0_n_n_0_1_1512_wf : GatherDims.WF S4096x512 S24576x1 S24576x512 [1] [0] [] [0] [] 1 ![1, 512]
  scatter_S40961x512_S24576x1_S24576x512_1_0_0_1_wf : ScatterDims.WF S40961x512 S24576x1 S24576x512 [1] [0] [0] 1
  dot_S128x320x512_S128x512x3712_S128x320x3712_2_1_1_2_0_0_wf : DotDims.WF S128x320x512 S128x512x3712 S128x320x3712 [2] [1] [1] [2] [0] [0]
  dot_S128x320x1856_S128x1856x512_S128x320x512_2_1_1_2_0_0_wf : DotDims.WF S128x320x1856 S128x1856x512 S128x320x512 [2] [1] [1] [2] [0] [0]
  gather_S40960x512_S24576x1_S24576x512_1_0_n_n_0_1_1512_wf : GatherDims.WF S40960x512 S24576x1 S24576x512 [1] [0] [] [0] [] 1 ![1, 512]
  scatter_S4096x512_S24576x1_S24576x512_1_0_0_1_wf : ScatterDims.WF S4096x512 S24576x1 S24576x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S24576_S24576x1_S24576_n_0_n_n_0_1_1 : GatherDims S24576 S24576x1 S24576 where
  offsetDims := []
  collapsedSliceDims := [0]
  operandBatchingDims := []
  startIndicesBatchingDims := []
  startIndexMap := [0]
  indexVectorDim := 1
  sliceSizes := ![1]
  wf := gather_S24576_S24576x1_S24576_n_0_n_n_0_1_1_wf
def scatter_S128_S24576x1_S24576_n_0_0_1 : ScatterDims S128 S24576x1 S24576 where
  updateWindowDims := []
  insertedWindowDims := [0]
  scatterDimsToOperandDims := [0]
  indexVectorDim := 1
  wf := scatter_S128_S24576x1_S24576_n_0_0_1_wf
def gather_S128_S24576x1_S24576_n_0_n_n_0_1_1 : GatherDims S128 S24576x1 S24576 where
  offsetDims := []
  collapsedSliceDims := [0]
  operandBatchingDims := []
  startIndicesBatchingDims := []
  startIndexMap := [0]
  indexVectorDim := 1
  sliceSizes := ![1]
  wf := gather_S128_S24576x1_S24576_n_0_n_n_0_1_1_wf
def gather_S4096x512_S24576x1_S24576x512_1_0_n_n_0_1_1512 : GatherDims S4096x512 S24576x1 S24576x512 where
  offsetDims := [1]
  collapsedSliceDims := [0]
  operandBatchingDims := []
  startIndicesBatchingDims := []
  startIndexMap := [0]
  indexVectorDim := 1
  sliceSizes := ![1, 512]
  wf := gather_S4096x512_S24576x1_S24576x512_1_0_n_n_0_1_1512_wf
def scatter_S40961x512_S24576x1_S24576x512_1_0_0_1 : ScatterDims S40961x512 S24576x1 S24576x512 where
  updateWindowDims := [1]
  insertedWindowDims := [0]
  scatterDimsToOperandDims := [0]
  indexVectorDim := 1
  wf := scatter_S40961x512_S24576x1_S24576x512_1_0_0_1_wf
def dot_S128x320x512_S128x512x3712_S128x320x3712_2_1_1_2_0_0 : DotDims S128x320x512 S128x512x3712 S128x320x3712 where
  lhsContracting := [2]
  rhsContracting := [1]
  lhsNonContracting := [1]
  rhsNonContracting := [2]
  lhsBatch := [0]
  rhsBatch := [0]
  wf := dot_S128x320x512_S128x512x3712_S128x320x3712_2_1_1_2_0_0_wf
def dot_S128x320x1856_S128x1856x512_S128x320x512_2_1_1_2_0_0 : DotDims S128x320x1856 S128x1856x512 S128x320x512 where
  lhsContracting := [2]
  rhsContracting := [1]
  lhsNonContracting := [1]
  rhsNonContracting := [2]
  lhsBatch := [0]
  rhsBatch := [0]
  wf := dot_S128x320x1856_S128x1856x512_S128x320x512_2_1_1_2_0_0_wf
def gather_S40960x512_S24576x1_S24576x512_1_0_n_n_0_1_1512 : GatherDims S40960x512 S24576x1 S24576x512 where
  offsetDims := [1]
  collapsedSliceDims := [0]
  operandBatchingDims := []
  startIndicesBatchingDims := []
  startIndexMap := [0]
  indexVectorDim := 1
  sliceSizes := ![1, 512]
  wf := gather_S40960x512_S24576x1_S24576x512_1_0_n_n_0_1_1512_wf
def scatter_S4096x512_S24576x1_S24576x512_1_0_0_1 : ScatterDims S4096x512 S24576x1 S24576x512 where
  updateWindowDims := [1]
  insertedWindowDims := [0]
  scatterDimsToOperandDims := [0]
  indexVectorDim := 1
  wf := scatter_S4096x512_S24576x1_S24576x512_1_0_0_1_wf

class Facts : Prop extends Facts₀ where

variable [Facts]
-- ==== Proof.Spec.lean ====
/-
  The mixture-of-experts forward pass as pure functions of its five arguments, over literal shapes: the one
  vocabulary in which both programs' results are stated.

  A pair is (token t, choice k), n = 6 t + k, N = 24576 pairs; `eFlat n` is the pair's expert.  The pairs are
  sorted stably by expert (`order`), so `eS i`, `tokS i`, `wS i` are the expert, token and router weight of the
  i-th pair in sorted order.  `counts e` is the number of pairs of expert e, `starts e` the number of pairs of
  experts below e, `pos i = i - starts (eS i)` the rank of sorted pair i among its expert's pairs, `valid i` says
  that rank is below the capacity 320, and `gRaw i = 320 * eS i + pos i` is the pair's row in the [128 * 320]
  table of expert slots.  `dispatch` lays the tokens' hidden rows out in that table (one spare row 40960 takes
  the overflow), `combine` scales each pair's output row by its weight and adds it onto its token's row.
  Between the two, the kernel's program reads the pair's row out of a table of 40961 rows (the experts' outputs
  and one zero row) and the reference out of the 40960 rows alone: `rowsK`, `rowsR`.
-/
import Idealize.ShloMosaic.Lib.StableHlo
import Idealize.ShloMosaic.PureOps
import Idealize.ShloMosaic.Lib.ValueIdx

noncomputable section

namespace Cert.Moe

open Idealize.ShloMosaic

abbrev S4096x512 : Shape := ⟨2, ![4096, 512]⟩
abbrev S4096x6 : Shape := ⟨2, ![4096, 6]⟩
abbrev S128x512x3712 : Shape := ⟨3, ![128, 512, 3712]⟩
abbrev S128x1856x512 : Shape := ⟨3, ![128, 1856, 512]⟩
abbrev S24576 : Shape := ⟨1, ![24576]⟩
abbrev S4096 : Shape := ⟨1, ![4096]⟩
abbrev S_ : Shape := ⟨0, ![]⟩
abbrev S24576x1 : Shape := ⟨2, ![24576, 1]⟩
abbrev S128 : Shape := ⟨1, ![128]⟩
abbrev S40961x512 : Shape := ⟨2, ![40961, 512]⟩
abbrev S24576x512 : Shape := ⟨2, ![24576, 512]⟩
abbrev S40960x512 : Shape := ⟨2, ![40960, 512]⟩
abbrev S128x320x512 : Shape := ⟨3, ![128, 320, 512]⟩
abbrev S128x320x3712 : Shape := ⟨3, ![128, 320, 3712]⟩
abbrev S128x320x1856 : Shape := ⟨3, ![128, 320, 1856]⟩
abbrev S1x512 : Shape := ⟨2, ![1, 512]⟩

/-! ## Shape relations -/

theorem cast_pairs : S4096x6.ShapeCasts S24576 := by decide
theorem bc_tok : S4096.BroadcastsInDim S4096x6 (![0] : Fin 1 → Fin S4096x6.rank) := by decide
theorem bc_vec : S_.BroadcastsInDim S24576 (![] : Fin 0 → Fin S24576.rank) := by decide
theorem bc_col : S24576.BroadcastsInDim S24576x1 (![0] : Fin 1 → Fin S24576x1.rank) := by decide
theorem bc_128 : S_.BroadcastsInDim S128 (![] : Fin 0 → Fin S128.rank) := by decide
theorem bc_s : S_.BroadcastsInDim S_ (![] : Fin 0 → Fin S_.rank) := by decide
theorem rw_128 : S128.ReduceWindows (![128] : Fin 1 → Nat) ![1] ![127] ![0] S128 := by decide
theorem h_S_ : 0 < S_.numel := by decide
theorem bc_buf : S_.BroadcastsInDim S40961x512 (![] : Fin 0 → Fin S40961x512.rank) := by decide
theorem sl_buf : S40961x512.Slices ![0, 0] S40960x512 := by decide
theorem cast_x : S40960x512.ShapeCasts S128x320x512 := by decide
theorem sl_gate : S128x320x3712.Slices ![0, 0, 0] S128x320x1856 := by decide
theorem sl_up : S128x320x3712.Slices ![0, 0, 1856] S128x320x1856 := by decide
theorem bc_act : S_.BroadcastsInDim S128x320x1856 (![] : Fin 0 → Fin S128x320x1856.rank) := by decide
theorem cast_y : S128x320x512.ShapeCasts S40960x512 := by decide
theorem bc_zrow : S_.BroadcastsInDim S1x512 (![] : Fin 0 → Fin S1x512.rank) := by decide
theorem cat_y : Shape.Concatenates [S40960x512, S1x512] S40961x512 0 := by decide
theorem bc_rows : S24576x1.BroadcastsInDim S24576x512 (![0, 1] : Fin 2 → Fin S24576x512.rank) := by decide
theorem bc_out : S_.BroadcastsInDim S4096x512 (![] : Fin 0 → Fin S4096x512.rank) := by decide

/-! ## Dimension records -/

/-- `v[idx]` for a vector of 24576 entries at a column of 24576 indices. -/
def gVec : GatherDims S24576 S24576x1 S24576 where
  offsetDims := []
  collapsedSliceDims := [0]
  operandBatchingDims := []
  startIndicesBatchingDims := []
  startIndexMap := [0]
  indexVectorDim := 1
  sliceSizes := ![1]
  wf := by decide
/-- `t[idx]` for a table of 128 entries at a column of 24576 indices. -/
def gTab : GatherDims S128 S24576x1 S24576 where
  offsetDims := []
  collapsedSliceDims := [0]
  operandBatchingDims := []
  startIndicesBatchingDims := []
  startIndexMap := [0]
  indexVectorDim := 1
  sliceSizes := ![1]
  wf := by decide
/-- Rows of the [4096, 512] hidden states at a column of 24576 row indices. -/
def gTok : GatherDims S4096x512 S24576x1 S24576x512 where
  offsetDims := [1]
  collapsedSliceDims := [0]
  operandBatchingDims := []
  startIndicesBatchingDims := []
  startIndexMap := [0]
  indexVectorDim := 1
  sliceSizes := ![1, 512]
  wf := by decide
/-- Rows of a [40960, 512] table at a column of 24576 row indices. -/
def gRows40960 : GatherDims S40960x512 S24576x1 S24576x512 where
  offsetDims := [1]
  collapsedSliceDims := [0]
  operandBatchingDims := []
  startIndicesBatchingDims := []
  startIndexMap := [0]
  indexVectorDim := 1
  sliceSizes := ![1, 512]
  wf := by decide
/-- Rows of a [40961, 512] table at a column of 24576 row indices. -/
def gRows40961 : GatherDims S40961x512 S24576x1 S24576x512 where
  offsetDims := [1]
  collapsedSliceDims := [0]
  operandBatchingDims := []
  startIndicesBatchingDims := []
  startIndexMap := [0]
  indexVectorDim := 1
  sliceSizes := ![1, 512]
  wf := by decide
/-- Scatter of 24576 scalars onto a vector of 128 at a column of indices. -/
def scCount : ScatterDims S128 S24576x1 S24576 where
  updateWindowDims := []
  insertedWindowDims := [0]
  scatterDimsToOperandDims := [0]
  indexVectorDim := 1
  wf := by decide
/-- Scatter of 24576 rows onto the [40961, 512] slot table. -/
def scBuf : ScatterDims S40961x512 S24576x1 S24576x512 where
  updateWindowDims := [1]
  insertedWindowDims := [0]
  scatterDimsToOperandDims := [0]
  indexVectorDim := 1
  wf := by decide
/-- Scatter of 24576 rows onto the [4096, 512] result. -/
def scOut : ScatterDims S4096x512 S24576x1 S24576x512 where
  updateWindowDims := [1]
  insertedWindowDims := [0]
  scatterDimsToOperandDims := [0]
  indexVectorDim := 1
  wf := by decide
/-- Per expert, [320, 512] times [512, 3712]. -/
def dotGU : DotDims S128x320x512 S128x512x3712 S128x320x3712 where
  lhsContracting := [2]
  rhsContracting := [1]
  lhsNonContracting := [1]
  rhsNonContracting := [2]
  lhsBatch := [0]
  rhsBatch := [0]
  wf := by decide
/-- Per expert, [320, 1856] times [1856, 512]. -/
def dotD : DotDims S128x320x1856 S128x1856x512 S128x320x512 where
  lhsContracting := [2]
  rhsContracting := [1]
  lhsNonContracting := [1]
  rhsNonContracting := [2]
  lhsBatch := [0]
  rhsBatch := [0]
  wf := by decide

/-! ## The routing: integer functions of the expert indices -/

/-- The sort's comparator: a pair of (expert, position) goes before another when its expert is smaller. -/
def cmpKey : BitVec 32 × BitVec 32 → BitVec 32 × BitVec 32 → BitVec 1 :=
  fun l r => IntOp.cmpi .slt l.1 r.1

/-- A vector of 24576 copies of a word. -/
def splat (b : BitVec 32) : IVec S24576 32 := broadcastInDim S24576 ![] bc_vec (constantI S_ 32 b)

/-- jnp's index normalisation for an axis of extent `n` (`n` is added to a negative index), laid out as the
    [24576, 1] column of start indices a gather or scatter takes. -/
def norm (n : BitVec 32) (v : IVec S24576 32) : IVec S24576x1 32 :=
  broadcastInDim S24576x1 ![0] bc_col (select (cmpi .slt v (splat 0#32)) (addi v (splat n)) v)

/-- The expert of pair n = 6 t + k. -/
def eFlat (a1 : IVec S4096x6 32) : IVec S24576 32 := shapeCast S24576 a1 cast_pairs
/-- The token of pair n = 6 t + k. -/
def tokFlat : IVec S24576 32 :=
  shapeCast S24576 (broadcastInDim S4096x6 ![0] bc_tok (iotaInDim S4096 32 0)) cast_pairs
/-- The router weight of pair n = 6 t + k. -/
def wFlat {F : FTy → Type} [FloatOps F] (a2 : FVec F S4096x6 .f32) : FVec F S24576 .f32 := shapeCast S24576 a2 cast_pairs

/-- The pairs' positions in the stable sort by expert. -/
def order (a1 : IVec S4096x6 32) : IVec S24576 32 :=
  (Host.sort2 S24576 0 cmpKey (eFlat a1) (iotaInDim S24576 32 0)).2
/-- Expert, token and weight of the i-th pair in sorted order. -/
def eS (a1 : IVec S4096x6 32) : IVec S24576 32 := Host.gather gVec (eFlat a1) (norm 24576#32 (order a1))
def tokS (a1 : IVec S4096x6 32) : IVec S24576 32 := Host.gather gVec tokFlat (norm 24576#32 (order a1))
def wS {F : FTy → Type} [FloatOps F] (a1 : IVec S4096x6 32) (a2 : FVec F S4096x6 .f32) : FVec F S24576 .f32 :=
  Host.gather gVec (wFlat a2) (norm 24576#32 (order a1))

/-- The number of pairs of each expert. -/
def counts (a1 : IVec S4096x6 32) : IVec S128 32 :=
  Host.scatter scCount IntOp.addi (broadcastInDim S128 ![] bc_128 (constantI S_ 32 0#32))
    (broadcastInDim S24576x1 ![0] bc_col (eFlat a1)) (splat 1#32)
/-- The running total of `counts`, an expert's own count included. -/
def csum (a1 : IVec S4096x6 32) : IVec S128 32 :=
  Host.reduceWindow IntOp.addi ![128] ![1] ![127] ![0] (counts a1)
    (broadcastInDim S_ ![] bc_s (constantI S_ 32 0#32)) rw_128 h_S_
/-- The number of pairs of the experts below each expert. -/
def starts (a1 : IVec S4096x6 32) : IVec S128 32 := subi (csum a1) (counts a1)
/-- The rank of sorted pair i among the pairs of its expert. -/
def pos (a1 : IVec S4096x6 32) : IVec S24576 32 :=
  subi (iotaInDim S24576 32 0) (Host.gather gTab (starts a1) (norm 128#32 (eS a1)))
/-- The rank is below the capacity. -/
def valid (a1 : IVec S4096x6 32) : IVec S24576 1 := cmpi .slt (pos a1) (splat 320#32)
/-- The pair's row in the table of 128 * 320 expert slots. -/
def gRaw (a1 : IVec S4096x6 32) : IVec S24576 32 := addi (muli (eS a1) (splat 320#32)) (pos a1)
/-- Where the pair's hidden row is written: its slot, or the spare row 40960. -/
def slot (a1 : IVec S4096x6 32) : IVec S24576 32 := select (valid a1) (gRaw a1) (splat 40960#32)
/-- Where the pair's output row is read: its slot, or row 0 (then with weight zero). -/
def gidx (a1 : IVec S4096x6 32) : IVec S24576 32 := select (valid a1) (gRaw a1) (splat 0#32)

/-! ## Dispatch, the two row reads, and combine -/

variable {F : FTy → Type} [FloatOps F]

/-- The [128, 320, 512] table of expert inputs: each pair's token's hidden row written at the pair's slot of a
    zero table of 40961 rows, the spare row dropped.  At either float format `φ` (`zero` is the format's zero). -/
def dispatch {φ : FTy} (zero : FVec F S_ φ) (hs : FVec F S4096x512 φ) (a1 : IVec S4096x6 32) : FVec F S128x320x512 φ :=
  shapeCast S128x320x512
    (extractStridedSlice S40960x512 ![0, 0]
      (Host.scatter scBuf (fun _ b => b) (broadcastInDim S40961x512 ![] bc_buf zero) (norm 40961#32 (slot a1))
        (Host.gather gTok hs (norm 4096#32 (tokS a1))))
      sl_buf)
    cast_x

/-- The pairs' output rows as the kernel's program reads them: out of the experts' outputs with one zero row after
    them, the index normalised for 40961 rows. -/
def rowsK (y : FVec F S128x320x512 .f32) (a1 : IVec S4096x6 32) : FVec F S24576x512 .f32 :=
  Host.gather gRows40961
    (concatenate S40961x512 0
      [⟨S40960x512, shapeCast S40960x512 y cast_y⟩,
       ⟨S1x512, broadcastInDim S1x512 ![] bc_zrow (constant S_ .f32 0x00000000#32)⟩] cat_y)
    (norm 40961#32 (gidx a1))

/-- The pairs' output rows as the reference reads them: out of the experts' outputs, the index normalised for
    40960 rows. -/
def rowsR (y : FVec F S128x320x512 .f32) (a1 : IVec S4096x6 32) : FVec F S24576x512 .f32 :=
  Host.gather gRows40960 (shapeCast S40960x512 y cast_y) (norm 40960#32 (gidx a1))

/-- Each pair's row times its weight (zero when the pair is over capacity), added onto its token's row of a
    zero [4096, 512] result. -/
def combine (rows : FVec F S24576x512 .f32) (a1 : IVec S4096x6 32) (a2 : FVec F S4096x6 .f32) : FVec F S4096x512 .f32 :=
  Host.scatterAdd scOut (broadcastInDim S4096x512 ![] bc_out (constant S_ .f32 0x00000000#32)) (norm 4096#32 (tokS a1))
    (mulf rows
      (broadcastInDim S24576x512 ![0, 1] bc_rows
        (broadcastInDim S24576x1 ![0] bc_col
          (select (valid a1) (wS a1 a2) (broadcastInDim S24576 ![] bc_vec (constant S_ .f32 0x00000000#32))))))

/-! ## The experts' feed-forward network -/

/-- silu: z / (1 + e^(-z)), as the host writes it. -/
def siluHost (z : FVec F S128x320x1856 .f32) : FVec F S128x320x1856 .f32 :=
  mulf z (Host.divf (broadcastInDim S128x320x1856 ![] bc_act (constant S_ .f32 0x3F800000#32))
    (addf (broadcastInDim S128x320x1856 ![] bc_act (constant S_ .f32 0x3F800000#32)) (Host.exp (Host.negf z))))

/-- The reference's network: one product with the joined gate and up weights, split in two, silu(gate) * up,
    the product with the down weights. -/
def refFFN (x : FVec F S128x320x512 .f32) (w3 : FVec F S128x512x3712 .f32) (w4 : FVec F S128x1856x512 .f32) :
    FVec F S128x320x512 .f32 :=
  Host.dotGeneral dotD none
    (mulf (siluHost (extractStridedSlice S128x320x1856 ![0, 0, 0] (Host.dotGeneral dotGU none x w3) sl_gate))
      (extractStridedSlice S128x320x1856 ![0, 0, 1856] (Host.dotGeneral dotGU none x w3) sl_up))
    w4

open ValueIdx in
/-- The network on the extended reals, entry by entry: for expert e and slot c, gate and up are the sums over
    the 512 hidden coordinates against columns i and 1856 + i of the joined weights, the activation is
    gate * logistic gate * up, and the output is its sum over the 1856 coordinates against the down weights. -/
def act (x : S128x320x512.Idx → EReal) (w3 : S128x512x3712.Idx → EReal) (e : Fin 128) (c : Fin 320) (i : Fin 1856) : EReal :=
  ((∑ h : Fin 512, x (ix3 e c h) * w3 (ix3 e h (⟨i.val, by omega⟩ : Fin 3712)))
      * Ideal.logistic (∑ h : Fin 512, x (ix3 e c h) * w3 (ix3 e h (⟨i.val, by omega⟩ : Fin 3712))))
    * (∑ h : Fin 512, x (ix3 e c h) * w3 (ix3 e h (⟨1856 + i.val, by omega⟩ : Fin 3712)))

open ValueIdx in
def ffn (x : S128x320x512.Idx → EReal) (w3 : S128x512x3712.Idx → EReal) (w4 : S128x1856x512.Idx → EReal) :
    S128x320x512.Idx → EReal :=
  fun j => ∑ i : Fin 1856, act x w3 (j 0) (j 1) i * w4 (ix3 (j 0) i (j 2))

/-! ## The two programs' results -/

/-- The reference's result. -/
def refOut (a0 : FVec F S4096x512 .f32) (a1 : IVec S4096x6 32) (a2 : FVec F S4096x6 .f32)
    (a3 : FVec F S128x512x3712 .f32) (a4 : FVec F S128x1856x512 .f32) : FVec F S4096x512 .f32 :=
  combine (rowsR (refFFN (dispatch (constant S_ .f32 0x00000000#32) a0 a1) a3 a4) a1) a1 a2

/-- The kernel's result: the same, but the experts' network is whatever table `y` the kernel call leaves, and the
    rows are read the kernel's way. -/
def kerOut (y : FVec F S128x320x512 .f32) (a1 : IVec S4096x6 32) (a2 : FVec F S4096x6 .f32) : FVec F S4096x512 .f32 :=
  combine (rowsK y a1) a1 a2

/-- Every pair's expert is an expert: a signed word in [0, 128). -/
def EInRange (a1 : IVec S4096x6 32) : Prop :=
  ∀ n : Fin 24576, 0 ≤ (eFlat a1 (ValueIdx.ix1 n)).toInt ∧ (eFlat a1 (ValueIdx.ix1 n)).toInt < 128

end Cert.Moe

end
-- ==== Proof.LibTakeFill.lean ====
/-
  jnp.take in its fill mode, on the host: the bounds mask, and when it is all ones.

  jnp.take(table, idx, axis=0) first counts a negative index from the end (n is added to a word below zero), then
  gathers the rows at the clamped indices, and last keeps a gathered row only where the normalised index lies in
  [0, n - 1], writing NaN elsewhere. The mask is a reduction by `and` of the two comparisons over a unit axis.
  Plain indexing table[idx] does the first two steps and no third. So the two agree exactly where the mask is all ones,
  and the mask is all ones when every index lies in [-n, n) read as a signed word: a word in [0, n) is kept as it is,
  a word in [-n, 0) has n added without wrapping and lands in [0, n).

  Here: a reduction by `and` of an array of ones from one is one everywhere; a select under a mask of ones is its first
  branch; and the arithmetic of the normalised index for a table of n rows, n below 2^31.
-/
import Idealize.ShloMosaic.PureOps
import Idealize.ShloMosaic.PureOps.Reduce
import Idealize.ShloMosaic.Lib.StableHlo.Predicate

namespace Cert.TakeFill

open Idealize.ShloMosaic

/-! ## A mask of ones -/

/-- A left fold by `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- `jnp.all` along any axes of an array of ones, from the initial value one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) :
    Host.reduce IntOp.andi x init h hu = fun _ => 1#1 := by
  funext j
  rw [Host.reduce_eq_foldl, hinit]
  exact foldl_andi_ones x hx _

/-- A select under a mask of ones keeps its first branch everywhere. -/
theorem select_ones {s : Shape} {α : Type} (c : IVec s 1) (a b : s.Idx → α) (hc : ∀ i, c i = 1#1) : select c a b = a := by
  funext i
  show Scalar.select (c i) (a i) (b i) = a i
  rw [hc i]
  rfl

/-! ## The normalised index -/

/-- A one-bit word made from a Boolean is one exactly when the Boolean holds. -/
theorem ofBool_eq_one (b : Bool) : BitVec.ofBool b = 1#1 ↔ b = true := by cases b <;> decide

/-- The signed comparisons, read back as comparisons of the words' signed values. -/
theorem cmpi_sge_iff (a b : BitVec 32) : IntOp.cmpi .sge a b = 1#1 ↔ b.toInt ≤ a.toInt := by
  unfold IntOp.cmpi; rw [ofBool_eq_one, BitVec.sle_iff_toInt_le]
theorem cmpi_sle_iff (a b : BitVec 32) : IntOp.cmpi .sle a b = 1#1 ↔ a.toInt ≤ b.toInt := by
  unfold IntOp.cmpi; rw [ofBool_eq_one, BitVec.sle_iff_toInt_le]
theorem cmpi_slt_iff (a b : BitVec 32) : IntOp.cmpi .slt a b = 1#1 ↔ a.toInt < b.toInt := by
  unfold IntOp.cmpi; rw [ofBool_eq_one, BitVec.slt_iff_toInt_lt]

/-- jnp's index normalisation for a table of `n` rows (`n` below 2^31): a word whose signed value lies in [-n, n), with
    `n` added when it is negative, lies in [0, n - 1]. The two conclusions are the two comparisons of jnp.take's bounds mask. -/
theorem norm_in_range (n : Nat) (hn0 : 0 < n) (hn : n < 2 ^ 31) (w : BitVec 32)
    (hlo : -(n : Int) ≤ w.toInt) (hhi : w.toInt < (n : Int)) :
    IntOp.cmpi .sge (Scalar.select (IntOp.cmpi .slt w 0#32) (IntOp.addi w (BitVec.ofNat 32 n)) w) 0#32 = 1#1
    ∧ IntOp.cmpi .sle (Scalar.select (IntOp.cmpi .slt w 0#32) (IntOp.addi w (BitVec.ofNat 32 n)) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  have h0I : (0#32 : BitVec 32).toInt = 0 := by decide
  rw [cmpi_sge_iff, cmpi_sle_iff, h0I, hn1I]
  by_cases hneg : w.toInt < 0
  · have hc : IntOp.cmpi .slt w 0#32 = 1#1 := (cmpi_slt_iff _ _).2 (by rw [h0I]; exact hneg)
    have hadd : (IntOp.addi w (BitVec.ofNat 32 n)).toInt = w.toInt + n := by
      show (w + BitVec.ofNat 32 n).toInt = _
      rw [BitVec.toInt_add, hnI]
      apply Int.bmod_eq_of_le <;> omega
    rw [hc]
    show 0 ≤ (IntOp.addi w (BitVec.ofNat 32 n)).toInt ∧ (IntOp.addi w (BitVec.ofNat 32 n)).toInt ≤ _
    rw [hadd]; omega
  · have hc : IntOp.cmpi .slt w 0#32 ≠ 1#1 := fun h => hneg (by have := (cmpi_slt_iff _ _).1 h; rwa [h0I] at this)
    have hsel : Scalar.select (IntOp.cmpi .slt w 0#32) (IntOp.addi w (BitVec.ofNat 32 n)) w = w := if_neg hc
    rw [hsel]; omega

end Cert.TakeFill
-- ==== Proof.PreDecode.lean ====
import proofs.«141214_j59691455480110_1_alg».proof.Proof.Spec
import proofs.«141214_j59691455480110_1_alg».proof.Pre_finite_inputs
import proofs.«141214_j59691455480110_1_alg».proof.Proof.Gen.Pre_finite_inputs
import Idealize.ShloMosaic.Lib.StableHlo.Predicate
import Idealize.ShloMosaic.Lib.ReduceAll
import Idealize.ShloMosaic.Lib.ValueIdx
import proofs.«141214_j59691455480110_1_alg».proof.Proof.LibTakeFill

noncomputable section

namespace Cert.Moe

open Idealize.ShloMosaic Idealize.ShloMosaic.ValueIdx

variable {F : FTy → Type} [FloatOps F]

/-- The precondition's last two conjuncts say that every expert index is in [0, 128). -/
theorem einrange_of_pre (a0 : FVec F Cert.Pre_finite_inputs.S4096x512 .f32) (a1 : IVec Cert.Pre_finite_inputs.S4096x6 32)
    (a2 : FVec F Cert.Pre_finite_inputs.S4096x6 .f32) (a3 : FVec F Cert.Pre_finite_inputs.S128x512x3712 .f32)
    (a4 : FVec F Cert.Pre_finite_inputs.S128x1856x512 .f32)
    (h : Cert.Pre_finite_inputs.fn (F := F) a0 a1 a2 a3 a4 = fun _ => 1#1) : EInRange a1 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1, hlt⟩ := IntOp.andi_eq_one.1 h0
  obtain ⟨_, hge⟩ := IntOp.andi_eq_one.1 h1
  intro n
  have e : eFlat a1 (ix1 n) = a1 (Shape.reshapeEquiv cast_pairs (ix1 n)) := rfl
  rw [e]
  have hge' := Host.reduce_andi_all _ _ _ _ _ hge (Shape.reshapeEquiv cast_pairs (ix1 n))
  have hlt' := Host.reduce_andi_all _ _ _ _ _ hlt (Shape.reshapeEquiv cast_pairs (ix1 n))
  have c0 : ∀ j, broadcastInDim Cert.Pre_finite_inputs.S4096x6 ![] Cert.Pre_finite_inputs.Facts.bcast_S_S4096x6
      (constantI Cert.Pre_finite_inputs.S_ 32 0#32) j = 0#32 := fun j =>
    StableHlo.Predicate.bcast_scalar _ Cert.Pre_finite_inputs.Facts.h_S_ _ j
  have c128 : ∀ j, broadcastInDim Cert.Pre_finite_inputs.S4096x6 ![] Cert.Pre_finite_inputs.Facts.bcast_S_S4096x6
      (constantI Cert.Pre_finite_inputs.S_ 32 128#32) j = 128#32 := fun j =>
    StableHlo.Predicate.bcast_scalar _ Cert.Pre_finite_inputs.Facts.h_S_ _ j
  have z0 : (0#32 : BitVec 32).toInt = 0 := by decide
  have z128 : (128#32 : BitVec 32).toInt = 128 := by decide
  constructor
  · have := (Cert.TakeFill.cmpi_sge_iff _ _).1 hge'
    rw [c0, z0] at this
    exact this
  · have := (Cert.TakeFill.cmpi_slt_iff _ _).1 hlt'
    rw [c128, z128] at this
    exact this

end Cert.Moe

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«141214_j59691455480110_1_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.IntSort.lean ====
import proofs.«141214_j59691455480110_1_alg».proof.Proof.Spec
import proofs.«141214_j59691455480110_1_alg».proof.Proof.LibTakeFill
import proofs.«141214_j59691455480110_1_alg».proof.Proof.LibScatterVec
import proofs.«141214_j59691455480110_1_alg».proof.Proof.LibRowTake
import Idealize.ShloMosaic.Lib.SortFacts
import Idealize.ShloMosaic.Lib.StableHlo.Predicate
import Idealize.ShloMosaic.Lib.ValueIdx

noncomputable section

namespace Cert.Moe

open Idealize.ShloMosaic Idealize.ShloMosaic.ValueIdx

/-- The stable sort's permutation of the 24576 pair positions: `sigma a1 i` is the pair that lands at sorted
    position `i` when pairs are ordered by expert (signed compare), earlier pairs first among equals. -/
def sigma (a1 : IVec S4096x6 32) : Fin 24576 → Fin 24576 :=
  sortedFrom (fun k k' => IntOp.cmpi .slt (eFlat a1 (ix1 k)) (eFlat a1 (ix1 k')) == 1#1)

theorem sigma_bijective (a1 : IVec S4096x6 32) : Function.Bijective (sigma a1) :=
  ⟨sortedFrom_injective _, sortedFrom_surjective _⟩

/-- The experts are non-decreasing along the sorted order. -/
theorem sigma_sorted (a1 : IVec S4096x6 32) (i j : Fin 24576) (hij : i < j) :
    (eFlat a1 (ix1 (sigma a1 i))).toInt ≤ (eFlat a1 (ix1 (sigma a1 j))).toInt := by
  -- the sort leaves no inversion: the later position's expert is not strictly below the earlier one's
  have h := sortedFrom_noInversion
    (fun k k' => IntOp.cmpi .slt (eFlat a1 (ix1 k)) (eFlat a1 (ix1 k')) == 1#1)
    (fun k k' => IntOp.cmpi .slt (eFlat a1 (ix1 k)) (eFlat a1 (ix1 k')) == 1#1)
    ?_ (fun _ _ h => h) ?_ i j hij
  · have h' : (IntOp.cmpi .slt (eFlat a1 (ix1 (sigma a1 j))) (eFlat a1 (ix1 (sigma a1 i))) == 1#1) = false := h
    rw [beq_eq_false_iff_ne, ne_eq, Cert.TakeFill.cmpi_slt_iff] at h'
    omega
  · -- "strictly below" is asymmetric
    intro a b hab
    rw [beq_iff_eq, Cert.TakeFill.cmpi_slt_iff] at hab
    rw [beq_eq_false_iff_ne, ne_eq, Cert.TakeFill.cmpi_slt_iff]
    omega
  · -- "not strictly below" is transitive
    intro a b c hab hbc
    rw [beq_eq_false_iff_ne, ne_eq, Cert.TakeFill.cmpi_slt_iff] at hab hbc ⊢
    omega

/-- The rank-1 index at a coordinate, in its two spellings. -/
private theorem ofFin_eq_ix1 {n : Nat} (k : Fin n) : Shape.Idx.ofFin k = ix1 k := by
  funext d
  match d with
  | ⟨0, _⟩ => exact Fin.ext rfl

/-- Row `i` of a column, in its two spellings. -/
private theorem ix2_eq_ixP {n : Nat} (i : Fin n) : ix2 i (0 : Fin 1) = StableHlo.Predicate.ixP i := by
  funext d
  match d with
  | ⟨0, _⟩ => rfl
  | ⟨1, _⟩ => rfl

/-- A rank-1 index is its one coordinate: moving along the axis to `k` gives the index at `k`. -/
private theorem along_ix1 {n : Nat} (j : (⟨1, ![n]⟩ : Shape).Idx) (h : 0 < (⟨1, ![n]⟩ : Shape).rank) (k : Fin n) :
    j.along ⟨0, h⟩ k = ix1 k := by
  funext d
  match d with
  | ⟨0, _⟩ =>
    unfold Shape.Idx.along
    exact Function.update_self ..

/-- On a vector, the second result of a two-operand sort along its axis reads the second operand through the one
    self-map of the positions that stably sorts the pairs of the operands' entries. -/
private theorem sort2_rank1_snd {n : Nat} {α β : Type} (cmp : α × β → α × β → BitVec 1)
    (x : (⟨1, ![n]⟩ : Shape).Idx → α) (y : (⟨1, ![n]⟩ : Shape).Idx → β) (i : Fin n) :
    (Host.sort2 ⟨1, ![n]⟩ 0 cmp x y).2 (ix1 i)
      = y (ix1 (sortedFrom (fun k k' => cmp (x (ix1 k), y (ix1 k)) (x (ix1 k'), y (ix1 k')) == 1#1) i)) := by
  have e : ∀ h : 0 < (⟨1, ![n]⟩ : Shape).rank,
      (ix1 i : (⟨1, ![n]⟩ : Shape).Idx).along ⟨0, h⟩ = (ix1 : Fin n → _) := fun h => funext (along_ix1 _ h)
  unfold Host.sort2
  rw [dif_pos (show 0 < (⟨1, ![n]⟩ : Shape).rank from Nat.one_pos)]
  simp only [e]
  rfl

/-- The sorted order's i-th entry is the word of the position the sort puts there. -/
private theorem order_apply (a1 : IVec S4096x6 32) (i : Fin 24576) :
    order a1 (ix1 i) = BitVec.ofNat 32 (sigma a1 i).val := by
  unfold order
  rw [sort2_rank1_snd]
  rfl

/-- That word is not negative, so the normalised start index is the word itself. -/
private theorem norm_order_apply (a1 : IVec S4096x6 32) (i : Fin 24576) :
    norm 24576#32 (order a1) (ix2 i (0 : Fin 1)) = BitVec.ofNat 32 (sigma a1 i).val := by
  have hk := (sigma a1 i).isLt
  unfold norm
  rw [ix2_eq_ixP, StableHlo.Predicate.bcast_col1, ofFin_eq_ix1]
  show Scalar.select (IntOp.cmpi .slt (order a1 (ix1 i)) 0#32) (IntOp.addi (order a1 (ix1 i)) 24576#32)
    (order a1 (ix1 i)) = _
  rw [order_apply]
  have h0 : (0#32 : BitVec 32).toInt = 0 := by decide
  have hc : ¬ IntOp.cmpi .slt (BitVec.ofNat 32 (sigma a1 i).val) 0#32 = 1#1 := by
    rw [Cert.TakeFill.cmpi_slt_iff, StableHlo.Predicate.toInt_ofNat_small _ (by omega), h0]
    omega
  exact if_neg hc

/-- The expert of the i-th pair in sorted order is the expert of pair `sigma a1 i`. -/
theorem eS_eq (a1 : IVec S4096x6 32) (i : Fin 24576) : eS a1 (ix1 i) = eFlat a1 (ix1 (sigma a1 i)) := by
  have hk := (sigma a1 i).isLt
  -- the gather reads the operand at the start index, read signed and clamped into [0, 24575]
  refine (Cert.SparseVec.gather_vec_apply (S := 24576) (N := 24576) (by omega) gVec.wf (eFlat a1)
    (norm 24576#32 (order a1)) i).trans ?_
  refine congrArg (fun k : Fin 24576 => eFlat a1 (ix1 k)) (Fin.ext ?_)
  show min (norm 24576#32 (order a1) (ix2 i (0 : Fin 1))).toInt.toNat (24576 - 1) = (sigma a1 i).val
  rw [norm_order_apply, Cert.RowTake.toInt_toNat_ofNat _ (by omega)]
  omega

end Cert.Moe

end
-- ==== Proof.IntCount.lean ====
/-
  The per-expert counts and their running totals.

  The counts are an accumulating scatter of ones onto a vector of 128 zeros at the column of the pairs' experts: a
  left fold over the 24576 pairs, each adding one at the entry its expert names, so entry k ends as the number of
  pairs of expert k.  The running total is a window of 128 positions padded 127 low: at entry k the window's
  position m reads entry k + m - 127 where that is not padding, so the total is the sum of the counts of the experts
  up to k, and taking the expert's own count off leaves the number of pairs of the experts below k.
-/
import proofs.«141214_j59691455480110_1_alg».proof.Proof.Spec
import proofs.«141214_j59691455480110_1_alg».proof.Proof.LibScatterVec
import Idealize.ShloMosaic.Lib.StableHlo.Predicate
import Idealize.ShloMosaic.Lib.ValueIdx
import Mathlib.Data.BitVec
import Mathlib.Algebra.BigOperators.Fin

noncomputable section

namespace Cert.Moe

open Idealize.ShloMosaic Idealize.ShloMosaic.ValueIdx

/-- A left fold of word addition is the starting word plus the sum of the terms. -/
private theorem foldl_addi_eq_sum {ι : Type} (g : ι → BitVec 32) (l : List ι) (x : BitVec 32) :
    l.foldl (fun r n => IntOp.addi r (g n)) x = x + (l.map g).sum := by
  induction l generalizing x with
  | nil => simp
  | cons a l ih =>
    rw [List.foldl_cons, ih, List.map_cons, List.sum_cons]
    show (x + g a) + _ = _
    rw [add_assoc]

/-- A left fold of steps on vectors, each of which adds a term at entry i, read at i. -/
private theorem foldl_apply_of_step {σ ι : Type} (F : (σ → BitVec 32) → ι → (σ → BitVec 32)) (g : ι → BitVec 32) (i : σ)
    (hF : ∀ x n, F x n i = x i + g n) (l : List ι) (x : σ → BitVec 32) :
    l.foldl F x i = x i + (l.map g).sum := by
  induction l generalizing x with
  | nil => simp
  | cons a l ih =>
    rw [List.foldl_cons, ih, hF, List.map_cons, List.sum_cons, add_assoc]

/-- The accumulating scatter of words onto a vector read at entry r: the operand's entry plus the sum of the updates
    whose start index is r. -/
private theorem scatter_addi_vec_apply {R N : Nat} (wf : ScatterDims.WF ⟨1, ![R]⟩ ⟨2, ![N, 1]⟩ ⟨1, ![N]⟩ [] [0] [0] 1)
    (x : IVec ⟨1, ![R]⟩ 32) (idx : IVec ⟨2, ![N, 1]⟩ 32) (upd : IVec ⟨1, ![N]⟩ 32) (r : Fin R) :
    Host.scatter (Cert.SparseVec.vecDims R N wf) IntOp.addi x idx upd (ix1 r)
      = x (ix1 r) + ∑ m : Fin N, if (idx (ix2 m 0)).toInt = (r.val : ℤ) then upd (ix1 m) else 0 := by
  unfold Host.scatter
  refine (foldl_apply_of_step _
    (fun n => (fun j : (⟨1, ![N]⟩ : Shape).Idx => if (idx (ix2 (j 0) 0)).toInt = (r.val : ℤ) then upd j else 0)
      ((⟨1, ![N]⟩ : Shape).rowMajor.symm n)) (ix1 r) ?_ _ _).trans ?_
  · intro y n
    generalize (⟨1, ![N]⟩ : Shape).rowMajor.symm n = j
    obtain ⟨m, rfl⟩ : ∃ m, j = ix1 m := ⟨_, eq_ix1 j⟩
    have hl := Cert.SparseVec.vec_lands_iff wf idx m r
    show _ = y (ix1 r) + if (idx (ix2 m 0)).toInt = (r.val : ℤ) then upd (ix1 m) else 0
    rcases hi : (Cert.SparseVec.vecDims R N wf).resultIdx? (ix1 m) idx with _ | i
    · rw [if_neg (fun h => by rw [hl.2 h] at hi; cases hi), add_zero]
    · show (if ix1 r = i then IntOp.addi (y i) (upd (ix1 m)) else y (ix1 r)) = _
      by_cases he : ix1 r = i
      · subst he
        rw [if_pos rfl, if_pos (hl.1 hi)]
        rfl
      · rw [if_neg he, if_neg (fun h => he (Option.some.inj ((hl.2 h).symm.trans hi))), add_zero]
  · refine congrArg (x (ix1 r) + ·) ?_
    rw [← Fin.sum_univ_def]
    exact (Equiv.sum_comp (⟨1, ![N]⟩ : Shape).rowMajor.symm
        (fun j : (⟨1, ![N]⟩ : Shape).Idx => if (idx (ix2 (j 0) 0)).toInt = (r.val : ℤ) then upd j else 0)).trans
      (Equiv.sum_comp (Cert.SparseMM.idxEquiv1 (n := N)).symm
        (fun j : (⟨1, ![N]⟩ : Shape).Idx => if (idx (ix2 (j 0) 0)).toInt = (r.val : ℤ) then upd j else 0)).symm

/-- The column of experts read at (m, 0) is the expert of pair m. -/
private theorem col_apply (v : IVec S24576 32) (m : Fin 24576) :
    broadcastInDim S24576x1 ![0] bc_col v (ix2 m 0) = v (ix1 m) := by
  have h := StableHlo.Predicate.bcast_col1 bc_col v m
  have e1 : StableHlo.Predicate.ixP m = ix2 m 0 := by
    funext d; match d with | ⟨0, _⟩ => rfl | ⟨1, _⟩ => rfl
  have e2 : (Shape.Idx.ofFin m : S24576.Idx) = ix1 m := by
    funext d; match d with | ⟨0, _⟩ => rfl
  rw [e1, e2] at h
  exact h

/-- `counts` at expert k is the number of pairs whose expert is k. -/
theorem counts_eq (a1 : IVec S4096x6 32) (k : Fin 128) :
    counts a1 (ix1 k) = BitVec.ofNat 32 (Finset.univ.filter fun n : Fin 24576 => (eFlat a1 (ix1 n)).toInt = (k.val : ℤ)).card := by
  unfold counts
  refine (scatter_addi_vec_apply scCount.wf _ _ _ k).trans ?_
  rw [show (broadcastInDim S128 ![] bc_128 (constantI S_ 32 0#32)) (ix1 k) = 0 from rfl, zero_add]
  refine Eq.trans ?_ (BitVec.natCast_eq_ofNat 32 _)
  rw [← Finset.sum_boole]
  refine Finset.sum_congr rfl fun m _ => ?_
  rw [col_apply]
  rfl

/-- The window of the cumulative sum as a shape: one axis of 128 positions. -/
private abbrev W128 : Shape := ⟨S128.rank, ![128]⟩

/-- The cumulative sum written as a window of 128 padded 127 low, read at entry k: the sum over the window's
    positions m of the operand at k + m - 127 where that is not padding. -/
private theorem cumsum_window_apply (c : IVec S128 32) (k : Fin 128) :
    Host.reduceWindow IntOp.addi ![128] ![1] ![127] ![0] c
        (broadcastInDim S_ ![] bc_s (constantI S_ 32 0#32)) rw_128 h_S_ (ix1 k)
      = ∑ m : Fin 128, if 127 ≤ k.val + m.val then
          c (ix1 ⟨(k.val + m.val - 127) % 128, Nat.mod_lt _ (by norm_num)⟩) else 0 := by
  unfold Host.reduceWindow
  refine (foldl_addi_eq_sum _ _ _).trans ?_
  rw [← Fin.sum_univ_def]
  refine (zero_add _).trans ?_
  refine (Finset.sum_congr rfl (g := fun n => (fun j : W128.Idx =>
      if 127 ≤ k.val + (j 0).val then
        c (ix1 ⟨(k.val + (j 0).val - 127) % 128, Nat.mod_lt _ (by norm_num)⟩) else 0)
      (W128.rowMajor.symm n)) fun n _ => ?_).trans ?_
  · show _ = if 127 ≤ k.val + (W128.rowMajor.symm n 0).val then
        c (ix1 ⟨(k.val + (W128.rowMajor.symm n 0).val - 127) % 128, Nat.mod_lt _ (by norm_num)⟩) else 0
    have hlt : (W128.rowMajor.symm n 0).val < 128 := (W128.rowMajor.symm n 0).isLt
    have hk := k.isLt
    by_cases h : 127 ≤ k.val + (W128.rowMajor.symm n 0).val
    · rw [if_pos h]
      split
      · rename_i hin
        refine congrArg c (funext fun a => ?_)
        have ha : a = 0 := Subsingleton.elim _ _
        subst ha
        refine Fin.ext ?_
        show k.val * 1 + (W128.rowMajor.symm n 0).val - 127 = (k.val + (W128.rowMajor.symm n 0).val - 127) % 128
        omega
      · rename_i hin
        refine absurd (fun a => ?_) hin
        have ha : a = 0 := Subsingleton.elim _ _
        subst ha
        show 127 ≤ k.val * 1 + (W128.rowMajor.symm n 0).val ∧ k.val * 1 + (W128.rowMajor.symm n 0).val - 127 < 128
        omega
    · rw [if_neg h]
      split
      · rename_i hin
        have h0 : 127 ≤ k.val * 1 + (W128.rowMajor.symm n 0).val := (hin 0).1
        omega
      · rfl
  · exact (Equiv.sum_comp (⟨1, ![128]⟩ : Shape).rowMajor.symm
        (fun j : (⟨1, ![128]⟩ : Shape).Idx => if 127 ≤ k.val + (j 0).val then
          c (ix1 ⟨(k.val + (j 0).val - 127) % 128, Nat.mod_lt _ (by norm_num)⟩) else 0)).trans
      (Equiv.sum_comp (Cert.SparseMM.idxEquiv1 (n := 128)).symm
        (fun j : (⟨1, ![128]⟩ : Shape).Idx => if 127 ≤ k.val + (j 0).val then
          c (ix1 ⟨(k.val + (j 0).val - 127) % 128, Nat.mod_lt _ (by norm_num)⟩) else 0)).symm

/-- The window's sum re-indexed by the entry read: positions m with 127 ≤ k + m are the entries k + m - 127 ≤ k. -/
private theorem window_sum_eq (c : Fin 128 → BitVec 32) (k : Fin 128) :
    (∑ m : Fin 128, if 127 ≤ k.val + m.val then c ⟨(k.val + m.val - 127) % 128, Nat.mod_lt _ (by norm_num)⟩ else 0)
      = ∑ j ∈ Finset.univ.filter (fun j : Fin 128 => j ≤ k), c j := by
  rw [← Finset.sum_filter]
  refine Finset.sum_nbij' (fun m => ⟨(k.val + m.val - 127) % 128, Nat.mod_lt _ (by norm_num)⟩)
    (fun j => ⟨(j.val + 127 - k.val) % 128, Nat.mod_lt _ (by norm_num)⟩) ?_ ?_ ?_ ?_ ?_
  · intro m hm
    have hm' := (Finset.mem_filter.1 hm).2
    refine Finset.mem_filter.2 ⟨Finset.mem_univ _, ?_⟩
    rw [Fin.le_def]
    show (k.val + m.val - 127) % 128 ≤ k.val
    have := m.isLt; have := k.isLt; omega
  · intro j hj
    have hj' := Fin.le_def.1 (Finset.mem_filter.1 hj).2
    refine Finset.mem_filter.2 ⟨Finset.mem_univ _, ?_⟩
    show 127 ≤ k.val + (j.val + 127 - k.val) % 128
    have := j.isLt; have := k.isLt; omega
  · intro m hm
    have hm' := (Finset.mem_filter.1 hm).2
    refine Fin.ext ?_
    show ((k.val + m.val - 127) % 128 + 127 - k.val) % 128 = m.val
    have := m.isLt; have := k.isLt; omega
  · intro j hj
    have hj' := Fin.le_def.1 (Finset.mem_filter.1 hj).2
    refine Fin.ext ?_
    show (k.val + (j.val + 127 - k.val) % 128 - 127) % 128 = j.val
    have := j.isLt; have := k.isLt; omega
  · intro m hm
    rfl

/-- The numbers of pairs of the experts below k add up to the number of pairs whose expert is below k. -/
private theorem sum_card_below (e : Fin 24576 → BitVec 32)
    (h : ∀ n, 0 ≤ (e n).toInt ∧ (e n).toInt < 128) (k : Fin 128) :
    ∑ j ∈ Finset.univ.filter (fun j : Fin 128 => j < k),
        (Finset.univ.filter fun n : Fin 24576 => (e n).toInt = (j.val : ℤ)).card
      = (Finset.univ.filter fun n : Fin 24576 => (e n).toInt < (k.val : ℤ)).card := by
  symm
  rw [Finset.card_eq_sum_card_fiberwise (s := Finset.univ.filter fun n : Fin 24576 => (e n).toInt < (k.val : ℤ))
    (t := Finset.univ.filter (fun j : Fin 128 => j < k))
    (f := fun n => (⟨(e n).toInt.toNat % 128, Nat.mod_lt _ (by norm_num)⟩ : Fin 128))]
  · refine Finset.sum_congr rfl fun j hj => congrArg Finset.card ?_
    have hj' := Fin.lt_def.1 (Finset.mem_filter.1 hj).2
    rw [Finset.filter_filter]
    refine Finset.filter_congr fun n _ => ?_
    have := h n
    rw [Fin.ext_iff]
    show (e n).toInt < (k.val : ℤ) ∧ (e n).toInt.toNat % 128 = j.val ↔ (e n).toInt = (j.val : ℤ)
    omega
  · intro n hn
    have hn' := (Finset.mem_filter.1 hn).2
    refine Finset.mem_filter.2 ⟨Finset.mem_univ _, ?_⟩
    rw [Fin.lt_def]
    show (e n).toInt.toNat % 128 < k.val
    have := h n
    omega

/-- `starts` at expert k is the number of pairs whose expert is below k. -/
theorem starts_eq (a1 : IVec S4096x6 32) (h : EInRange a1) (k : Fin 128) :
    starts a1 (ix1 k) = BitVec.ofNat 32 (Finset.univ.filter fun n : Fin 24576 => (eFlat a1 (ix1 n)).toInt < (k.val : ℤ)).card := by
  have hc : csum a1 (ix1 k) = ∑ j ∈ Finset.univ.filter (fun j : Fin 128 => j ≤ k), counts a1 (ix1 j) :=
    (cumsum_window_apply (counts a1) k).trans (window_sum_eq (fun j => counts a1 (ix1 j)) k)
  have hsplit : Finset.univ.filter (fun j : Fin 128 => j ≤ k) = insert k (Finset.univ.filter (fun j : Fin 128 => j < k)) := by
    ext j
    rw [Finset.mem_insert, Finset.mem_filter, Finset.mem_filter, le_iff_eq_or_lt]
    simp only [Finset.mem_univ, true_and]
  have hnot : k ∉ Finset.univ.filter (fun j : Fin 128 => j < k) := fun hk => lt_irrefl k (Finset.mem_filter.1 hk).2
  show IntOp.subi (csum a1 (ix1 k)) (counts a1 (ix1 k)) = _
  rw [hc, hsplit, Finset.sum_insert hnot]
  show (counts a1 (ix1 k) + _) - counts a1 (ix1 k) = _
  rw [add_sub_cancel_left,
    Finset.sum_congr rfl (fun j _ => (counts_eq a1 j).trans (BitVec.natCast_eq_ofNat 32 _).symm), ← Nat.cast_sum,
    sum_card_below (fun n => eFlat a1 (ix1 n)) h k]
  exact BitVec.natCast_eq_ofNat 32 _

end Cert.Moe
end
-- ==== Proof.IntRank.lean ====
/-
  The rank bound: with every expert in [0, 128), the row `gidx` names is a row of the 128 * 320 slot table.

  Sorted pair i has expert E = eS i in [0, 128). The table read in `pos` is `starts` at E: the normalisation leaves a
  non-negative word alone and the clamp into [0, 127] leaves E alone. That entry is r, the number of pairs whose expert
  is below E. Along the sort's permutation the experts are non-decreasing, so every such pair sits at a sorted position
  before i, and r ≤ i. Hence pos i = i - r lies in [0, 24576) with no wrap; where it is below 320, gRaw i = 320 E + pos i
  lies in [0, 320 * 127 + 319], below 40960, again with no wrap; elsewhere gidx i is 0.
-/
import proofs.«141214_j59691455480110_1_alg».proof.Proof.Spec
import proofs.«141214_j59691455480110_1_alg».proof.Proof.IntSort
import proofs.«141214_j59691455480110_1_alg».proof.Proof.IntCount
import proofs.«141214_j59691455480110_1_alg».proof.Proof.LibTakeFill
import proofs.«141214_j59691455480110_1_alg».proof.Proof.LibScatterVec
import Idealize.ShloMosaic.Lib.StableHlo.Predicate
import Idealize.ShloMosaic.Lib.ValueIdx
import Mathlib.Data.Finset.Card
import Mathlib.Order.Interval.Finset.Fin

noncomputable section

namespace Cert.Moe

open Idealize.ShloMosaic Idealize.ShloMosaic.ValueIdx

/-! ## The counting step -/

/-- THE COUNTING STEP. Along a bijection `σ` under which `e` is non-decreasing, the entries strictly below the
    entry at sorted position `i₀` number at most `i₀`: they all sit at sorted positions before `i₀`. -/
private theorem card_lt_le_pos {N : Nat} (e : Fin N → ℤ) (σ : Fin N → Fin N) (hσ : Function.Bijective σ)
    (hs : ∀ i j : Fin N, i < j → e (σ i) ≤ e (σ j)) (i₀ : Fin N) :
    (Finset.univ.filter fun n : Fin N => e n < e (σ i₀)).card ≤ i₀.val := by
  have h1 : (Finset.univ.filter fun n : Fin N => e n < e (σ i₀)).card
      = (Finset.univ.filter fun j : Fin N => e (σ j) < e (σ i₀)).card := by
    symm
    refine Finset.card_bij (fun j _ => σ j) ?_ ?_ ?_
    · intro j hj
      rw [Finset.mem_filter] at hj ⊢
      exact ⟨Finset.mem_univ _, hj.2⟩
    · intro a _ b _ hab
      exact hσ.1 hab
    · intro n hn
      obtain ⟨j, rfl⟩ := hσ.2 n
      rw [Finset.mem_filter] at hn
      exact ⟨j, by rw [Finset.mem_filter]; exact ⟨Finset.mem_univ _, hn.2⟩, rfl⟩
  rw [h1]
  have h2 : (Finset.univ.filter fun j : Fin N => e (σ j) < e (σ i₀)) ⊆ (Finset.univ.filter fun j : Fin N => j < i₀) := by
    intro j hj
    rw [Finset.mem_filter] at hj ⊢
    refine ⟨Finset.mem_univ _, ?_⟩
    by_contra hnot
    rcases (not_lt.mp hnot).eq_or_lt with heq | hlt
    · rw [heq] at hj; exact lt_irrefl _ hj.2
    · exact absurd (hs _ _ hlt) (not_le.mpr hj.2)
  refine (Finset.card_le_card h2).trans ?_
  rw [Finset.filter_gt_eq_Iio, Fin.card_Iio]

/-! ## Reading the routing's vectors at an entry -/

/-- The column of normalised indices at row `k`: the word itself, or the word plus the extent when it is negative. -/
private theorem norm_apply (n : BitVec 32) (v : IVec S24576 32) (k : Fin 24576) :
    norm n v (ix2 k (0 : Fin 1))
      = Scalar.select (IntOp.cmpi .slt (v (ix1 k)) 0#32) (IntOp.addi (v (ix1 k)) n) (v (ix1 k)) := by
  have hidx : ∀ w : S24576.Idx → BitVec 32,
      broadcastInDim S24576x1 ![0] bc_col w (ix2 k (0 : Fin 1)) = w (ix1 k) := by
    intro w
    show w _ = w _
    congr 1
    funext a
    match a with
    | ⟨0, _⟩ => rfl
  unfold norm
  rw [hidx]
  rfl

/-- A non-negative word is its own normalisation. -/
private theorem norm_of_nonneg (n : BitVec 32) (v : IVec S24576 32) (k : Fin 24576) (h0 : 0 ≤ (v (ix1 k)).toInt) :
    norm n v (ix2 k (0 : Fin 1)) = v (ix1 k) := by
  rw [norm_apply]
  have h0I : (0#32 : BitVec 32).toInt = 0 := by decide
  have hc : IntOp.cmpi .slt (v (ix1 k)) 0#32 ≠ 1#1 := fun hc => by
    have := (Cert.TakeFill.cmpi_slt_iff _ _).1 hc
    rw [h0I] at this
    omega
  exact if_neg hc

/-- The sorted pair's expert is an expert. -/
private theorem eS_range (a1 : IVec S4096x6 32) (h : EInRange a1) (i₀ : Fin 24576) :
    0 ≤ (eS a1 (ix1 i₀)).toInt ∧ (eS a1 (ix1 i₀)).toInt < 128 := by
  rw [eS_eq]
  exact h (sigma a1 i₀)

/-- The table read of `pos`: the number of pairs whose expert is below sorted pair `i₀`'s, which is at most `i₀`. -/
private theorem gathered_eq (a1 : IVec S4096x6 32) (h : EInRange a1) (i₀ : Fin 24576) :
    ∃ r : ℕ, r ≤ i₀.val ∧ Host.gather gTab (starts a1) (norm 128#32 (eS a1)) (ix1 i₀) = BitVec.ofNat 32 r := by
  have hE := eS_range a1 h i₀
  have hn : norm 128#32 (eS a1) (ix2 i₀ (0 : Fin 1)) = eS a1 (ix1 i₀) := norm_of_nonneg _ _ _ hE.1
  refine ⟨(Finset.univ.filter fun n : Fin 24576 => (eFlat a1 (ix1 n)).toInt < (eS a1 (ix1 i₀)).toInt).card, ?_, ?_⟩
  · have hc := card_lt_le_pos (fun n => (eFlat a1 (ix1 n)).toInt) (sigma a1) (sigma_bijective a1)
      (sigma_sorted a1) i₀
    rw [eS_eq]
    exact hc
  · have hg := Cert.SparseVec.gather_vec_apply (S := 128) (N := 24576) (by norm_num) gTab.wf (starts a1)
      (norm 128#32 (eS a1)) i₀
    refine hg.trans ?_
    rw [starts_eq a1 h]
    congr 3
    funext n
    show ((eFlat a1 (ix1 n)).toInt < ((min (norm 128#32 (eS a1) (ix2 i₀ (0 : Fin 1))).toInt.toNat (128 - 1) : ℕ) : ℤ)) = _
    rw [hn]
    congr 1
    omega

/-! ## The word arithmetic: nothing wraps -/

/-- The rank of sorted pair `i₀` among its expert's pairs is a position minus a count that is no larger. -/
private theorem pos_range (a1 : IVec S4096x6 32) (h : EInRange a1) (i₀ : Fin 24576) :
    0 ≤ (pos a1 (ix1 i₀)).toInt ∧ (pos a1 (ix1 i₀)).toInt < 24576 := by
  obtain ⟨r, hr, hg⟩ := gathered_eq a1 h i₀
  have hi := i₀.isLt
  have hp : pos a1 (ix1 i₀) = BitVec.ofNat 32 i₀.val - BitVec.ofNat 32 r := by
    show IntOp.subi (iotaInDim S24576 32 0 (ix1 i₀))
      (Host.gather gTab (starts a1) (norm 128#32 (eS a1)) (ix1 i₀)) = _
    rw [hg]
    rfl
  have hiI : (BitVec.ofNat 32 i₀.val).toInt = (i₀.val : ℤ) := StableHlo.Predicate.toInt_ofNat_small _ (by omega)
  have hrI : (BitVec.ofNat 32 r).toInt = (r : ℤ) := StableHlo.Predicate.toInt_ofNat_small _ (by omega)
  have hv : (pos a1 (ix1 i₀)).toInt = (i₀.val : ℤ) - (r : ℤ) := by
    rw [hp, BitVec.toInt_sub, hiI, hrI]
    apply Int.bmod_eq_of_le <;> omega
  rw [hv]
  omega

/-- With every expert in [0, 128), the row a pair's output is read at is a row of the 128 * 320 slot table. -/
theorem gidx_range (a1 : IVec S4096x6 32) (h : EInRange a1) (i : S24576.Idx) :
    0 ≤ (gidx a1 i).toInt ∧ (gidx a1 i).toInt < 40960 := by
  rw [eq_ix1 i]
  generalize i 0 = i₀
  have hE := eS_range a1 h i₀
  have hP := pos_range a1 h i₀
  have h320 : (320#32 : BitVec 32).toInt = 320 := by decide
  have h0I : (0#32 : BitVec 32).toInt = 0 := by decide
  have hmul : (IntOp.muli (eS a1 (ix1 i₀)) 320#32).toInt = (eS a1 (ix1 i₀)).toInt * 320 := by
    show (eS a1 (ix1 i₀) * 320#32).toInt = _
    rw [BitVec.toInt_mul, h320]
    apply Int.bmod_eq_of_le <;> omega
  have hraw : (gRaw a1 (ix1 i₀)).toInt = (eS a1 (ix1 i₀)).toInt * 320 + (pos a1 (ix1 i₀)).toInt := by
    show (IntOp.muli (eS a1 (ix1 i₀)) 320#32 + pos a1 (ix1 i₀)).toInt = _
    rw [BitVec.toInt_add, hmul]
    apply Int.bmod_eq_of_le <;> omega
  show 0 ≤ (Scalar.select (valid a1 (ix1 i₀)) (gRaw a1 (ix1 i₀)) 0#32).toInt
    ∧ (Scalar.select (valid a1 (ix1 i₀)) (gRaw a1 (ix1 i₀)) 0#32).toInt < 40960
  by_cases hv : valid a1 (ix1 i₀) = 1#1
  · have hlt : (pos a1 (ix1 i₀)).toInt < 320 := by
      have hc : IntOp.cmpi .slt (pos a1 (ix1 i₀)) 320#32 = 1#1 := hv
      have := (Cert.TakeFill.cmpi_slt_iff _ _).1 hc
      rwa [h320] at this
    rw [show Scalar.select (valid a1 (ix1 i₀)) (gRaw a1 (ix1 i₀)) 0#32 = gRaw a1 (ix1 i₀) from if_pos hv, hraw]
    omega
  · rw [show Scalar.select (valid a1 (ix1 i₀)) (gRaw a1 (ix1 i₀)) 0#32 = 0#32 from if_neg hv, h0I]
    omega

end Cert.Moe

end
-- ==== Proof.RowsEq.lean ====
import proofs.«141214_j59691455480110_1_alg».proof.Proof.Spec
import proofs.«141214_j59691455480110_1_alg».proof.Proof.LibTakeFill
import proofs.«141214_j59691455480110_1_alg».proof.Proof.LibRowTake
import Idealize.ShloMosaic.Lib.StableHlo.Predicate
import Idealize.ShloMosaic.Lib.ValueIdx
import Idealize.ShloMosaic.Lib.Pipeline.Value

noncomputable section

namespace Cert.Moe

open Idealize.ShloMosaic Idealize.ShloMosaic.ValueIdx

variable {F : FTy → Type} [FloatOps F]

/-- A vector of 24576 entries laid out as a [24576, 1] column reads, at (r, 0), the vector at r. -/
private theorem col_apply {α : Type} (v : S24576.Idx → α) (r : Fin 24576) :
    broadcastInDim S24576x1 ![0] bc_col v (ix2 r (0 : Fin 1)) = v (ix1 r) := by
  simp only [broadcastInDim]
  congr 1
  funext a
  have ha : a = 0 := Subsingleton.elim _ _
  subst ha
  apply Fin.ext
  split
  · next h1 => exact absurd h1 (by decide)
  · rfl

/-- A vector of copies of a word reads that word at every entry. -/
private theorem splat_apply (b : BitVec 32) (i : S24576.Idx) : splat b i = b := by
  unfold splat
  rw [StableHlo.Predicate.bcast_scalar bc_vec h_S_]
  rfl

/-- The normalised index of a word that is not negative is the word itself, whatever the extent. -/
private theorem norm_apply (n : BitVec 32) (g : IVec S24576 32) (r : Fin 24576)
    (h : 0 ≤ (g (ix1 r)).toInt) : norm n g (ix2 r (0 : Fin 1)) = g (ix1 r) := by
  unfold norm
  rw [col_apply]
  show Scalar.select (IntOp.cmpi .slt (g (ix1 r)) (splat 0#32 (ix1 r))) (IntOp.addi (g (ix1 r)) (splat n (ix1 r))) (g (ix1 r))
    = g (ix1 r)
  rw [splat_apply]
  have h0I : (0#32 : BitVec 32).toInt = 0 := by decide
  have hc : IntOp.cmpi .slt (g (ix1 r)) 0#32 ≠ 1#1 := by
    intro hc
    have := (Cert.TakeFill.cmpi_slt_iff _ _).1 hc
    rw [h0I] at this
    omega
  exact if_neg hc

/-- A 32-bit word whose signed value is not negative is the word of that value. -/
private theorem word_of_nonneg (w : BitVec 32) (h0 : 0 ≤ w.toInt) : w = BitVec.ofNat 32 w.toInt.toNat := by
  apply BitVec.eq_of_toInt_eq
  have hlt := BitVec.toInt_lt (x := w)
  rw [StableHlo.Predicate.toInt_ofNat_small _ (by omega)]
  omega

/-- Where every read row is a row of the 40960-row table, reading it out of the table with a zero row appended
    (index normalised for 40961 rows) and out of the table itself (normalised for 40960) give the same rows. -/
theorem rows_eq (y : FVec F S128x320x512 .f32) (a1 : IVec S4096x6 32)
    (hg : ∀ i : S24576.Idx, 0 ≤ (gidx a1 i).toInt ∧ (gidx a1 i).toInt < 40960) : rowsK y a1 = rowsR y a1 := by
  unfold rowsK rowsR
  generalize gidx a1 = g at hg ⊢
  funext j
  obtain ⟨r, c, rfl⟩ : ∃ (r : Fin 24576) (c : Fin 512), j = ix2 r c := ⟨j 0, j 1, eq_ix2 j⟩
  have hr := hg (ix1 r)
  -- the row read: the index word's value, a row of the 40960-row table
  have hk0 : (g (ix1 r)).toInt.toNat < 40960 := by omega
  have hw : g (ix1 r) = BitVec.ofNat 32 (g (ix1 r)).toInt.toNat := word_of_nonneg _ hr.1
  -- both gathers read that row, neither clamps
  refine (Cert.RowTake.gather_rows_of_word (K := 40961) (C := 512) (n := 24576) (by omega) gRows40961 rfl rfl rfl rfl rfl
    _ _ r c ⟨(g (ix1 r)).toInt.toNat, by omega⟩ ?_).trans ?_
  · rw [norm_apply _ _ _ hr.1]; exact hw
  refine Eq.trans ?_ (Cert.RowTake.gather_rows_of_word (K := 40960) (C := 512) (n := 24576) (by omega) gRows40960 rfl rfl rfl rfl rfl
    _ _ r c ⟨(g (ix1 r)).toInt.toNat, hk0⟩ ?_).symm
  · -- the table with a zero row appended, at a row of the table, is the table
    exact concatenate_pair_apply_left (t := S40961x512) (s₁ := S40960x512) (s₂ := S1x512) (0 : Fin 2) _ _ cat_y _ rfl
      (ix2 ⟨(g (ix1 r)).toInt.toNat, hk0⟩ c) (fun b => match b with | ⟨0, _⟩ => rfl | ⟨1, _⟩ => rfl)
  · rw [norm_apply _ _ _ hr.1]; exact hw

end Cert.Moe

end
-- ==== Proof.RefFFN.lean ====
import proofs.«141214_j59691455480110_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember

noncomputable section

namespace Cert.Moe

open Idealize.ShloMosaic Idealize.ShloMosaic.ValueIdx

/-- The product with the joined gate and up weights at (e, c, f): the sum over the 512 hidden coordinates. -/
private theorem gu_apply (x : FVec Ideal S128x320x512 .f32) (w3 : FVec Ideal S128x512x3712 .f32)
    (e : Fin 128) (c : Fin 320) (f : Fin 3712) :
    Host.dotGeneral dotGU none x w3 (ix3 e c f) = ∑ h : Fin 512, x (ix3 e c h) * w3 (ix3 e h f) :=
  StackMember.dotGeneral_stack_apply dotGU.wf none x w3 e c f

/-- The product with the down weights at (e, c, h): the sum over the 1856 coordinates. -/
private theorem down_apply (a : FVec Ideal S128x320x1856 .f32) (w4 : FVec Ideal S128x1856x512 .f32)
    (e : Fin 128) (c : Fin 320) (h : Fin 512) :
    Host.dotGeneral dotD none a w4 (ix3 e c h) = ∑ i : Fin 1856, a (ix3 e c i) * w4 (ix3 e i h) :=
  StackMember.dotGeneral_stack_apply dotD.wf none a w4 e c h

/-- A rank-3 array cut along its last axis from `o` reads, at (a, b, j), the source at (a, b, k) with k = o + j. -/
private theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The pattern 0x3F800000 is the number one. -/
private theorem one_f32 : Ideal.ofBits .f32 0x3F800000#32 = 1 := by
  simp [Ideal.ofBits, Ideal.ieee, -EReal.coe_mul]; norm_num

/-- silu at an entry: z * logistic z. -/
private theorem siluHost_apply (z : FVec Ideal S128x320x1856 .f32) (j : S128x320x1856.Idx) :
    siluHost (F := Ideal) z j = z j * Ideal.logistic (z j) := by
  show z j * Ideal.div (Ideal.ofBits .f32 0x3F800000#32) (Ideal.ofBits .f32 0x3F800000#32 + Ideal.exp (-(z j))) = _
  rw [one_f32]
  rfl

/-- At Ideal the reference's network is the entrywise formula. -/
theorem refFFN_eq (x : FVec Ideal S128x320x512 .f32) (w3 : FVec Ideal S128x512x3712 .f32) (w4 : FVec Ideal S128x1856x512 .f32) :
    refFFN (F := Ideal) x w3 w4 = ffn x w3 w4 := by
  funext j
  obtain ⟨e, c, h, rfl⟩ : ∃ (e : Fin 128) (c : Fin 320) (h : Fin 512), j = ix3 e c h := ⟨j 0, j 1, j 2, eq_ix3 j⟩
  show Host.dotGeneral dotD none _ w4 (ix3 e c h) = ∑ i : Fin 1856, act x w3 e c i * w4 (ix3 e i h)
  rw [down_apply]
  refine Finset.sum_congr rfl fun i _ => ?_
  refine congrArg (· * w4 (ix3 e i h)) ?_
  show siluHost (F := Ideal) (extractStridedSlice S128x320x1856 ![0, 0, 0] (Host.dotGeneral dotGU none x w3) sl_gate) (ix3 e c i)
      * extractStridedSlice S128x320x1856 ![0, 0, 1856] (Host.dotGeneral dotGU none x w3) sl_up (ix3 e c i) = act x w3 e c i
  rw [siluHost_apply,
    slice3_axis2_apply 0 (Host.dotGeneral dotGU none x w3) sl_gate e c i (⟨i.val, by omega⟩ : Fin 3712) (Nat.zero_add _).symm,
    slice3_axis2_apply 1856 (Host.dotGeneral dotGU none x w3) sl_up e c i (⟨1856 + i.val, by omega⟩ : Fin 3712) rfl,
    gu_apply, gu_apply]
  rfl

end Cert.Moe

end
-- ==== Proof.RefRun.lean ====
import proofs.«141214_j59691455480110_1_alg».proof.Proof.Spec
import proofs.«141214_j59691455480110_1_alg».proof.Proof.Gen.ReferenceIdeal
import Idealize.ShloMosaic.Lib.StableHlo.Run
import Idealize.ShloMosaic.Lib.Pipeline.Frame

noncomputable section

namespace Cert.ReferenceIdeal.RefRun

open Idealize.ShloMosaic Cert.ReferenceIdeal Cert.ReferenceIdeal.Gen Idealize.ShloMosaic.TcCoe Idealize.SL.Sem Idealize.ShloMosaic.StableHlo

variable {F : FTy → Type} [FloatOps F]

/-! ## The program as lists of operations

@main's statements in order, each module-local function's body written out at its call over that call's
buffers; one list per stretch between calls and one per call. -/

/-- Statements 1 … 5: the pairs' experts, tokens and weights, flattened. -/
abbrev a0 : List (HloOp τ sig (Elt F)) :=
  [ StableHlo.reshape main_arg1 main_v0 rfl shapeCasts_S4096x6_S24576,
    StableHlo.nullary main_v1 (iotaInDim S4096 32 0),
    StableHlo.unary main_v1 main_v2 (broadcastInDim S4096x6 ![0] bcast_S4096_S4096x6_0 : (⟨S4096, .i32⟩ : BufTy).Contents (Elt F) → (⟨S4096x6, .i32⟩ : BufTy).Contents (Elt F)),
    StableHlo.reshape main_v2 main_v3 rfl shapeCasts_S4096x6_S24576,
    StableHlo.reshape main_arg2 main_v4 rfl shapeCasts_S4096x6_S24576 ]
theorem a0_sub : (a0 : List (HloOp τ sig (Elt F))).Forall fun op => op.bufs ⊆ tcRefs τ sig :=
  ⟨reshape_bufs_sub .., nullary_bufs_sub .., unary_bufs_sub .., reshape_bufs_sub .., reshape_bufs_sub ..⟩
theorem a0_fresh : (a0 : List (HloOp τ sig (Elt F))).Forall fun op => op.fresh = ∅ :=
  ⟨rfl, rfl, rfl, rfl, rfl⟩

/-- The argsort's three operations: the positions, the sorted keys, the sorted positions. -/
abbrev a1 : List (HloOp τ sig (Elt F)) :=
  [ StableHlo.TRef.nullary (.of main_call0_v0 : StableHlo.TRef sig ⟨S24576, .i32⟩) (iotaInDim S24576 32 0),
    StableHlo.TRef.binary (.of main_v0 : StableHlo.TRef sig ⟨S24576, .i32⟩) (.of main_call0_v0 : StableHlo.TRef sig ⟨S24576, .i32⟩) (.of main_call0_v1_0 : StableHlo.TRef sig ⟨S24576, .i32⟩) (fun x y => (Host.sort2 S24576 0 comparator_i32_i32_d0 x y).1),
    StableHlo.TRef.binary (.of main_v0 : StableHlo.TRef sig ⟨S24576, .i32⟩) (.of main_call0_v0 : StableHlo.TRef sig ⟨S24576, .i32⟩) (.of main_v5 : StableHlo.TRef sig ⟨S24576, .i32⟩) (fun x y => (Host.sort2 S24576 0 comparator_i32_i32_d0 x y).2) ]
theorem a1_sub : (a1 : List (HloOp τ sig (Elt F))).Forall fun op => op.bufs ⊆ tcRefs τ sig :=
  ⟨nullary_bufs_sub .., binary_bufs_sub .., binary_bufs_sub ..⟩
theorem a1_fresh : (a1 : List (HloOp τ sig (Elt F))).Forall fun op => op.fresh = ∅ :=
  ⟨rfl, rfl, rfl⟩

/-- The three sorted reads and the count of pairs per expert. -/
abbrev a2 : List (HloOp τ sig (Elt F)) :=
  [ StableHlo.nullary main_c (constantI S_ 32 0#32),
    StableHlo.unary main_c main_v6 (broadcastInDim S24576 ![] bcast_S_S24576 : (⟨S_, .i32⟩ : BufTy).Contents (Elt F) → (⟨S24576, .i32⟩ : BufTy).Contents (Elt F)),
    StableHlo.binary main_v5 main_v6 main_v7 (cmpi .slt : (⟨S24576, .i32⟩ : BufTy).Contents (Elt F) → (⟨S24576, .i32⟩ : BufTy).Contents (Elt F) → (⟨S24576, .i1⟩ : BufTy).Contents (Elt F)),
    StableHlo.nullary main_c_0 (constantI S_ 32 24576#32),
    StableHlo.unary main_c_0 main_v8 (broadcastInDim S24576 ![] bcast_S_S24576 : (⟨S_, .i32⟩ : BufTy).Contents (Elt F) → (⟨S24576, .i32⟩ : BufTy).Contents (Elt F)),
    StableHlo.binary main_v5 main_v8 main_v9 (addi : (⟨S24576, .i32⟩ : BufTy).Contents (Elt F) → (⟨S24576, .i32⟩ : BufTy).Contents (Elt F) → (⟨S24576, .i32⟩ : BufTy).Contents (Elt F)),
    StableHlo.ternary main_v7 main_v9 main_v5 main_v10 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v10 main_v11 (broadcastInDim S24576x1 ![0] bcast_S24576_S24576x1_0 : (⟨S24576, .i32⟩ : BufTy).Contents (Elt F) → (⟨S24576x1, .i32⟩ : BufTy).Contents (Elt F)),
    StableHlo.binary main_v0 main_v11 main_v12 ((fun x i => Host.gather gather_S24576_S24576x1_S24576_n_0_n_n_0_1_1 x i) : (⟨S24576, .i32⟩ : BufTy).Contents (Elt F) → (⟨S24576x1, .i32⟩ : BufTy).Contents (Elt F) → (⟨S24576, .i32⟩ : BufTy).Contents (Elt F)),
    StableHlo.nullary main_c_1 (constantI S_ 32 0#32),
    StableHlo.unary main_c_1 main_v13 (broadcastInDim S24576 ![] bcast_S_S24576 : (⟨S_, .i32⟩ : BufTy).Contents (Elt F) → (⟨S24576, .i32⟩ : BufTy).Contents (Elt F)),
    StableHlo.binary main_v5 main_v13 main_v14 (cmpi .slt : (⟨S24576, .i32⟩ : BufTy).Contents (Elt F) → (⟨S24576, .i32⟩ : BufTy).Contents (Elt F) → (⟨S24576, .i1⟩ : BufTy).Contents (Elt F)),
    StableHlo.nullary main_c_2 (constantI S_ 32 24576#32),
    StableHlo.unary main_c_2 main_v15 (broadcastInDim S24576 ![] bcast_S_S24576 : (⟨S_, .i32⟩ : BufTy).Contents (Elt F) → (⟨S24576, .i32⟩ : BufTy).Contents (Elt F)),
    StableHlo.binary main_v5 main_v15 main_v16 (addi : (⟨S24576, .i32⟩ : BufTy).Contents (Elt F) → (⟨S24576, .i32⟩ : BufTy).Contents (Elt F) → (⟨S24576, .i32⟩ : BufTy).Contents (Elt F)),
    StableHlo.ternary main_v14 main_v16 main_v5 main_v17 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v17 main_v18 (broadcastInDim S24576x1 ![0] bcast_S24576_S24576x1_0 : (⟨S24576, .i32⟩ : BufTy).Contents (Elt F) → (⟨S24576x1, .i32⟩ : BufTy).Contents (Elt F)),
    StableHlo.binary main_v3 main_v18 main_v19 ((fun x i => Host.gather gather_S24576_S24576x1_S24576_n_0_n_n_0_1_1 x i) : (⟨S24576, .i32⟩ : BufTy).Contents (Elt F) → (⟨S24576x1, .i32⟩ : BufTy).Contents (Elt F) → (⟨S24576, .i32⟩ : BufTy).Contents (Elt F)),
    StableHlo.nullary main_c_3 (constantI S_ 32 0#32),
    StableHlo.unary main_c_3 main_v20 (broadcastInDim S24576 ![] bcast_S_S24576 : (⟨S_, .i32⟩ : BufTy).Contents (Elt F) → (⟨S24576, .i32⟩ : BufTy).Contents (Elt F)),
    StableHlo.binary main_v5 main_v20 main_v21 (cmpi .slt : (⟨S24576, .i32⟩ : BufTy).Contents (Elt F) → (⟨S24576, .i32⟩ : BufTy).Contents (Elt F) → (⟨S24576, .i1⟩ : BufTy).Contents (Elt F)),
    StableHlo.nullary main_c_4 (constantI S_ 32 24576#32),
    StableHlo.unary main_c_4 main_v22 (broadcastInDim S24576 ![] bcast_S_S24576 : (⟨S_, .i32⟩ : BufTy).Contents (Elt F) → (⟨S24576, .i32⟩ : BufTy).Contents (Elt F)),
    StableHlo.binary main_v5 main_v22 main_v23 (addi : (⟨S24576, .i32⟩ : BufTy).Contents (Elt F) → (⟨S24576, .i32⟩ : BufTy).Contents (Elt F) → (⟨S24576, .i32⟩ : BufTy).Contents (Elt F)),
    StableHlo.ternary main_v21 main_v23 main_v5 main_v24 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v24 main_v25 (broadcastInDim S24576x1 ![0] bcast_S24576_S24576x1_0 : (⟨S24576, .i32⟩ : BufTy).Contents (Elt F) → (⟨S24576x1, .i32⟩ : BufTy).Contents (Elt F)),
    StableHlo.binary main_v4 main_v25 main_v26 ((fun x i => Host.gather gather_S24576_S24576x1_S24576_n_0_n_n_0_1_1 x i) : (⟨S24576, .f32⟩ : BufTy).Contents (Elt F) → (⟨S24576x1, .i32⟩ : BufTy).Contents (Elt F) → (⟨S24576, .f32⟩ : BufTy).Contents (Elt F)),
    StableHlo.nullary main_c_5 (constantI S_ 32 1#32),
    StableHlo.unary main_c_5 main_v27 (broadcastInDim S24576 ![] bcast_S_S24576 : (⟨S_, .i32⟩ : BufTy).Contents (Elt F) → (⟨S24576, .i32⟩ : BufTy).Contents (Elt F)),
    StableHlo.nullary main_c_6 (constantI S_ 32 0#32),
    StableHlo.unary main_c_6 main_v28 (broadcastInDim S128 ![] bcast_S_S128 : (⟨S_, .i32⟩ : BufTy).Contents (Elt F) → (⟨S128, .i32⟩ : BufTy).Contents (Elt F)),
    StableHlo.unary main_v0 main_v29 (broadcastInDim S24576x1 ![0] bcast_S24576_S24576x1_0 : (⟨S24576, .i32⟩ : BufTy).Contents (Elt F) → (⟨S24576x1, .i32⟩ : BufTy).Contents (Elt F)),
    StableHlo.ternary main_v28 main_v29 main_v27 main_v30 ((fun x i u => Host.scatter scatter_S128_S24576x1_S24576_n_0_0_1 IntOp.addi x i u) : (⟨S128, .i32⟩ : BufTy).Contents (Elt F) → (⟨S24576x1, .i32⟩ : BufTy).Contents (Elt F) → (⟨S24576, .i32⟩ : BufTy).Contents (Elt F) → (⟨S128, .i32⟩ : BufTy).Contents (Elt F)) ]
theorem a2_sub : (a2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., ternary_bufs_sub ..⟩
theorem a2_fresh : (a2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The running total's three operations. -/
abbrev a3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v30 : StableHlo.TRef sig ⟨S128, .i32⟩) (.of main_call1_call0_v0 : StableHlo.TRef sig ⟨S_, .i32⟩) (.of main_v31 : StableHlo.TRef sig ⟨S128, .i32⟩) (fun x v => Host.reduceWindow IntOp.addi ![128] ![1] ![127] ![0] x v reduceWindows_S128_S128_w128s1p127_0 h_S_) ]
theorem a3_sub : (a3 : List (HloOp τ sig (Elt F))).Forall fun op => op.bufs ⊆ tcRefs τ sig :=
  ⟨nullary_bufs_sub .., unary_bufs_sub .., binary_bufs_sub ..⟩
theorem a3_fresh : (a3 : List (HloOp τ sig (Elt F))).Forall fun op => op.fresh = ∅ :=
  ⟨rfl, rfl, rfl⟩

/-- The starts, each sorted pair's rank, the capacity test and the slot row. -/
abbrev a4 : List (HloOp τ sig (Elt F)) :=
  [ StableHlo.binary main_v31 main_v30 main_v32 (subi : (⟨S128, .i32⟩ : BufTy).Contents (Elt F) → (⟨S128, .i32⟩ : BufTy).Contents (Elt F) → (⟨S128, .i32⟩ : BufTy).Contents (Elt F)),
    StableHlo.nullary main_v33 (iotaInDim S24576 32 0),
    StableHlo.nullary main_c_7 (constantI S_ 32 0#32),
    StableHlo.unary main_c_7 main_v34 (broadcastInDim S24576 ![] bcast_S_S24576 : (⟨S_, .i32⟩ : BufTy).Contents (Elt F) → (⟨S24576, .i32⟩ : BufTy).Contents (Elt F)),
    StableHlo.binary main_v12 main_v34 main_v35 (cmpi .slt : (⟨S24576, .i32⟩ : BufTy).Contents (Elt F) → (⟨S24576, .i32⟩ : BufTy).Contents (Elt F) → (⟨S24576, .i1⟩ : BufTy).Contents (Elt F)),
    StableHlo.nullary main_c_8 (constantI S_ 32 128#32),
    StableHlo.unary main_c_8 main_v36 (broadcastInDim S24576 ![] bcast_S_S24576 : (⟨S_, .i32⟩ : BufTy).Contents (Elt F) → (⟨S24576, .i32⟩ : BufTy).Contents (Elt F)),
    StableHlo.binary main_v12 main_v36 main_v37 (addi : (⟨S24576, .i32⟩ : BufTy).Contents (Elt F) → (⟨S24576, .i32⟩ : BufTy).Contents (Elt F) → (⟨S24576, .i32⟩ : BufTy).Contents (Elt F)),
    StableHlo.ternary main_v35 main_v37 main_v12 main_v38 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v38 main_v39 (broadcastInDim S24576x1 ![0] bcast_S24576_S24576x1_0 : (⟨S24576, .i32⟩ : BufTy).Contents (Elt F) → (⟨S24576x1, .i32⟩ : BufTy).Contents (Elt F)),
    StableHlo.binary main_v32 main_v39 main_v40 ((fun x i => Host.gather gather_S128_S24576x1_S24576_n_0_n_n_0_1_1 x i) : (⟨S128, .i32⟩ : BufTy).Contents (Elt F) → (⟨S24576x1, .i32⟩ : BufTy).Contents (Elt F) → (⟨S24576, .i32⟩ : BufTy).Contents (Elt F)),
    StableHlo.binary main_v33 main_v40 main_v41 (subi : (⟨S24576, .i32⟩ : BufTy).Contents (Elt F) → (⟨S24576, .i32⟩ : BufTy).Contents (Elt F) → (⟨S24576, .i32⟩ : BufTy).Contents (Elt F)),
    StableHlo.nullary main_c_9 (constantI S_ 32 320#32),
    StableHlo.unary main_c_9 main_v42 (broadcastInDim S24576 ![] bcast_S_S24576 : (⟨S_, .i32⟩ : BufTy).Contents (Elt F) → (⟨S24576, .i32⟩ : BufTy).Contents (Elt F)),
    StableHlo.binary main_v41 main_v42 main_v43 (cmpi .slt : (⟨S24576, .i32⟩ : BufTy).Contents (Elt F) → (⟨S24576, .i32⟩ : BufTy).Contents (Elt F) → (⟨S24576, .i1⟩ : BufTy).Contents (Elt F)),
    StableHlo.nullary main_c_10 (constantI S_ 32 320#32),
    StableHlo.unary main_c_10 main_v44 (broadcastInDim S24576 ![] bcast_S_S24576 : (⟨S_, .i32⟩ : BufTy).Contents (Elt F) → (⟨S24576, .i32⟩ : BufTy).Contents (Elt F)),
    StableHlo.binary main_v12 main_v44 main_v45 (muli : (⟨S24576, .i32⟩ : BufTy).Contents (Elt F) → (⟨S24576, .i32⟩ : BufTy).Contents (Elt F) → (⟨S24576, .i32⟩ : BufTy).Contents (Elt F)),
    StableHlo.binary main_v45 main_v41 main_v46 (addi : (⟨S24576, .i32⟩ : BufTy).Contents (Elt F) → (⟨S24576, .i32⟩ : BufTy).Contents (Elt F) → (⟨S24576, .i32⟩ : BufTy).Contents (Elt F)),
    StableHlo.nullary main_c_11 (constantI S_ 32 40960#32) ]
theorem a4_sub : (a4 : List (HloOp τ sig (Elt F))).Forall fun op => op.bufs ⊆ tcRefs τ sig :=
  ⟨binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub ..⟩
theorem a4_fresh : (a4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The slot or the spare row: the first `where`. -/
abbrev b0 : List (HloOp τ sig (Elt F)) :=
  [ StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S24576, .i32⟩) (broadcastInDim S24576 ![] bcast_S_S24576),
    StableHlo.TRef.ternary (.of main_v43 : StableHlo.TRef sig ⟨S24576, .i1⟩) (.of main_v46 : StableHlo.TRef sig ⟨S24576, .i32⟩) (.of main_call2_v1 : StableHlo.TRef sig ⟨S24576, .i32⟩) (.of main_v47 : StableHlo.TRef sig ⟨S24576, .i32⟩) select ]
theorem b0_sub : (b0 : List (HloOp τ sig (Elt F))).Forall fun op => op.bufs ⊆ tcRefs τ sig :=
  ⟨unary_bufs_sub .., unary_bufs_sub .., ternary_bufs_sub ..⟩
theorem b0_fresh : (b0 : List (HloOp τ sig (Elt F))).Forall fun op => op.fresh = ∅ :=
  ⟨rfl, rfl, rfl⟩

/-- Dispatch into the slot table, its first 40960 rows as the experts' inputs, the joined product and its two halves. -/
abbrev b1 : List (HloOp τ sig (Elt F)) :=
  [ StableHlo.nullary main_cst (constant S_ .f32 0x00000000#32),
    StableHlo.unary main_cst main_v48 (broadcastInDim S40961x512 ![] bcast_S_S40961x512 : (⟨S_, .f32⟩ : BufTy).Contents (Elt F) → (⟨S40961x512, .f32⟩ : BufTy).Contents (Elt F)),
    StableHlo.nullary main_c_12 (constantI S_ 32 0#32),
    StableHlo.unary main_c_12 main_v49 (broadcastInDim S24576 ![] bcast_S_S24576 : (⟨S_, .i32⟩ : BufTy).Contents (Elt F) → (⟨S24576, .i32⟩ : BufTy).Contents (Elt F)),
    StableHlo.binary main_v19 main_v49 main_v50 (cmpi .slt : (⟨S24576, .i32⟩ : BufTy).Contents (Elt F) → (⟨S24576, .i32⟩ : BufTy).Contents (Elt F) → (⟨S24576, .i1⟩ : BufTy).Contents (Elt F)),
    StableHlo.nullary main_c_13 (constantI S_ 32 4096#32),
    StableHlo.unary main_c_13 main_v51 (broadcastInDim S24576 ![] bcast_S_S24576 : (⟨S_, .i32⟩ : BufTy).Contents (Elt F) → (⟨S24576, .i32⟩ : BufTy).Contents (Elt F)),
    StableHlo.binary main_v19 main_v51 main_v52 (addi : (⟨S24576, .i32⟩ : BufTy).Contents (Elt F) → (⟨S24576, .i32⟩ : BufTy).Contents (Elt F) → (⟨S24576, .i32⟩ : BufTy).Contents (Elt F)),
    StableHlo.ternary main_v50 main_v52 main_v19 main_v53 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v53 main_v54 (broadcastInDim S24576x1 ![0] bcast_S24576_S24576x1_0 : (⟨S24576, .i32⟩ : BufTy).Contents (Elt F) → (⟨S24576x1, .i32⟩ : BufTy).Contents (Elt F)),
    StableHlo.binary main_arg0 main_v54 main_v55 ((fun x i => Host.gather gather_S4096x512_S24576x1_S24576x512_1_0_n_n_0_1_1512 x i) : (⟨S4096x512, .f32⟩ : BufTy).Contents (Elt F) → (⟨S24576x1, .i32⟩ : BufTy).Contents (Elt F) → (⟨S24576x512, .f32⟩ : BufTy).Contents (Elt F)),
    StableHlo.nullary main_c_14 (constantI S_ 32 0#32),
    StableHlo.unary main_c_14 main_v56 (broadcastInDim S24576 ![] bcast_S_S24576 : (⟨S_, .i32⟩ : BufTy).Contents (Elt F) → (⟨S24576, .i32⟩ : BufTy).Contents (Elt F)),
    StableHlo.binary main_v47 main_v56 main_v57 (cmpi .slt : (⟨S24576, .i32⟩ : BufTy).Contents (Elt F) → (⟨S24576, .i32⟩ : BufTy).Contents (Elt F) → (⟨S24576, .i1⟩ : BufTy).Contents (Elt F)),
    StableHlo.nullary main_c_15 (constantI S_ 32 40961#32),
    StableHlo.unary main_c_15 main_v58 (broadcastInDim S24576 ![] bcast_S_S24576 : (⟨S_, .i32⟩ : BufTy).Contents (Elt F) → (⟨S24576, .i32⟩ : BufTy).Contents (Elt F)),
    StableHlo.binary main_v47 main_v58 main_v59 (addi : (⟨S24576, .i32⟩ : BufTy).Contents (Elt F) → (⟨S24576, .i32⟩ : BufTy).Contents (Elt F) → (⟨S24576, .i32⟩ : BufTy).Contents (Elt F)),
    StableHlo.ternary main_v57 main_v59 main_v47 main_v60 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v60 main_v61 (broadcastInDim S24576x1 ![0] bcast_S24576_S24576x1_0 : (⟨S24576, .i32⟩ : BufTy).Contents (Elt F) → (⟨S24576x1, .i32⟩ : BufTy).Contents (Elt F)),
    StableHlo.ternary main_v48 main_v61 main_v55 main_v62 ((fun x i u => Host.scatter scatter_S40961x512_S24576x1_S24576x512_1_0_0_1 (fun _ b => b) x i u) : (⟨S40961x512, .f32⟩ : BufTy).Contents (Elt F) → (⟨S24576x1, .i32⟩ : BufTy).Contents (Elt F) → (⟨S24576x512, .f32⟩ : BufTy).Contents (Elt F) → (⟨S40961x512, .f32⟩ : BufTy).Contents (Elt F)),
    StableHlo.unary main_v62 main_v63 ((extractStridedSlice S40960x512 ![0, 0] · slices_S40961x512_S40960x512_0_0) : (⟨S40961x512, .f32⟩ : BufTy).Contents (Elt F) → (⟨S40960x512, .f32⟩ : BufTy).Contents (Elt F)),
    StableHlo.reshape main_v63 main_v64 rfl shapeCasts_S40960x512_S128x320x512,
    StableHlo.binary main_v64 main_arg3 main_v65 ((fun l r => Host.dotGeneral dot_S128x320x512_S128x512x3712_S128x320x3712_2_1_1_2_0_0 none l r) : (⟨S128x320x512, .f32⟩ : BufTy).Contents (Elt F) → (⟨S128x512x3712, .f32⟩ : BufTy).Contents (Elt F) → (⟨S128x320x3712, .f32⟩ : BufTy).Contents (Elt F)),
    StableHlo.unary main_v65 main_v66 ((extractStridedSlice S128x320x1856 ![0, 0, 0] · slices_S128x320x3712_S128x320x1856_0_0_0) : (⟨S128x320x3712, .f32⟩ : BufTy).Contents (Elt F) → (⟨S128x320x1856, .f32⟩ : BufTy).Contents (Elt F)),
    StableHlo.unary main_v65 main_v67 ((extractStridedSlice S128x320x1856 ![0, 0, 1856] · slices_S128x320x3712_S128x320x1856_0_0_1856) : (⟨S128x320x3712, .f32⟩ : BufTy).Contents (Elt F) → (⟨S128x320x1856, .f32⟩ : BufTy).Contents (Elt F)) ]
theorem b1_sub : (b1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., unary_bufs_sub .., unary_bufs_sub ..⟩
theorem b1_fresh : (b1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- silu of the gate half. -/
abbrev b2 : List (HloOp τ sig (Elt F)) :=
  [ StableHlo.TRef.unary (.of main_v66 : StableHlo.TRef sig ⟨S128x320x1856, .f32⟩) (.of main_call3_v0 : StableHlo.TRef sig ⟨S128x320x1856, .f32⟩) Host.negf,
    StableHlo.TRef.unary (.of main_call3_v0 : StableHlo.TRef sig ⟨S128x320x1856, .f32⟩) (.of main_call3_v1 : StableHlo.TRef sig ⟨S128x320x1856, .f32⟩) Host.exp,
    StableHlo.TRef.nullary (.of main_call3_cst : StableHlo.TRef sig ⟨S_, .f32⟩) (constant S_ .f32 0x3F800000#32),
    StableHlo.TRef.unary (.of main_call3_cst : StableHlo.TRef sig ⟨S_, .f32⟩) (.of main_call3_v2 : StableHlo.TRef sig ⟨S128x320x1856, .f32⟩) (broadcastInDim S128x320x1856 ![] bcast_S_S128x320x1856),
    StableHlo.TRef.binary (.of main_call3_v2 : StableHlo.TRef sig ⟨S128x320x1856, .f32⟩) (.of main_call3_v1 : StableHlo.TRef sig ⟨S128x320x1856, .f32⟩) (.of main_call3_v3 : StableHlo.TRef sig ⟨S128x320x1856, .f32⟩) addf,
    StableHlo.TRef.nullary (.of main_call3_cst_0 : StableHlo.TRef sig ⟨S_, .f32⟩) (constant S_ .f32 0x3F800000#32),
    StableHlo.TRef.unary (.of main_call3_cst_0 : StableHlo.TRef sig ⟨S_, .f32⟩) (.of main_call3_v4 : StableHlo.TRef sig ⟨S128x320x1856, .f32⟩) (broadcastInDim S128x320x1856 ![] bcast_S_S128x320x1856),
    StableHlo.TRef.binary (.of main_call3_v4 : StableHlo.TRef sig ⟨S128x320x1856, .f32⟩) (.of main_call3_v3 : StableHlo.TRef sig ⟨S128x320x1856, .f32⟩) (.of main_call3_v5 : StableHlo.TRef sig ⟨S128x320x1856, .f32⟩) Host.divf,
    StableHlo.TRef.binary (.of main_v66 : StableHlo.TRef sig ⟨S128x320x1856, .f32⟩) (.of main_call3_v5 : StableHlo.TRef sig ⟨S128x320x1856, .f32⟩) (.of main_v68 : StableHlo.TRef sig ⟨S128x320x1856, .f32⟩) mulf ]
theorem b2_sub : (b2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem b2_fresh : (b2 : List (HloOp τ sig (Elt F))).Forall fun op => op.fresh = ∅ :=
  ⟨rfl, rfl, rfl, rfl, rfl, rfl, rfl, rfl, rfl⟩

/-- The activation, the down product, its rows, and the row index before the second `where`. -/
abbrev b3 : List (HloOp τ sig (Elt F)) :=
  [ StableHlo.binary main_v68 main_v67 main_v69 (mulf : (⟨S128x320x1856, .f32⟩ : BufTy).Contents (Elt F) → (⟨S128x320x1856, .f32⟩ : BufTy).Contents (Elt F) → (⟨S128x320x1856, .f32⟩ : BufTy).Contents (Elt F)),
    StableHlo.binary main_v69 main_arg4 main_v70 ((fun l r => Host.dotGeneral dot_S128x320x1856_S128x1856x512_S128x320x512_2_1_1_2_0_0 none l r) : (⟨S128x320x1856, .f32⟩ : BufTy).Contents (Elt F) → (⟨S128x1856x512, .f32⟩ : BufTy).Contents (Elt F) → (⟨S128x320x512, .f32⟩ : BufTy).Contents (Elt F)),
    StableHlo.reshape main_v70 main_v71 rfl shapeCasts_S128x320x512_S40960x512,
    StableHlo.nullary main_c_16 (constantI S_ 32 320#32),
    StableHlo.unary main_c_16 main_v72 (broadcastInDim S24576 ![] bcast_S_S24576 : (⟨S_, .i32⟩ : BufTy).Contents (Elt F) → (⟨S24576, .i32⟩ : BufTy).Contents (Elt F)),
    StableHlo.binary main_v12 main_v72 main_v73 (muli : (⟨S24576, .i32⟩ : BufTy).Contents (Elt F) → (⟨S24576, .i32⟩ : BufTy).Contents (Elt F) → (⟨S24576, .i32⟩ : BufTy).Contents (Elt F)),
    StableHlo.binary main_v73 main_v41 main_v74 (addi : (⟨S24576, .i32⟩ : BufTy).Contents (Elt F) → (⟨S24576, .i32⟩ : BufTy).Contents (Elt F) → (⟨S24576, .i32⟩ : BufTy).Contents (Elt F)),
    StableHlo.nullary main_c_17 (constantI S_ 32 0#32) ]
theorem b3_sub : (b3 : List (HloOp τ sig (Elt F))).Forall fun op => op.bufs ⊆ tcRefs τ sig :=
  ⟨binary_bufs_sub .., binary_bufs_sub .., reshape_bufs_sub .., nullary_bufs_sub .., unary_bufs_sub .., binary_bufs_sub .., binary_bufs_sub .., nullary_bufs_sub ..⟩
theorem b3_fresh : (b3 : List (HloOp τ sig (Elt F))).Forall fun op => op.fresh = ∅ :=
  ⟨rfl, rfl, rfl, rfl, rfl, rfl, rfl, rfl⟩

/-- The slot or row 0: the second `where`. -/
abbrev b4 : List (HloOp τ sig (Elt F)) :=
  [ StableHlo.TRef.unary (.of main_c_17 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S24576, .i32⟩) (broadcastInDim S24576 ![] bcast_S_S24576),
    StableHlo.TRef.ternary (.of main_v43 : StableHlo.TRef sig ⟨S24576, .i1⟩) (.of main_v74 : StableHlo.TRef sig ⟨S24576, .i32⟩) (.of main_call4_v1 : StableHlo.TRef sig ⟨S24576, .i32⟩) (.of main_v75 : StableHlo.TRef sig ⟨S24576, .i32⟩) select ]
theorem b4_sub : (b4 : List (HloOp τ sig (Elt F))).Forall fun op => op.bufs ⊆ tcRefs τ sig :=
  ⟨unary_bufs_sub .., unary_bufs_sub .., ternary_bufs_sub ..⟩
theorem b4_fresh : (b4 : List (HloOp τ sig (Elt F))).Forall fun op => op.fresh = ∅ :=
  ⟨rfl, rfl, rfl⟩

/-- The normalised row index and the rows read. -/
abbrev b5 : List (HloOp τ sig (Elt F)) :=
  [ StableHlo.nullary main_c_18 (constantI S_ 32 0#32),
    StableHlo.unary main_c_18 main_v76 (broadcastInDim S24576 ![] bcast_S_S24576 : (⟨S_, .i32⟩ : BufTy).Contents (Elt F) → (⟨S24576, .i32⟩ : BufTy).Contents (Elt F)),
    StableHlo.binary main_v75 main_v76 main_v77 (cmpi .slt : (⟨S24576, .i32⟩ : BufTy).Contents (Elt F) → (⟨S24576, .i32⟩ : BufTy).Contents (Elt F) → (⟨S24576, .i1⟩ : BufTy).Contents (Elt F)),
    StableHlo.nullary main_c_19 (constantI S_ 32 40960#32),
    StableHlo.unary main_c_19 main_v78 (broadcastInDim S24576 ![] bcast_S_S24576 : (⟨S_, .i32⟩ : BufTy).Contents (Elt F) → (⟨S24576, .i32⟩ : BufTy).Contents (Elt F)),
    StableHlo.binary main_v75 main_v78 main_v79 (addi : (⟨S24576, .i32⟩ : BufTy).Contents (Elt F) → (⟨S24576, .i32⟩ : BufTy).Contents (Elt F) → (⟨S24576, .i32⟩ : BufTy).Contents (Elt F)),
    StableHlo.ternary main_v77 main_v79 main_v75 main_v80 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v80 main_v81 (broadcastInDim S24576x1 ![0] bcast_S24576_S24576x1_0 : (⟨S24576, .i32⟩ : BufTy).Contents (Elt F) → (⟨S24576x1, .i32⟩ : BufTy).Contents (Elt F)),
    StableHlo.binary main_v71 main_v81 main_v82 ((fun x i => Host.gather gather_S40960x512_S24576x1_S24576x512_1_0_n_n_0_1_1512 x i) : (⟨S40960x512, .f32⟩ : BufTy).Contents (Elt F) → (⟨S24576x1, .i32⟩ : BufTy).Contents (Elt F) → (⟨S24576x512, .f32⟩ : BufTy).Contents (Elt F)),
    StableHlo.nullary main_cst_20 (constant S_ .f32 0x00000000#32) ]
theorem b5_sub : (b5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub ..⟩
theorem b5_fresh : (b5 : List (HloOp τ sig (Elt F))).Forall fun op => op.fresh = ∅ :=
  ⟨rfl, rfl, rfl, rfl, rfl, rfl, rfl, rfl, rfl, rfl⟩

/-- The weight or zero: the third `where`. -/
abbrev b6 : List (HloOp τ sig (Elt F)) :=
  [ StableHlo.TRef.unary (.of main_cst_20 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S24576, .f32⟩) (broadcastInDim S24576 ![] bcast_S_S24576),
    StableHlo.TRef.ternary (.of main_v43 : StableHlo.TRef sig ⟨S24576, .i1⟩) (.of main_v26 : StableHlo.TRef sig ⟨S24576, .f32⟩) (.of main_call5_v1 : StableHlo.TRef sig ⟨S24576, .f32⟩) (.of main_v83 : StableHlo.TRef sig ⟨S24576, .f32⟩) select ]
theorem b6_sub : (b6 : List (HloOp τ sig (Elt F))).Forall fun op => op.bufs ⊆ tcRefs τ sig :=
  ⟨unary_bufs_sub .., unary_bufs_sub .., ternary_bufs_sub ..⟩
theorem b6_fresh : (b6 : List (HloOp τ sig (Elt F))).Forall fun op => op.fresh = ∅ :=
  ⟨rfl, rfl, rfl⟩

/-- The weighted rows, the zero result and the normalised token column. -/
abbrev b7 : List (HloOp τ sig (Elt F)) :=
  [ StableHlo.unary main_v83 main_v84 (broadcastInDim S24576x1 ![0] bcast_S24576_S24576x1_0 : (⟨S24576, .f32⟩ : BufTy).Contents (Elt F) → (⟨S24576x1, .f32⟩ : BufTy).Contents (Elt F)),
    StableHlo.unary main_v84 main_v85 (broadcastInDim S24576x512 ![0, 1] bcast_S24576x1_S24576x512_0_1 : (⟨S24576x1, .f32⟩ : BufTy).Contents (Elt F) → (⟨S24576x512, .f32⟩ : BufTy).Contents (Elt F)),
    StableHlo.binary main_v82 main_v85 main_v86 (mulf : (⟨S24576x512, .f32⟩ : BufTy).Contents (Elt F) → (⟨S24576x512, .f32⟩ : BufTy).Contents (Elt F) → (⟨S24576x512, .f32⟩ : BufTy).Contents (Elt F)),
    StableHlo.nullary main_cst_21 (constant S_ .f32 0x00000000#32),
    StableHlo.unary main_cst_21 main_v87 (broadcastInDim S4096x512 ![] bcast_S_S4096x512 : (⟨S_, .f32⟩ : BufTy).Contents (Elt F) → (⟨S4096x512, .f32⟩ : BufTy).Contents (Elt F)),
    StableHlo.nullary main_c_22 (constantI S_ 32 0#32),
    StableHlo.unary main_c_22 main_v88 (broadcastInDim S24576 ![] bcast_S_S24576 : (⟨S_, .i32⟩ : BufTy).Contents (Elt F) → (⟨S24576, .i32⟩ : BufTy).Contents (Elt F)),
    StableHlo.binary main_v19 main_v88 main_v89 (cmpi .slt : (⟨S24576, .i32⟩ : BufTy).Contents (Elt F) → (⟨S24576, .i32⟩ : BufTy).Contents (Elt F) → (⟨S24576, .i1⟩ : BufTy).Contents (Elt F)),
    StableHlo.nullary main_c_23 (constantI S_ 32 4096#32),
    StableHlo.unary main_c_23 main_v90 (broadcastInDim S24576 ![] bcast_S_S24576 : (⟨S_, .i32⟩ : BufTy).Contents (Elt F) → (⟨S24576, .i32⟩ : BufTy).Contents (Elt F)),
    StableHlo.binary main_v19 main_v90 main_v91 (addi : (⟨S24576, .i32⟩ : BufTy).Contents (Elt F) → (⟨S24576, .i32⟩ : BufTy).Contents (Elt F) → (⟨S24576, .i32⟩ : BufTy).Contents (Elt F)),
    StableHlo.ternary main_v89 main_v91 main_v19 main_v92 (select : (⟨S24576, .i1⟩ : BufTy).Contents (Elt F) → (⟨S24576, .i32⟩ : BufTy).Contents (Elt F) → (⟨S24576, .i32⟩ : BufTy).Contents (Elt F) → (⟨S24576, .i32⟩ : BufTy).Contents (Elt F)),
    StableHlo.unary main_v92 main_v93 (broadcastInDim S24576x1 ![0] bcast_S24576_S24576x1_0 : (⟨S24576, .i32⟩ : BufTy).Contents (Elt F) → (⟨S24576x1, .i32⟩ : BufTy).Contents (Elt F)) ]
theorem b7_sub : (b7 : List (HloOp τ sig (Elt F))).Forall fun op => op.bufs ⊆ tcRefs τ sig :=
  ⟨unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub ..⟩
theorem b7_fresh : (b7 : List (HloOp τ sig (Elt F))).Forall fun op => op.fresh = ∅ :=
  ⟨rfl, rfl, rfl, rfl, rfl, rfl, rfl, rfl, rfl, rfl, rfl, rfl, rfl⟩

/-- The last statement: the weighted rows added onto their tokens' rows. -/
abbrev c0 : List (HloOp τ sig (Elt F)) :=
  [ StableHlo.ternary main_v87 main_v93 main_v86 main_v94 ((fun x i u => Host.scatterAdd scatter_S4096x512_S24576x1_S24576x512_1_0_0_1 x i u) : (⟨S4096x512, .f32⟩ : BufTy).Contents (Elt F) → (⟨S24576x1, .i32⟩ : BufTy).Contents (Elt F) → (⟨S24576x512, .f32⟩ : BufTy).Contents (Elt F) → (⟨S4096x512, .f32⟩ : BufTy).Contents (Elt F)) ]
theorem c0_sub : (c0 : List (HloOp τ sig (Elt F))).Forall fun op => op.bufs ⊆ tcRefs τ sig :=
  ternary_bufs_sub ..
theorem c0_fresh : (c0 : List (HloOp τ sig (Elt F))).Forall fun op => op.fresh = ∅ :=
  rfl

/-! ## @main is the line of those operations -/

/-- The operations of statements 1 … 60. -/
abbrev ops0 : List (HloOp τ sig (Elt F)) := a0 ++ (a1 ++ (a2 ++ (a3 ++ a4)))
/-- The operations of statements 61 … 120. -/
abbrev ops1 : List (HloOp τ sig (Elt F)) := b0 ++ (b1 ++ (b2 ++ (b3 ++ (b4 ++ (b5 ++ (b6 ++ b7))))))
/-- All of @main's operations. -/
abbrev ops : List (HloOp τ sig (Elt F)) := ops0 ++ (ops1 ++ c0)

theorem part0_chain (c : Dev nD) : main_part0 (F := F) c = (Pipeline.chainK [seq a0, seq a1, seq a2, seq a3] (seq a4) :
    Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK [seq b0, seq b1, seq b2, seq b3, seq b4, seq b5, seq b6] (seq b7) :
    Prog (TpuEff nD τ sig (Elt F) (Pipeline.Sig Λ₀ (Fin 0) fun p => (pcfgs (F := F) p).Adm) .tc) PUnit) := by
  chain_rfl

theorem part2_eq (c : Dev nD) : main_part2 (F := F) c = (seq c0 :
    Prog (TpuEff nD τ sig (Elt F) (Pipeline.Sig Λ₀ (Fin 0) fun p => (pcfgs (F := F) p).Adm) .tc) PUnit) := by
  chain_rfl

theorem part0_eq (c : Dev nD) : main_part0 (F := F) c = seq ops0 := by
  rw [part0_chain, seq_append, seq_append, seq_append, seq_append]
  rfl

theorem part1_eq (c : Dev nD) : main_part1 (F := F) c = seq ops1 := by
  rw [part1_chain, seq_append, seq_append, seq_append, seq_append, seq_append, seq_append, seq_append]
  rfl

theorem main_eq (c : Dev nD) : main (F := F) c = seq ops := by
  show (main_part0 (F := F) c >>= fun _ => main_part1 (F := F) c >>= fun _ => main_part2 (F := F) c) = _
  rw [part0_eq, part1_eq, part2_eq]
  exact ((seq_append ops0 (ops1 ++ c0)).trans (congrArg (fun k => seq ops0 >>= fun _ => k) (seq_append ops1 c0))).symm

theorem ops_sub : (ops : List (HloOp τ sig (Elt F))).Forall fun op => op.bufs ⊆ tcRefs τ sig :=
  List.forall_append.2 ⟨List.forall_append.2 ⟨a0_sub, List.forall_append.2 ⟨a1_sub, List.forall_append.2 ⟨a2_sub, List.forall_append.2 ⟨a3_sub, a4_sub⟩⟩⟩⟩,
    List.forall_append.2 ⟨List.forall_append.2 ⟨b0_sub, List.forall_append.2 ⟨b1_sub, List.forall_append.2 ⟨b2_sub, List.forall_append.2 ⟨b3_sub,
      List.forall_append.2 ⟨b4_sub, List.forall_append.2 ⟨b5_sub, List.forall_append.2 ⟨b6_sub, b7_sub⟩⟩⟩⟩⟩⟩⟩, c0_sub⟩⟩

theorem ops_fresh : (ops : List (HloOp τ sig (Elt F))).Forall fun op => op.fresh = ∅ :=
  List.forall_append.2 ⟨List.forall_append.2 ⟨a0_fresh, List.forall_append.2 ⟨a1_fresh, List.forall_append.2 ⟨a2_fresh, List.forall_append.2 ⟨a3_fresh, a4_fresh⟩⟩⟩⟩,
    List.forall_append.2 ⟨List.forall_append.2 ⟨b0_fresh, List.forall_append.2 ⟨b1_fresh, List.forall_append.2 ⟨b2_fresh, List.forall_append.2 ⟨b3_fresh,
      List.forall_append.2 ⟨b4_fresh, List.forall_append.2 ⟨b5_fresh, List.forall_append.2 ⟨b6_fresh, b7_fresh⟩⟩⟩⟩⟩⟩⟩, c0_fresh⟩⟩

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-! ## The values

The fold of the operations at a buffer is the composed term of the operations that feed it. It is read in three
steps — after statements 1 … 60 the routing's integer vectors, after 61 … 120 the weighted rows, the zero result
and the token column, then the last scatter — each an equation between the same operations spelled two ways. -/

attribute [local irreducible] Host.gather Host.scatter Host.sort2 Host.reduceWindow Host.scatterAdd

set_option maxRecDepth 16384 in
set_option maxHeartbeats 4000000 in
/-- After statements 1 … 60: the sorted experts, tokens and weights, the ranks, the capacity test, the slot rows. -/
theorem stage0 (V : Valuation τ sig (Elt F)) :
    after ops0 V (main_v12 : DevRef τ sig) = Cert.Moe.eS (V (main_arg1 : DevRef τ sig))
    ∧ after ops0 V (main_v19 : DevRef τ sig) = Cert.Moe.tokS (V (main_arg1 : DevRef τ sig))
    ∧ after ops0 V (main_v26 : DevRef τ sig) = Cert.Moe.wS (V (main_arg1 : DevRef τ sig)) (V (main_arg2 : DevRef τ sig))
    ∧ after ops0 V (main_v41 : DevRef τ sig) = Cert.Moe.pos (V (main_arg1 : DevRef τ sig))
    ∧ after ops0 V (main_v43 : DevRef τ sig) = Cert.Moe.valid (V (main_arg1 : DevRef τ sig))
    ∧ after ops0 V (main_v46 : DevRef τ sig) = Cert.Moe.gRaw (V (main_arg1 : DevRef τ sig))
    ∧ after ops0 V (main_c_11 : DevRef τ sig) = constantI S_ 32 40960#32
    ∧ after ops0 V (main_arg0 : DevRef τ sig) = V (main_arg0 : DevRef τ sig)
    ∧ after ops0 V (main_arg3 : DevRef τ sig) = V (main_arg3 : DevRef τ sig)
    ∧ after ops0 V (main_arg4 : DevRef τ sig) = V (main_arg4 : DevRef τ sig) := by
  unfold ops0 a0 a1 a2 a3 a4
  simp only [List.cons_append, List.nil_append]
  refine ⟨?_, ?_, ?_, ?_, ?_, ?_, ?_, ?_, ?_, ?_⟩
  all_goals after_results_simp
  all_goals rfl

set_option maxRecDepth 16384 in
set_option maxHeartbeats 4000000 in
/-- After statements 61 … 120, from contents that hold the routing's vectors: the weighted rows, the zero result and
    the normalised token column. -/
theorem stage1 (W : Valuation τ sig (Elt F)) (x0 : FVec F Cert.Moe.S4096x512 .f32) (x1 : IVec Cert.Moe.S4096x6 32)
    (x2 : FVec F Cert.Moe.S4096x6 .f32) (x3 : FVec F Cert.Moe.S128x512x3712 .f32) (x4 : FVec F Cert.Moe.S128x1856x512 .f32)
    (h12 : W (main_v12 : DevRef τ sig) = Cert.Moe.eS x1) (h19 : W (main_v19 : DevRef τ sig) = Cert.Moe.tokS x1)
    (h26 : W (main_v26 : DevRef τ sig) = Cert.Moe.wS x1 x2) (h41 : W (main_v41 : DevRef τ sig) = Cert.Moe.pos x1)
    (h43 : W (main_v43 : DevRef τ sig) = Cert.Moe.valid x1) (h46 : W (main_v46 : DevRef τ sig) = Cert.Moe.gRaw x1)
    (hc : W (main_c_11 : DevRef τ sig) = constantI S_ 32 40960#32)
    (h0 : W (main_arg0 : DevRef τ sig) = x0) (h3 : W (main_arg3 : DevRef τ sig) = x3) (h4 : W (main_arg4 : DevRef τ sig) = x4) :
    after ops1 W (main_v86 : DevRef τ sig)
        = mulf (Cert.Moe.rowsR (Cert.Moe.refFFN (Cert.Moe.dispatch (constant S_ .f32 0x00000000#32) x0 x1) x3 x4) x1)
            (broadcastInDim S24576x512 ![0, 1] Cert.Moe.bc_rows
              (broadcastInDim S24576x1 ![0] Cert.Moe.bc_col
                (select (Cert.Moe.valid x1) (Cert.Moe.wS x1 x2)
                  (broadcastInDim S24576 ![] Cert.Moe.bc_vec (constant S_ .f32 0x00000000#32)))))
    ∧ after ops1 W (main_v87 : DevRef τ sig) = broadcastInDim S4096x512 ![] Cert.Moe.bc_out (constant S_ .f32 0x00000000#32)
    ∧ after ops1 W (main_v93 : DevRef τ sig) = Cert.Moe.norm 4096#32 (Cert.Moe.tokS x1) := by
  unfold ops1 b0 b1 b2 b3 b4 b5 b6 b7
  simp only [List.cons_append, List.nil_append]
  refine ⟨?_, ?_, ?_⟩
  all_goals after_results_simp
  all_goals simp only [h12, h19, h26, h41, h43, h46, hc, h0, h3, h4]
  all_goals rfl

set_option maxRecDepth 16384 in
/-- The result buffer after the whole line is the reference's result of the arguments. -/
theorem value (V : Valuation τ sig (Elt F)) :
    after ops V (main_v94 : DevRef τ sig)
      = Cert.Moe.refOut (V (main_arg0 : DevRef τ sig)) (V (main_arg1 : DevRef τ sig)) (V (main_arg2 : DevRef τ sig)) (V (main_arg3 : DevRef τ sig)) (V (main_arg4 : DevRef τ sig)) := by
  unfold ops
  rw [after_append, after_append]
  obtain ⟨h12, h19, h26, h41, h43, h46, hc, h0, h3, h4⟩ := stage0 V
  obtain ⟨h86, h87, h93⟩ := stage1 (after ops0 V) _ _ _ _ _ h12 h19 h26 h41 h43 h46 hc h0 h3 h4
  generalize after ops1 (after ops0 V) = W at h86 h87 h93 ⊢
  unfold c0
  after_results_simp
  rw [h86, h87, h93]
  rfl

set_option maxRecDepth 16384 in
set_option maxHeartbeats 4000000 in
/-- No operation of the line writes an argument's buffer. -/
theorem args (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig) := by
  unfold ops ops0 ops1 a0 a1 a2 a3 a4 b0 b1 b2 b3 b4 b5 b6 b7 c0
  simp only [List.cons_append, List.nil_append]
  refine ⟨?_, ?_, ?_, ?_, ?_⟩
  all_goals after_results_simp

/-- On every device, from any memory with zero counters: every weakly fair execution of the reference's @main
    terminates with its result at `Cert.Moe.refOut` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94)
          = Cert.Moe.refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v94).trans (value (launchContents m c)),
        (h c main_arg0).trans (args (launchContents m c)).1,
        (h c main_arg1).trans (args (launchContents m c)).2.1,
        (h c main_arg2).trans (args (launchContents m c)).2.2.1,
        (h c main_arg3).trans (args (launchContents m c)).2.2.2.1,
        (h c main_arg4).trans (args (launchContents m c)).2.2.2.2⟩)
    (run_ops m ρ)

end Cert.ReferenceIdeal.RefRun

end
-- ==== Proof.KPayload.lean ====
import proofs.«141214_j59691455480110_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Idealize.ShloMosaic Cert.KernelIdeal Cert.KernelIdeal.Gen Idealize.ShloMosaic.ValueIdx

/-! ### The two contractions' operand indices, axis by axis -/

private theorem lhsA_0 (j : S320x1856.Idx) (k : dot_S320x512_S512x1856_S320x1856_1_0_0_1_n_n.contr.Idx) :
    (dot_S320x512_S512x1856_S320x1856_1_0_0_1_n_n.lhsIdx j k 0 : ℕ) = j 0 := by
  simp [DotDims.lhsIdx, dot_S320x512_S512x1856_S320x1856_1_0_0_1_n_n]; rfl
private theorem lhsA_1 (j : S320x1856.Idx) (k : dot_S320x512_S512x1856_S320x1856_1_0_0_1_n_n.contr.Idx) :
    (dot_S320x512_S512x1856_S320x1856_1_0_0_1_n_n.lhsIdx j k 1 : ℕ) = k ⟨0, by decide⟩ := by
  simp [DotDims.lhsIdx, dot_S320x512_S512x1856_S320x1856_1_0_0_1_n_n]; rfl
private theorem rhsA_0 (j : S320x1856.Idx) (k : dot_S320x512_S512x1856_S320x1856_1_0_0_1_n_n.contr.Idx) :
    (dot_S320x512_S512x1856_S320x1856_1_0_0_1_n_n.rhsIdx j k 0 : ℕ) = k ⟨0, by decide⟩ := by
  simp [DotDims.rhsIdx, dot_S320x512_S512x1856_S320x1856_1_0_0_1_n_n]; rfl
private theorem rhsA_1 (j : S320x1856.Idx) (k : dot_S320x512_S512x1856_S320x1856_1_0_0_1_n_n.contr.Idx) :
    (dot_S320x512_S512x1856_S320x1856_1_0_0_1_n_n.rhsIdx j k 1 : ℕ) = j 1 := by
  simp [DotDims.rhsIdx, dot_S320x512_S512x1856_S320x1856_1_0_0_1_n_n]; rfl

private theorem lhsB_0 (j : S320x512.Idx) (k : dot_S320x1856_S1856x512_S320x512_1_0_0_1_n_n.contr.Idx) :
    (dot_S320x1856_S1856x512_S320x512_1_0_0_1_n_n.lhsIdx j k 0 : ℕ) = j 0 := by
  simp [DotDims.lhsIdx, dot_S320x1856_S1856x512_S320x512_1_0_0_1_n_n]; rfl
private theorem lhsB_1 (j : S320x512.Idx) (k : dot_S320x1856_S1856x512_S320x512_1_0_0_1_n_n.contr.Idx) :
    (dot_S320x1856_S1856x512_S320x512_1_0_0_1_n_n.lhsIdx j k 1 : ℕ) = k ⟨0, by decide⟩ := by
  simp [DotDims.lhsIdx, dot_S320x1856_S1856x512_S320x512_1_0_0_1_n_n]; rfl
private theorem rhsB_0 (j : S320x512.Idx) (k : dot_S320x1856_S1856x512_S320x512_1_0_0_1_n_n.contr.Idx) :
    (dot_S320x1856_S1856x512_S320x512_1_0_0_1_n_n.rhsIdx j k 0 : ℕ) = k ⟨0, by decide⟩ := by
  simp [DotDims.rhsIdx, dot_S320x1856_S1856x512_S320x512_1_0_0_1_n_n]; rfl
private theorem rhsB_1 (j : S320x512.Idx) (k : dot_S320x1856_S1856x512_S320x512_1_0_0_1_n_n.contr.Idx) :
    (dot_S320x1856_S1856x512_S320x512_1_0_0_1_n_n.rhsIdx j k 1 : ℕ) = j 1 := by
  simp [DotDims.rhsIdx, dot_S320x1856_S1856x512_S320x512_1_0_0_1_n_n]; rfl

/-- The [320, 512] by [512, 1856] product into the zero accumulator, at entry (c, i): the sum over the 512
    contracted coordinates. -/
theorem mmA_apply (A : FVec Ideal S320x512 .bf16) (B : FVec Ideal S512x1856 .bf16) (c : Fin 320) (i : Fin 1856) :
    matmul (F := Ideal) dot_S320x512_S512x1856_S320x1856_1_0_0_1_n_n none A B
        (constant (F := Ideal) S320x1856 .f32 0x00000000#32) (ix2 c i)
      = ∑ q : Fin 512, A (ix2 c q) * B (ix2 q i) := by
  show FloatOps.matmul _ none A B _ (ix2 c i) = _
  rw [Ideal.matmul_constant_zero_apply,
    ← Equiv.sum_comp (contrEquiv1 dot_S320x512_S512x1856_S320x1856_1_0_0_1_n_n 512 rfl rfl).symm]
  refine Finset.sum_congr rfl fun q _ => ?_
  have hk := contrEquiv1_symm_val dot_S320x512_S512x1856_S320x1856_1_0_0_1_n_n 512 rfl rfl q
  have l2 : dot_S320x512_S512x1856_S320x1856_1_0_0_1_n_n.lhsIdx (ix2 c i)
      ((contrEquiv1 _ 512 rfl rfl).symm q) = ix2 c q := by
    funext ax; apply Fin.ext
    match ax with
    | ⟨0, _⟩ => exact lhsA_0 _ _
    | ⟨1, _⟩ => exact (lhsA_1 _ _).trans hk
  have r2 : dot_S320x512_S512x1856_S320x1856_1_0_0_1_n_n.rhsIdx (ix2 c i)
      ((contrEquiv1 _ 512 rfl rfl).symm q) = ix2 q i := by
    funext ax; apply Fin.ext
    match ax with
    | ⟨0, _⟩ => exact (rhsA_0 _ _).trans hk
    | ⟨1, _⟩ => exact rhsA_1 _ _
  rw [l2, r2]

/-- The [320, 1856] by [1856, 512] product into the zero accumulator, at entry (c, h): the sum over the 1856
    contracted coordinates. -/
theorem mmB_apply (A : FVec Ideal S320x1856 .bf16) (B : FVec Ideal S1856x512 .bf16) (c : Fin 320) (h : Fin 512) :
    matmul (F := Ideal) dot_S320x1856_S1856x512_S320x512_1_0_0_1_n_n none A B
        (constant (F := Ideal) S320x512 .f32 0x00000000#32) (ix2 c h)
      = ∑ q : Fin 1856, A (ix2 c q) * B (ix2 q h) := by
  show FloatOps.matmul _ none A B _ (ix2 c h) = _
  rw [Ideal.matmul_constant_zero_apply,
    ← Equiv.sum_comp (contrEquiv1 dot_S320x1856_S1856x512_S320x512_1_0_0_1_n_n 1856 rfl rfl).symm]
  refine Finset.sum_congr rfl fun q _ => ?_
  have hk := contrEquiv1_symm_val dot_S320x1856_S1856x512_S320x512_1_0_0_1_n_n 1856 rfl rfl q
  have l2 : dot_S320x1856_S1856x512_S320x512_1_0_0_1_n_n.lhsIdx (ix2 c h)
      ((contrEquiv1 _ 1856 rfl rfl).symm q) = ix2 c q := by
    funext ax; apply Fin.ext
    match ax with
    | ⟨0, _⟩ => exact lhsB_0 _ _
    | ⟨1, _⟩ => exact (lhsB_1 _ _).trans hk
  have r2 : dot_S320x1856_S1856x512_S320x512_1_0_0_1_n_n.rhsIdx (ix2 c h)
      ((contrEquiv1 _ 1856 rfl rfl).symm q) = ix2 q h := by
    funext ax; apply Fin.ext
    match ax with
    | ⟨0, _⟩ => exact (rhsB_0 _ _).trans hk
    | ⟨1, _⟩ => exact rhsB_1 _ _
  rw [l2, r2]

/-- The x block against one weight block, as the payload writes it (the unit axis dropped, the weights changed
    to the narrow format), at entry (c, i). -/
theorem proj_apply (v0 : Vec Ideal S1x320x512 .bf16) (w : Vec Ideal S1x512x1856 .f32)
    (h0 : S1x320x512.ShapeCasts S320x512) (h1 : S1x512x1856.ShapeCasts S512x1856)
    (hb : FTy.bits .bf16 < FTy.bits .f32) (c : Fin 320) (i : Fin 1856) :
    matmul (F := Ideal) dot_S320x512_S512x1856_S320x1856_1_0_0_1_n_n none
        (shapeCast S320x512 v0 h0 : FVec Ideal S320x512 .bf16)
        (truncf (F := Ideal) .bf16 (shapeCast S512x1856 w h1 : FVec Ideal S512x1856 .f32) hb)
        (constant (F := Ideal) S320x1856 .f32 0x00000000#32) (ix2 c i)
      = ∑ q : Fin 512, v0 (ix3 (0 : Fin 1) c q) * w (ix3 (0 : Fin 1) q i) := by
  refine (mmA_apply _ _ c i).trans (Finset.sum_congr rfl fun q _ => ?_)
  have e1 : (shapeCast S320x512 v0 h0 : FVec Ideal S320x512 .bf16) (ix2 c q) = v0 (ix3 (0 : Fin 1) c q) :=
    shapeCast_1ab_ab_apply v0 h0 c q
  have e2 : (truncf (F := Ideal) .bf16 (shapeCast S512x1856 w h1 : FVec Ideal S512x1856 .f32) hb) (ix2 q i) = w (ix3 (0 : Fin 1) q i) :=
    (truncf_apply _ hb _).trans (shapeCast_1ab_ab_apply w h1 q i)
  rw [e1, e2]

/-- The kernel body's one stored value, at Ideal, entry (0, c, h): with gate i and up i the sums over the 512
    hidden coordinates of the x block's row c against column i of the two weight blocks, the sum over the 1856
    coordinates i of gate i * logistic (gate i) * up i against row i of the down block. -/
theorem pay_apply (v0 : Vec Ideal S1x320x512 .bf16) (v2 v5 : Vec Ideal S1x512x1856 .f32) (v14 : Vec Ideal S1x1856x512 .f32)
    (c : Fin 320) (h : Fin 512) :
    k0_pay1 (F := Ideal) v0 v2 v5 v14 (ix3 (0 : Fin 1) c h)
      = ∑ i : Fin 1856,
          (((∑ h' : Fin 512, v0 (ix3 (0 : Fin 1) c h') * v2 (ix3 (0 : Fin 1) h' i))
              * Ideal.logistic (∑ h' : Fin 512, v0 (ix3 (0 : Fin 1) c h') * v2 (ix3 (0 : Fin 1) h' i)))
            * (∑ h' : Fin 512, v0 (ix3 (0 : Fin 1) c h') * v5 (ix3 (0 : Fin 1) h' i)))
          * v14 (ix3 (0 : Fin 1) i h) := by
  unfold k0_pay1
  refine (shapeCast_ab_1ab_apply _ _ (0 : Fin 1) c h).trans ?_
  refine (mmB_apply _ _ c h).trans (Finset.sum_congr rfl fun i _ => ?_)
  have eg := proj_apply v0 v2 shapeCasts_S1x320x512_S320x512 shapeCasts_S1x512x1856_S512x1856 bitsLt_bf16_f32 c i
  have eu := proj_apply v0 v5 shapeCasts_S1x320x512_S320x512 shapeCasts_S1x512x1856_S512x1856 bitsLt_bf16_f32 c i
  have ed : (truncf (F := Ideal) .bf16 (shapeCast S1856x512 v14 shapeCasts_S1x1856x512_S1856x512 : FVec Ideal S1856x512 .f32) bitsLt_bf16_f32) (ix2 i h)
      = v14 (ix3 (0 : Fin 1) i h) :=
    (truncf_apply _ bitsLt_bf16_f32 _).trans (shapeCast_1ab_ab_apply v14 shapeCasts_S1x1856x512_S1856x512 i h)
  rw [ed, ← eg, ← eu]
  rfl

end Cert.KernelIdeal.KValue

end
-- ==== Proof.KArray.lean ====
/-
  The output array of the experts' kernel call.  The call runs over 128 points, one per expert.  At point t each
  window's block is expert t's slice of its array: rows [t, 0..320, 0..512] of the inputs, [t, 0..512, 0..3712] of the
  joined gate and up weights, [t, 0..1856, 0..512] of the down weights, and [t, 0..320, 0..512] of the output.  The
  body reads the gate weights as columns 0..1856 and the up weights as columns 1856..3712 of the joined block, so what
  it leaves in the output block at (0, c, h) is the experts' network at (t, c, h).  The 128 output blocks cover the
  output array (row e of axis 0 lies in point e's block), hence the array ends as the network of the three arrays.
-/
import proofs.«141214_j59691455480110_1_alg».proof.Proof.Spec
import proofs.«141214_j59691455480110_1_alg».proof.Proof.KPayload
import proofs.«141214_j59691455480110_1_alg».proof.Proof.Gen.KernelIdeal.Frame
import Idealize.ShloMosaic.Lib.ValueIdx
import Idealize.ShloMosaic.Lib.Pipeline.Value

set_option maxRecDepth 16384

noncomputable section

namespace Cert.KernelIdeal.KValue

open Idealize.ShloMosaic Cert.KernelIdeal Cert.KernelIdeal.Gen Idealize.ShloMosaic.TcCoe Idealize.SL.Sem Idealize.ShloMosaic.ValueIdx

variable (m : (ℓ : Loc nD τ sig) → Buf (Elt Ideal) ℓ)

/-- The zero offsets of a rank-3 block. -/
private theorem zero3 : (![0, 0, 0] : Fin 3 → Nat) = fun _ => 0 := funext fun a => by fin_cases a <;> rfl

/-- At point t every window's block index is (t, 0, 0). -/
private theorem idx_facts : ∀ t : Fin cfg0.N,
      win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A point of the grid is an expert. -/
private theorem point_lt (t : Fin cfg0.N) : t.val < 128 := Nat.lt_of_lt_of_eq t.isLt N_0

/-! ## The two halves of the joined weight block -/

/-- The first half of the joined block's columns: entry (0, h, i) is the block's entry (0, h, i). -/
private theorem ld_gate (b1 : Vec Ideal S1x512x3712 .f32) (h : Fin 512) (i : Fin 1856) :
    View.ld b1 r0_1 (ix3 (0 : Fin 1) h i) = b1 (ix3 (0 : Fin 1) h (⟨i.val, by omega⟩ : Fin 3712)) := by
  show b1 _ = b1 _
  refine congrArg b1 (funext fun a => Fin.ext ?_)
  match a with
  | ⟨0, _⟩ => show 0 + 1 * 0 = 0; omega
  | ⟨1, _⟩ => show 0 + 1 * h.val = h.val; omega
  | ⟨2, _⟩ => show 0 + 1 * i.val = i.val; omega

/-- The second half: entry (0, h, i) is the block's entry (0, h, 1856 + i). -/
private theorem ld_up (b1 : Vec Ideal S1x512x3712 .f32) (h : Fin 512) (i : Fin 1856) :
    View.ld b1 r0_2 (ix3 (0 : Fin 1) h i) = b1 (ix3 (0 : Fin 1) h (⟨1856 + i.val, by omega⟩ : Fin 3712)) := by
  show b1 _ = b1 _
  refine congrArg b1 (funext fun a => Fin.ext ?_)
  match a with
  | ⟨0, _⟩ => show 0 + 1 * 0 = 0; omega
  | ⟨1, _⟩ => show 0 + 1 * h.val = h.val; omega
  | ⟨2, _⟩ => show 1856 + 1 * i.val = 1856 + i.val; omega

/-! ## The body's value on blocks that are an expert's slices -/

/-- If the four vectors the body computes with are expert e's rows of x, columns i and 1856 + i of its joined
    weights, and its down weights, the body's value at (0, c, h) is the network at (e, c, h). -/
private theorem pay_value (x : S128x320x512.Idx → EReal) (w3 : S128x512x3712.Idx → EReal) (w4 : S128x1856x512.Idx → EReal)
    (e : Fin 128)
    (b0 : Vec Ideal S1x320x512 .bf16) (v2 v5 : Vec Ideal S1x512x1856 .f32) (b2 : Vec Ideal S1x1856x512 .f32)
    (h0 : ∀ (c : Fin 320) (h : Fin 512), b0 (ix3 (0 : Fin 1) c h) = x (ix3 e c h))
    (hg : ∀ (h : Fin 512) (i : Fin 1856), v2 (ix3 (0 : Fin 1) h i) = w3 (ix3 e h (⟨i.val, by omega⟩ : Fin 3712)))
    (hu : ∀ (h : Fin 512) (i : Fin 1856), v5 (ix3 (0 : Fin 1) h i) = w3 (ix3 e h (⟨1856 + i.val, by omega⟩ : Fin 3712)))
    (h2 : ∀ (i : Fin 1856) (h : Fin 512), b2 (ix3 (0 : Fin 1) i h) = w4 (ix3 e i h))
    (c : Fin 320) (h : Fin 512) :
    k0_pay1 (F := Ideal) b0 v2 v5 b2 (ix3 (0 : Fin 1) c h) = Cert.Moe.ffn x w3 w4 (ix3 e c h) := by
  rw [pay_apply]
  have hG : ∀ i : Fin 1856, (∑ h' : Fin 512, b0 (ix3 (0 : Fin 1) c h') * v2 (ix3 (0 : Fin 1) h' i))
      = ∑ h' : Fin 512, x (ix3 e c h') * w3 (ix3 e h' (⟨i.val, by omega⟩ : Fin 3712)) :=
    fun i => Finset.sum_congr rfl fun h' _ => by rw [h0, hg]
  have hU : ∀ i : Fin 1856, (∑ h' : Fin 512, b0 (ix3 (0 : Fin 1) c h') * v5 (ix3 (0 : Fin 1) h' i))
      = ∑ h' : Fin 512, x (ix3 e c h') * w3 (ix3 e h' (⟨1856 + i.val, by omega⟩ : Fin 3712)) :=
    fun i => Finset.sum_congr rfl fun h' _ => by rw [h0, hu]
  show _ = ∑ i : Fin 1856, Cert.Moe.act x w3 e c i * w4 (ix3 e i h)
  refine Finset.sum_congr rfl fun i _ => ?_
  rw [hG i, hU i, h2 i h]
  rfl

/-- The same with the gate and up weights read as the two halves of the joined block. -/
private theorem block_value (x : S128x320x512.Idx → EReal) (w3 : S128x512x3712.Idx → EReal) (w4 : S128x1856x512.Idx → EReal)
    (e : Fin 128)
    (b0 : Vec Ideal S1x320x512 .bf16) (b1 : Vec Ideal S1x512x3712 .f32) (b2 : Vec Ideal S1x1856x512 .f32)
    (h0 : ∀ (c : Fin 320) (h : Fin 512), b0 (ix3 (0 : Fin 1) c h) = x (ix3 e c h))
    (h1 : ∀ (h : Fin 512) (k : Fin 3712), b1 (ix3 (0 : Fin 1) h k) = w3 (ix3 e h k))
    (h2 : ∀ (i : Fin 1856) (h : Fin 512), b2 (ix3 (0 : Fin 1) i h) = w4 (ix3 e i h))
    (c : Fin 320) (h : Fin 512) :
    k0_pay1 (F := Ideal) b0 (View.ld b1 r0_1) (View.ld b1 r0_2) b2 (ix3 (0 : Fin 1) c h)
      = Cert.Moe.ffn x w3 w4 (ix3 e c h) :=
  pay_value x w3 w4 e b0 (View.ld b1 r0_1) (View.ld b1 r0_2) b2 h0
    (fun h i => (ld_gate b1 h i).trans (h1 h _)) (fun h i => (ld_up b1 h i).trans (h1 h _)) h2 c h

/-! ## Each window's block at point t, read off any array: entry (0, a, b) is the array's entry (t, a, b)

A block's coordinate on an axis is the block index times the block's extent plus the coordinate inside the block. -/

private theorem read_blk0 (A : S128x320x512.Idx → EReal) (t : Fin cfg0.N) (r : Fin 320) (h : Fin 512) :
    (((cfg0.win 0).blk t).view.read (Elt Ideal) A : S1x320x512.Idx → EReal) (ix3 (0 : Fin 1) r h)
      = A (ix3 (⟨t.val, point_lt t⟩ : Fin 128) r h) := by
  obtain ⟨e0, e1, e2, -⟩ := idx_facts t
  rw [View.read_apply]
  show A _ = A _
  refine congrArg A (funext fun a => Fin.ext ?_)
  match a with
  | ⟨0, _⟩ => show win0_0.index t (0 : Fin 3) * 1 + 1 * 0 = t.val; rw [e0]; omega
  | ⟨1, _⟩ => show win0_0.index t (1 : Fin 3) * 320 + 1 * r.val = r.val; rw [e1]; omega
  | ⟨2, _⟩ => show win0_0.index t (2 : Fin 3) * 512 + 1 * h.val = h.val; rw [e2]; omega

private theorem read_blk1 (A : S128x512x3712.Idx → EReal) (t : Fin cfg0.N) (h : Fin 512) (k : Fin 3712) :
    (((cfg0.win 1).blk t).view.read (Elt Ideal) A : S1x512x3712.Idx → EReal) (ix3 (0 : Fin 1) h k)
      = A (ix3 (⟨t.val, point_lt t⟩ : Fin 128) h k) := by
  obtain ⟨-, -, -, e0, e1, e2, -⟩ := idx_facts t
  rw [View.read_apply]
  show A _ = A _
  refine congrArg A (funext fun a => Fin.ext ?_)
  match a with
  | ⟨0, _⟩ => show win0_1.index t (0 : Fin 3) * 1 + 1 * 0 = t.val; rw [e0]; omega
  | ⟨1, _⟩ => show win0_1.index t (1 : Fin 3) * 512 + 1 * h.val = h.val; rw [e1]; omega
  | ⟨2, _⟩ => show win0_1.index t (2 : Fin 3) * 3712 + 1 * k.val = k.val; rw [e2]; omega

private theorem read_blk2 (A : S128x1856x512.Idx → EReal) (t : Fin cfg0.N) (i : Fin 1856) (h : Fin 512) :
    (((cfg0.win 2).blk t).view.read (Elt Ideal) A : S1x1856x512.Idx → EReal) (ix3 (0 : Fin 1) i h)
      = A (ix3 (⟨t.val, point_lt t⟩ : Fin 128) i h) := by
  obtain ⟨-, -, -, -, -, -, e0, e1, e2, -⟩ := idx_facts t
  rw [View.read_apply]
  show A _ = A _
  refine congrArg A (funext fun a => Fin.ext ?_)
  match a with
  | ⟨0, _⟩ => show win0_2.index t (0 : Fin 3) * 1 + 1 * 0 = t.val; rw [e0]; omega
  | ⟨1, _⟩ => show win0_2.index t (1 : Fin 3) * 1856 + 1 * i.val = i.val; rw [e1]; omega
  | ⟨2, _⟩ => show win0_2.index t (2 : Fin 3) * 512 + 1 * h.val = h.val; rw [e2]; omega

private theorem read_blk3 (A : S128x320x512.Idx → EReal) (t : Fin cfg0.N) (r : Fin 320) (h : Fin 512) :
    (((cfg0.win 3).blk t).view.read (Elt Ideal) A : S1x320x512.Idx → EReal) (ix3 (0 : Fin 1) r h)
      = A (ix3 (⟨t.val, point_lt t⟩ : Fin 128) r h) := by
  obtain ⟨-, -, -, -, -, -, -, -, -, e0, e1, e2⟩ := idx_facts t
  rw [View.read_apply]
  show A _ = A _
  refine congrArg A (funext fun a => Fin.ext ?_)
  match a with
  | ⟨0, _⟩ => show win0_3.index t (0 : Fin 3) * 1 + 1 * 0 = t.val; rw [e0]; omega
  | ⟨1, _⟩ => show win0_3.index t (1 : Fin 3) * 320 + 1 * r.val = r.val; rw [e1]; omega
  | ⟨2, _⟩ => show win0_3.index t (2 : Fin 3) * 512 + 1 * h.val = h.val; rw [e2]; omega

/-! ## The input blocks at point t are expert t's slices of the three arrays -/

private theorem blk0_apply (c : Dev nD) (t : Fin cfg0.N) (r : Fin 320) (h : Fin 512) :
    (iblk (F := Ideal) m c 0 t : Vec Ideal S1x320x512 .bf16) (ix3 (0 : Fin 1) r h)
      = (V (F := Ideal) m c main_v65 : S128x320x512.Idx → EReal) (ix3 (⟨t.val, point_lt t⟩ : Fin 128) r h) := by
  unfold iblk
  exact read_blk0 (V (F := Ideal) m c main_v65) t r h

private theorem blk1_apply (c : Dev nD) (t : Fin cfg0.N) (h : Fin 512) (k : Fin 3712) :
    (iblk (F := Ideal) m c 1 t : Vec Ideal S1x512x3712 .f32) (ix3 (0 : Fin 1) h k)
      = (V (F := Ideal) m c main_arg3 : S128x512x3712.Idx → EReal) (ix3 (⟨t.val, point_lt t⟩ : Fin 128) h k) := by
  unfold iblk
  exact read_blk1 (V (F := Ideal) m c main_arg3) t h k

private theorem blk2_apply (c : Dev nD) (t : Fin cfg0.N) (i : Fin 1856) (h : Fin 512) :
    (iblk (F := Ideal) m c 2 t : Vec Ideal S1x1856x512 .f32) (ix3 (0 : Fin 1) i h)
      = (V (F := Ideal) m c main_arg4 : S128x1856x512.Idx → EReal) (ix3 (⟨t.val, point_lt t⟩ : Fin 128) i h) := by
  unfold iblk
  exact read_blk2 (V (F := Ideal) m c main_arg4) t i h

/-! ## What a point writes back -/

/-- On blocks that are expert t's slices of x, w3, w4, the body's value is block t of the network of x, w3, w4. -/
private theorem flush_pt (x : S128x320x512.Idx → EReal) (w3 : S128x512x3712.Idx → EReal) (w4 : S128x1856x512.Idx → EReal)
    (t : Fin cfg0.N)
    (b0 : Vec Ideal S1x320x512 .bf16) (b1 : Vec Ideal S1x512x3712 .f32) (b2 : Vec Ideal S1x1856x512 .f32)
    (h0 : ∀ (c : Fin 320) (h : Fin 512), b0 (ix3 (0 : Fin 1) c h) = x (ix3 (⟨t.val, point_lt t⟩ : Fin 128) c h))
    (h1 : ∀ (h : Fin 512) (k : Fin 3712), b1 (ix3 (0 : Fin 1) h k) = w3 (ix3 (⟨t.val, point_lt t⟩ : Fin 128) h k))
    (h2 : ∀ (i : Fin 1856) (h : Fin 512), b2 (ix3 (0 : Fin 1) i h) = w4 (ix3 (⟨t.val, point_lt t⟩ : Fin 128) i h)) :
    ((cfg0.win 3).cut (grid0.coords t) (k0_pay1 (F := Ideal) b0 (View.ld b1 r0_1) (View.ld b1 r0_2) b2) : S1x320x512.Idx → EReal)
      = ((cfg0.win 3).blk t).view.read (Elt Ideal) (Cert.Moe.ffn x w3 w4) := by
  funext j
  obtain ⟨p, r, h, rfl⟩ : ∃ (p : Fin 1) (r : Fin 320) (h : Fin 512), j = ix3 p r h := ⟨j 0, j 1, j 2, eq_ix3 j⟩
  obtain rfl : p = 0 := Subsingleton.elim _ _
  refine Eq.trans ?_ (read_blk3 (Cert.Moe.ffn x w3 w4) t r h).symm
  exact block_value x w3 w4 ⟨t.val, point_lt t⟩ b0 b1 b2 h0 h1 h2 r h

/-- The experts' network of the three arrays as the call finds them. -/
private abbrev net (c : Dev nD) : S128x320x512.Idx → EReal :=
  Cert.Moe.ffn (Gen.V (F := Ideal) m c main_v65) (Gen.V (F := Ideal) m c main_arg3) (Gen.V (F := Ideal) m c main_arg4)

/-- What point t writes back is block t of the network. -/
private theorem flushed_eq (c : Dev nD) (t : Fin cfg0.N) :
    (dats (F := Ideal) m 0 c).flushed 3 t = ((cfg0.win 3).blk t).view.read (Elt Ideal) (net m c) := by
  show (cfg0.win 3).cut (grid0.coords t) ((dats m 0 c).after 3 t) = _
  rw [after0_3]
  unfold Gen.out0_3
  rw [View.canon_unit_zero zero3]
  simp only [View.ld_unit_zero (S := S1x320x512) zero3, View.ld_unit_zero (S := S1x1856x512) zero3]
  exact flush_pt (V (F := Ideal) m c main_v65) (V (F := Ideal) m c main_arg3) (V (F := Ideal) m c main_arg4) t
    (iblk (F := Ideal) m c 0 t) (iblk (F := Ideal) m c 1 t) (iblk (F := Ideal) m c 2 t)
    (blk0_apply m c t) (blk1_apply m c t) (blk2_apply m c t)

/-! ## The output blocks cover the output array -/

/-- An index of the output array is in point t's block iff each coordinate is in the block's range on its axis. -/
private theorem mem_blk (t : Fin cfg0.N) (i : S128x320x512.Idx) :
    i ∈ ((cfg0.win 3).blk t).view.set ↔ ∀ a : Fin 3, win0_3.index t a * S1x320x512.size a ≤ (i a).val ∧ (i a).val < win0_3.index t a * S1x320x512.size a + S1x320x512.size a := by
  show i ∈ ((View.whole main_v66).slice (win0_3.rect t)).set ↔ _
  rw [View.set_slice_whole, Rect.mem_set_unit]
  exact Iff.rfl

/-- Index (e, c, h) lies in the block of point e. -/
private theorem cover (i : S128x320x512.Idx) :
    ∃ t : Fin cfg0.N, (cfg0.win 3).flush t = true ∧ i ∈ ((cfg0.win 3).blk t).view.set := by
  have hi0 : (i 0).val < 128 := (i 0).isLt
  have hi1 : (i 1).val < 320 := (i 1).isLt
  have hi2 : (i 2).val < 512 := (i 2).isLt
  have hN : (i 0).val < cfg0.N := Nat.lt_of_lt_of_eq hi0 N_0.symm
  refine ⟨⟨(i 0).val, hN⟩, flush0_3 _, ?_⟩
  obtain ⟨-, -, -, -, -, -, -, -, -, e0, e1, e2⟩ := idx_facts ⟨(i 0).val, hN⟩
  rw [mem_blk]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e0]; show (i 0).val * 1 ≤ (i 0).val ∧ (i 0).val < (i 0).val * 1 + 1; omega
  | ⟨1, _⟩ =>
    show win0_3.index ⟨(i 0).val, hN⟩ (1 : Fin 3) * 320 ≤ (i 1).val ∧ (i 1).val < win0_3.index ⟨(i 0).val, hN⟩ (1 : Fin 3) * 320 + 320
    rw [e1]; omega
  | ⟨2, _⟩ =>
    show win0_3.index ⟨(i 0).val, hN⟩ (2 : Fin 3) * 512 ≤ (i 2).val ∧ (i 2).val < win0_3.index ⟨(i 0).val, hN⟩ (2 : Fin 3) * 512 + 512
    rw [e2]; omega

/-- After the kernel call the output array holds the experts' network of the three arrays the call was given. -/
theorem pallas_eq (c : Dev nD) :
    ((Gen.dats (F := Ideal) m 0 c).arrAt 3 cfg0.N : S128x320x512.Idx → EReal)
      = Cert.Moe.ffn (Gen.V (F := Ideal) m c main_v65) (Gen.V (F := Ideal) m c main_arg3) (Gen.V (F := Ideal) m c main_arg4) :=
  (dats (F := Ideal) m 0 c).arrAt_eq_of_cover 3 (net m c) (fun t _ => flushed_eq m c t) cover

end Cert.KernelIdeal.KValue

end
-- ==== Proof.KRun.lean ====
import proofs.«141214_j59691455480110_1_alg».proof.Proof.Spec
import proofs.«141214_j59691455480110_1_alg».proof.Proof.Gen.KernelIdeal.Frame
import Idealize.ShloMosaic.Lib.StableHlo.Run

noncomputable section

namespace Cert.KernelIdeal.KValue

open Idealize.ShloMosaic Cert.KernelIdeal Cert.KernelIdeal.Gen Idealize.ShloMosaic.TcCoe Idealize.SL.Sem

variable {F : FTy → Type} [FloatOps F]
variable (m : (ℓ : Loc nD τ sig) → Buf (Elt F) ℓ) (ρ : Dev nD → PrngReg)

/- The array operations are opaque below: the two sides of every equation are the same composition of them. -/
attribute [local irreducible] Host.gather Host.scatter Host.sort2 Host.reduceWindow Host.scatterAdd concatenate

/-! ## The values the host operations before the kernel call leave -/

/-- The experts of the pairs in sorted order. -/
theorem V_eS (c : Dev nD) :
    Gen.V (F := F) m c main_v12 = Cert.Moe.eS (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The tokens of the pairs in sorted order. -/
theorem V_tokS (c : Dev nD) :
    Gen.V (F := F) m c main_v19 = Cert.Moe.tokS (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The router weights of the pairs in sorted order. -/
theorem V_wS (c : Dev nD) :
    Gen.V (F := F) m c main_v26
      = Cert.Moe.wS (m ((c.tc : Thread nD τ).loc main_arg1)) (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The rank of each sorted pair among the pairs of its expert. -/
theorem V_pos (c : Dev nD) :
    Gen.V (F := F) m c main_v41 = Cert.Moe.pos (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The rank is below the capacity. -/
theorem V_valid (c : Dev nD) :
    Gen.V (F := F) m c main_v43 = Cert.Moe.valid (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The array the kernel call is given as its first operand is the dispatch table (at bf16) of the arguments. -/
theorem V_x (c : Dev nD) :
    Gen.V (F := F) m c main_v65
      = Cert.Moe.dispatch (constant S_ .bf16 0x0000#16)
          (truncf .bf16 (m ((c.tc : Thread nD τ).loc main_arg0)) (by decide)) (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## The host operations after the kernel call -/

/-- From any contents `W` of the buffers that has the kernel call's output array at `y` and the sorted experts,
    ranks, capacity flags, tokens and weights at the routing of the arguments, the operations after the kernel call
    leave the result buffer at `Cert.Moe.kerOut y` of the arguments. -/
private theorem tail_kerOut (W : Valuation τ sig (Elt F)) (y : FVec F S128x320x512 .f32)
    (a1 : IVec S4096x6 32) (a2 : FVec F S4096x6 .f32)
    (h66 : W (Proc.devRef .tc main_v66) = y)
    (h12 : W (Proc.devRef .tc main_v12) = Cert.Moe.eS a1)
    (h41 : W (Proc.devRef .tc main_v41) = Cert.Moe.pos a1)
    (h43 : W (Proc.devRef .tc main_v43) = Cert.Moe.valid a1)
    (h19 : W (Proc.devRef .tc main_v19) = Cert.Moe.tokS a1)
    (h26 : W (Proc.devRef .tc main_v26) = Cert.Moe.wS a1 a2) :
    StableHlo.after (List.flatten [Gen.hostOps1, Gen.hostOps1_1, Gen.hostOps1_2, Gen.hostOps1_3, Gen.hostOps1_4]) W
        (Proc.devRef .tc main_v92)
      = Cert.Moe.kerOut y a1 a2 := by
  simp only [Gen.hostOps1, Gen.hostOps1_1, Gen.hostOps1_2, Gen.hostOps1_3, Gen.hostOps1_4,
    List.flatten_cons, List.flatten_nil, List.append_nil, List.cons_append, List.nil_append]
  after_results_simp
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide))
  rw [h66, h12, h41, h43, h19, h26]
  rfl

/-- What the operations after the kernel call leave in the result buffer, from the kernel call's output array as the
    frame run leaves it and every other buffer as the kernel call found it. -/
private theorem tail_eq (c : Dev nD) :
    Pipeline.afterTail₀ cfgs (Gen.dats (F := F) m) 0 (Gen.V0 m)
        [Gen.hostOps1, Gen.hostOps1_1, Gen.hostOps1_2, Gen.hostOps1_3, Gen.hostOps1_4] c main_v92
      = Cert.Moe.kerOut ((Gen.dats (F := F) m 0 c).arrAt 3 cfg0.N)
          (m ((c.tc : Thread nD τ).loc main_arg1)) (m ((c.tc : Thread nD τ).loc main_arg2)) := by
  unfold Pipeline.afterTail₀
  exact tail_kerOut _ _ _ _
    (Pipeline.withArrays_arr spec0 launch0.win.arr_inj c _ _ 3)
    ((Pipeline.withArrays_of_ne spec0 c (Gen.V0 m c) _ main_v12
      (by exact (by decide : ∀ w, Pipeline.arrRef spec0 w ≠ main_v12))).trans (V_eS m c))
    ((Pipeline.withArrays_of_ne spec0 c (Gen.V0 m c) _ main_v41
      (by exact (by decide : ∀ w, Pipeline.arrRef spec0 w ≠ main_v41))).trans (V_pos m c))
    ((Pipeline.withArrays_of_ne spec0 c (Gen.V0 m c) _ main_v43
      (by exact (by decide : ∀ w, Pipeline.arrRef spec0 w ≠ main_v43))).trans (V_valid m c))
    ((Pipeline.withArrays_of_ne spec0 c (Gen.V0 m c) _ main_v19
      (by exact (by decide : ∀ w, Pipeline.arrRef spec0 w ≠ main_v19))).trans (V_tokS m c))
    ((Pipeline.withArrays_of_ne spec0 c (Gen.V0 m c) _ main_v26
      (by exact (by decide : ∀ w, Pipeline.arrRef spec0 w ≠ main_v26))).trans (V_wS m c))

/-- On every device, from any memory with zero counters: every weakly fair execution of the kernel's @main
    terminates with its result at `Cert.Moe.kerOut` of the array the kernel call left and the arguments, and
    the arguments unchanged. -/
theorem run :
    θ_run defs (onTc (τ := τ) (main (F := F))) ⟨m, fun _ => 0, ρ⟩ fun r => ∀ c : Dev nD,
      r.2.mem ((c.tc : Thread nD τ).loc main_v92)
          = Cert.Moe.kerOut ((Gen.dats (F := F) m 0 c).arrAt 3 cfg0.N)
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v92 (Pipeline.mem_restRefs_of main_v92 (by decide) (by decide))).trans (tail_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).1 2).trans (((Gen.dats m 0 c).arrAt_in 2 rfl _).trans ((Gen.A_eq m c 2).trans (Gen.V_main_arg4 m c)))⟩)
    (Gen.run_main m ρ)

end Cert.KernelIdeal.KValue

end
-- ==== Proof.lean ====
/-
  The certificate of the mixture-of-experts forward pass: a Pallas kernel computing the 128 experts' feed-forward
  networks on a table of dispatched tokens (one expert per grid point: two products of the expert's [320, 512] token
  block with the halves of its joined gate/up weights, silu(gate) * up, a product with its down weights; the factors
  narrowed to bf16, which at Ideal is the identity), inside jax code that sorts the (token, choice) pairs by expert,
  ranks each pair within its expert, writes the tokens' hidden rows into a [128 * 320 + 1, 512] slot table, and
  after the kernel reads each pair's output row back, scales it by the router weight and adds it onto its token's
  row — against a reference that does the same routing and computes the network with two batched einsums.

  The two programs' routing, dispatch and combine are the same operations on the same arguments (Proof/Spec.lean
  names them once; Proof/KRun.lean and Proof/RefRun.lean read each program's run as those terms). They differ in
  two places. The network: the kernel's output array is, entry by entry, the sum the reference's einsums compute
  (Proof/KPayload.lean, Proof/KArray.lean, Proof/RefFFN.lean: a product into a zero accumulator and a dot_general
  are the same sum at Ideal, tpu.logistic is 1 / (1 + e^-z)). And the read-back: the kernel appends a zero row to
  the 40960 output rows and indexes 40961 rows, the reference indexes the 40960 rows; jnp normalises a negative
  index by the axis extent and the gather clamps, so the two agree exactly where the index is a row of the table —
  which holds (Proof/IntSort.lean, Proof/IntCount.lean, Proof/IntRank.lean) because the pairs are sorted by
  expert: a pair's rank within its expert, its sorted position less the number of pairs of smaller experts, is never
  negative, and under the capacity guard the slot 320 * expert + rank lies in [0, 40960). That needs every expert
  index to be an expert, 0 ≤ index < 128: the precondition's added conjuncts (Proof/PreDecode.lean).
-/
import proofs.«141214_j59691455480110_1_alg».proof.Defs
import proofs.«141214_j59691455480110_1_alg».proof.Proof.Gen.Kernel
import proofs.«141214_j59691455480110_1_alg».proof.Proof.Gen.Kernel.Skeleton
import proofs.«141214_j59691455480110_1_alg».proof.Proof.Gen.Kernel.Launch
import proofs.«141214_j59691455480110_1_alg».proof.Proof.Gen.Kernel.Points
import proofs.«141214_j59691455480110_1_alg».proof.Proof.Gen.Kernel.Frame
import proofs.«141214_j59691455480110_1_alg».proof.Proof.Gen.KernelIdeal
import proofs.«141214_j59691455480110_1_alg».proof.Proof.Gen.KernelIdeal.Skeleton
import proofs.«141214_j59691455480110_1_alg».proof.Proof.Gen.KernelIdeal.Launch
import proofs.«141214_j59691455480110_1_alg».proof.Proof.Gen.KernelIdeal.Points
import proofs.«141214_j59691455480110_1_alg».proof.Proof.Gen.KernelIdeal.Frame
import proofs.«141214_j59691455480110_1_alg».proof.Proof.Gen.ReferenceIdeal
import proofs.«141214_j59691455480110_1_alg».proof.Proof.Gen.Pre_finite_inputs
import proofs.«141214_j59691455480110_1_alg».proof.Proof.Spec
import proofs.«141214_j59691455480110_1_alg».proof.Proof.PreDecode
import proofs.«141214_j59691455480110_1_alg».proof.Proof.IntRank
import proofs.«141214_j59691455480110_1_alg».proof.Proof.RowsEq
import proofs.«141214_j59691455480110_1_alg».proof.Proof.RefFFN
import proofs.«141214_j59691455480110_1_alg».proof.Proof.RefRun
import proofs.«141214_j59691455480110_1_alg».proof.Proof.KArray
import proofs.«141214_j59691455480110_1_alg».proof.Proof.KRun
import Idealize.ShloMosaic.Adequacy
import Idealize.ShloMosaic.Init

noncomputable section

namespace Cert.Proof

open Idealize.ShloMosaic Idealize.ShloMosaic.TcCoe Idealize.SL.Sem

/-! ## The dispatch table does not depend on the float format at Ideal -/

/-- Narrowing the hidden states to bf16 and starting from the bf16 zero gives, at Ideal, the table the f32 states
    and the f32 zero give: a change of format is the identity on the extended reals and both zero words denote 0. -/
theorem dispatch_bf16 (a0 : FVec Ideal Cert.Moe.S4096x512 .f32) (a1 : IVec Cert.Moe.S4096x6 32)
    (hb : FTy.bits .bf16 < FTy.bits .f32) :
    (Cert.Moe.dispatch (F := Ideal) (φ := .bf16) (constant Cert.Moe.S_ .bf16 0x0000#16) (truncf .bf16 a0 hb) a1 :
        Cert.Moe.S128x320x512.Idx → EReal)
      = Cert.Moe.dispatch (F := Ideal) (φ := .f32) (constant Cert.Moe.S_ .f32 0x00000000#32) a0 a1 := by
  have hz : (constant (F := Ideal) Cert.Moe.S_ .bf16 0x0000#16 : Cert.Moe.S_.Idx → EReal)
      = constant (F := Ideal) Cert.Moe.S_ .f32 0x00000000#32 := by
    funext i
    simp [constant, Ideal.ofBits_def, Ideal.ofBits, Ideal.ieee]
  have ht : (truncf (F := Ideal) .bf16 a0 hb : Cert.Moe.S4096x512.Idx → EReal) = a0 := by
    funext i
    simp [truncf]
  calc (Cert.Moe.dispatch (F := Ideal) (φ := .bf16) (constant Cert.Moe.S_ .bf16 0x0000#16) (truncf .bf16 a0 hb) a1 :
          Cert.Moe.S128x320x512.Idx → EReal)
      = Cert.Moe.dispatch (F := Ideal) (φ := .f32)
          (constant (F := Ideal) Cert.Moe.S_ .bf16 0x0000#16 : Cert.Moe.S_.Idx → EReal)
          (truncf (F := Ideal) .bf16 a0 hb : Cert.Moe.S4096x512.Idx → EReal) a1 := rfl
    _ = _ := by rw [hz, ht]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The kernel's result is the reference's result term of the kernel's own arguments. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Moe.kerOut (F := Ideal) ((Cert.KernelIdeal.Gen.dats (F := Ideal) m 0 c).arrAt 3 Cert.KernelIdeal.cfg0.N)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.Moe.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) := by
  have hE := Cert.Moe.einrange_of_pre (F := Ideal) _ _ _ _ _ (hpre c)
  have hg := Cert.Moe.gidx_range _ hE
  have hY : ((Cert.KernelIdeal.Gen.dats (F := Ideal) m 0 c).arrAt 3 Cert.KernelIdeal.cfg0.N : Cert.Moe.S128x320x512.Idx → EReal)
      = Cert.Moe.ffn
          (Cert.Moe.dispatch (F := Ideal) (φ := .f32) (constant Cert.Moe.S_ .f32 0x00000000#32)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
    refine (Cert.KernelIdeal.KValue.pallas_eq m c).trans ?_
    rw [Cert.KernelIdeal.KValue.V_x, Cert.KernelIdeal.Gen.V_main_arg3, Cert.KernelIdeal.Gen.V_main_arg4]
    exact congrArg (fun x => Cert.Moe.ffn x _ _) (dispatch_bf16 _ _ _)
  unfold Cert.Moe.kerOut Cert.Moe.refOut
  rw [Cert.Moe.rows_eq _ _ hg, Cert.Moe.refFFN_eq]
  exact congrArg (fun y => Cert.Moe.combine (Cert.Moe.rowsR y _) _ _) hY

theorem algebraic : Cert.algebraic_KernelIdeal_ReferenceIdeal := by
  intro m ρ m' ρ' hpre hagree
  refine ⟨fun c => Cert.Moe.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Moe.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.KValue.run (F := Ideal) m ρ)
    have hv := (h c).1.trans (kernel_value m hpre c)
    exact ⟨hv, hv, (h c).2⟩
  · refine (θ_run Cert.ReferenceIdeal.defs _ _).mono (fun _ h c => ?_) (Cert.ReferenceIdeal.RefRun.run (F := Ideal) m' ρ')
    have hv := (h c).1
    rw [(hagree c).1, (hagree c).2.1, (hagree c).2.2.1, (hagree c).2.2.2.1, (hagree c).2.2.2.2] at hv
    exact ⟨hv, hv, (h c).2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
